-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x8 : Shape := ⟨3, ![4, 2048, 8]⟩
abbrev S8 : Shape := ⟨1, ![8]⟩
abbrev S512x8 : Shape := ⟨2, ![512, 8]⟩
abbrev S512x512 : Shape := ⟨2, ![512, 512]⟩
abbrev S_ : Shape := ⟨0, ![]⟩

class Facts : Prop where
  bcast_S_S4x2048x8 : S_.BroadcastsInDim S4x2048x8 (![] : Fin 0 → Fin S4x2048x8.rank)
  reducesTo_S4x2048x8_S_d0_1_2 : S4x2048x8.ReducesTo [0, 1, 2] S_
  h_S_ : 0 < S_.numel
  bcast_S_S8 : S_.BroadcastsInDim S8 (![] : Fin 0 → Fin S8.rank)
  reducesTo_S8_S_d0 : S8.ReducesTo [0] S_
  bcast_S_S512x8 : S_.BroadcastsInDim S512x8 (![] : Fin 0 → Fin S512x8.rank)
  reducesTo_S512x8_S_d0_1 : S512x8.ReducesTo [0, 1] S_
  bcast_S_S512x512 : S_.BroadcastsInDim S512x512 (![] : Fin 0 → Fin S512x512.rank)
  reducesTo_S512x512_S_d0_1 : S512x512.ReducesTo [0, 1] S_

variable [Facts]

def fn_part1 {F : FTy → Type} [FloatOps F] (main_arg4 : FVec F S512x8 .f32) (main_arg5 : FVec F S512x512 .f32) (main_v13 : IVec S_ 1) (main_v16 : IVec S512x8 1) : IVec S_ 1 :=
  let main_c_5 : IVec S_ 1 := constantI S_ 1 1#1
  let main_v17 : IVec S_ 1 := (fun x v => Host.reduce IntOp.andi x v reducesTo_S512x8_S_d0_1 h_S_) main_v16 main_c_5
  let main_v18 : IVec S_ 1 := andi main_v13 main_v17
  let main_v19 : FVec F S512x8 .f32 := Host.absf main_arg4
  let main_cst_6 : FVec F S_ .f32 := constant S_ .f32 0x7F800000#32
  let main_v20 : FVec F S512x8 .f32 := broadcastInDim S512x8 ![] bcast_S_S512x8 main_cst_6
  let main_v21 : IVec S512x8 1 := cmpf .olt main_v19 main_v20
  let main_c_7 : IVec S_ 1 := constantI S_ 1 1#1
  let main_v22 : IVec S_ 1 := (fun x v => Host.reduce IntOp.andi x v reducesTo_S512x8_S_d0_1 h_S_) main_v21 main_c_7
  let main_v23 : IVec S_ 1 := andi main_v18 main_v22
  let main_v24 : FVec F S512x512 .f32 := Host.absf main_arg5
  let main_cst_8 : FVec F S_ .f32 := constant S_ .f32 0x7F800000#32
  let main_v25 : FVec F S512x512 .f32 := broadcastInDim S512x512 ![] bcast_S_S512x512 main_cst_8
  let main_v26 : IVec S512x512 1 := cmpf .olt main_v24 main_v25
  let main_c_9 : IVec S_ 1 := constantI S_ 1 1#1
  let main_v27 : IVec S_ 1 := (fun x v => Host.reduce IntOp.andi x v reducesTo_S512x512_S_d0_1 h_S_) main_v26 main_c_9
  let main_v28 : IVec S_ 1 := andi main_v23 main_v27
  main_v28

def fn {F : FTy → Type} [FloatOps F] (main_arg0 : FVec F S4x2048x8 .f32) (main_arg1 : FVec F S8 .f32) (main_arg2 : FVec F S512x8 .f32) (main_arg3 : FVec F S512x8 .f32) (main_arg4 : FVec F S512x8 .f32) (main_arg5 : FVec F S512x512 .f32) : IVec S_ 1 :=
  let main_v0 : FVec F S4x2048x8 .f32 := Host.absf main_arg0
  let main_cst : FVec F S_ .f32 := constant S_ .f32 0x7F800000#32
  let main_v1 : FVec F S4x2048x8 .f32 := broadcastInDim S4x2048x8 ![] bcast_S_S4x2048x8 main_cst
  let main_v2 : IVec S4x2048x8 1 := cmpf .olt main_v0 main_v1
  let main_c : IVec S_ 1 := constantI S_ 1 1#1
  let main_v3 : IVec S_ 1 := (fun x v => Host.reduce IntOp.andi x v reducesTo_S4x2048x8_S_d0_1_2 h_S_) main_v2 main_c
  let main_v4 : FVec F S8 .f32 := Host.absf main_arg1
  let main_cst_0 : FVec F S_ .f32 := constant S_ .f32 0x7F800000#32
  let main_v5 : FVec F S8 .f32 := broadcastInDim S8 ![] bcast_S_S8 main_cst_0
  let main_v6 : IVec S8 1 := cmpf .olt main_v4 main_v5
  let main_c_1 : IVec S_ 1 := constantI S_ 1 1#1
  let main_v7 : IVec S_ 1 := (fun x v => Host.reduce IntOp.andi x v reducesTo_S8_S_d0 h_S_) main_v6 main_c_1
  let main_v8 : IVec S_ 1 := andi main_v3 main_v7
  let main_v9 : FVec F S512x8 .f32 := Host.absf main_arg2
  let main_cst_2 : FVec F S_ .f32 := constant S_ .f32 0x7F800000#32
  let main_v10 : FVec F S512x8 .f32 := broadcastInDim S512x8 ![] bcast_S_S512x8 main_cst_2
  let main_v11 : IVec S512x8 1 := cmpf .olt main_v9 main_v10
  let main_c_3 : IVec S_ 1 := constantI S_ 1 1#1
  let main_v12 : IVec S_ 1 := (fun x v => Host.reduce IntOp.andi x v reducesTo_S512x8_S_d0_1 h_S_) main_v11 main_c_3
  let main_v13 : IVec S_ 1 := andi main_v8 main_v12
  let main_v14 : FVec F S512x8 .f32 := Host.absf main_arg3
  let main_cst_4 : FVec F S_ .f32 := constant S_ .f32 0x7F800000#32
  let main_v15 : FVec F S512x8 .f32 := broadcastInDim S512x8 ![] bcast_S_S512x8 main_cst_4
  let main_v16 : IVec S512x8 1 := cmpf .olt main_v14 main_v15
  fn_part1 (F := F) main_arg4 main_arg5 main_v13 main_v16
-- ==== Kernel.lean ====
abbrev S4x2048x8 : Shape := ⟨3, ![4, 2048, 8]⟩
abbrev S8 : Shape := ⟨1, ![8]⟩
abbrev S512x8 : Shape := ⟨2, ![512, 8]⟩
abbrev S512x512 : Shape := ⟨2, ![512, 512]⟩
abbrev S8x512 : Shape := ⟨2, ![8, 512]⟩
abbrev S_ : Shape := ⟨0, ![]⟩
abbrev S4x2048x512 : Shape := ⟨3, ![4, 2048, 512]⟩
abbrev S1x2048x8 : Shape := ⟨3, ![1, 2048, 8]⟩
abbrev S1x512x512 : Shape := ⟨3, ![1, 512, 512]⟩
abbrev S2048x8 : Shape := ⟨2, ![2048, 8]⟩
abbrev S1x8 : Shape := ⟨2, ![1, 8]⟩
abbrev S1x512x8 : Shape := ⟨3, ![1, 512, 8]⟩
abbrev S2048x512 : Shape := ⟨2, ![2048, 512]⟩
abbrev S512x64 : Shape := ⟨2, ![512, 64]⟩
abbrev S2048x64 : Shape := ⟨2, ![2048, 64]⟩
abbrev S512x1 : Shape := ⟨2, ![512, 1]⟩
abbrev S64x512 : Shape := ⟨2, ![64, 512]⟩
abbrev S512 : Shape := ⟨1, ![512]⟩

abbrev nBuf : Space → Nat
  | .hbm => 14
  | .vmem => 10
  | .smem => 0
  | _ => 0

abbrev bufTy : (tb : Table) → Fin (tcTables nBuf tb) → BufTy
  | .hbm, ⟨0, _⟩ => ⟨S4x2048x8, .f32⟩
  | .hbm, ⟨1, _⟩ => ⟨S8, .f32⟩
  | .hbm, ⟨2, _⟩ => ⟨S512x8, .f32⟩
  | .hbm, ⟨3, _⟩ => ⟨S512x8, .f32⟩
  | .hbm, ⟨4, _⟩ => ⟨S512x8, .f32⟩
  | .hbm, ⟨5, _⟩ => ⟨S512x512, .f32⟩
  | .hbm, ⟨6, _⟩ => ⟨S8x512, .f32⟩
  | .hbm, ⟨7, _⟩ => ⟨S_, .f32⟩
  | .hbm, ⟨8, _⟩ => ⟨S8x512, .f32⟩
  | .hbm, ⟨9, _⟩ => ⟨S8x512, .f32⟩
  | .hbm, ⟨10, _⟩ => ⟨S8x512, .f32⟩
  | .hbm, ⟨11, _⟩ => ⟨S8x512, .f32⟩
  | .hbm, ⟨12, _⟩ => ⟨S512x512, .f32⟩
  | .hbm, ⟨13, _⟩ => ⟨S4x2048x512, .f32⟩
  | .local _ .vmem, ⟨0, _⟩ => ⟨S1x2048x8, .f32⟩
  | .local _ .vmem, ⟨1, _⟩ => ⟨S1x2048x8, .f32⟩
  | .local _ .vmem, ⟨2, _⟩ => ⟨S8, .f32⟩
  | .local _ .vmem, ⟨3, _⟩ => ⟨S8x512, .f32⟩
  | .local _ .vmem, ⟨4, _⟩ => ⟨S8x512, .f32⟩
  | .local _ .vmem, ⟨5, _⟩ => ⟨S8x512, .f32⟩
  | .local _ .vmem, ⟨6, _⟩ => ⟨S512x512, .f32⟩
  | .local _ .vmem, ⟨7, _⟩ => ⟨S1x512x512, .f32⟩
  | .local _ .vmem, ⟨8, _⟩ => ⟨S1x512x512, .f32⟩
  | .local _ .vmem, ⟨9, _⟩ => ⟨S512x512, .bf16⟩
  | _, _ => ⟨S4x2048x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨2, ![4, 4], ![false, false]⟩

def k0_mult1 (i : grid0.Coords) : BitVec 32 :=
  let arg1 : BitVec 32 := BitVec.ofNat 32 (i 1).val
  let c512_i32 : BitVec 32 := 512#32
  let v0 : BitVec 32 := Scalar.muli arg1 c512_i32
  v0
def k0_off1 (i : grid0.Coords) : Fin 3 → Nat :=
  let c0_3 : Index := 0#32
  let arg1 : BitVec 32 := BitVec.ofNat 32 (i 1).val
  let c512_i32 : BitVec 32 := 512#32
  let v0 : BitVec 32 := Scalar.muli arg1 c512_i32
  let v1 : BitVec 32 := v0
  let v10 : Index := Scalar.indexCast v1
  let c0_4 : Index := 0#32
  ![0, v10.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x2048x8 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S8 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S8x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S8x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S8x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S512x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

class Facts₀ : Prop where
  transposes_S512x8_S8x512_1_0 : S512x8.Transposes [1, 0] S8x512
  bcast_S_S8x512 : S_.BroadcastsInDim S8x512 (![] : Fin 0 → Fin S8x512.rank)
  transposes_S512x512_S512x512_1_0 : S512x512.Transposes [1, 0] S512x512
  inb_S8_S8_0 : ∀ a, (![0] : Fin 1 → Nat) a + S8.size a ≤ S8.size a
  h_S8 : 0 < S8.numel
  inb_S1x2048x8_S1x2048x8_0_0_0 : ∀ a, (![0, 0, 0] : Fin 3 → Nat) a + S1x2048x8.size a ≤ S1x2048x8.size a
  h_S1x2048x8 : 0 < S1x2048x8.numel
  shapeCasts_S1x2048x8_S2048x8 : S1x2048x8.ShapeCasts S2048x8
  shapeCasts_S8_S1x8 : S8.ShapeCasts S1x8
  broadcasts_S1x8_S2048x8 : S1x8.Broadcasts S2048x8
  bitsLt_bf16_f32 : FTy.bits .bf16 < FTy.bits .f32
  h_S1x512x8 : 0 < S1x512x8.numel
  shapeCasts_S1x512x8_S512x8 : S1x512x8.ShapeCasts S512x8
  broadcasts_S1x8_S512x8 : S1x8.Broadcasts S512x8
  inb_S8x512_S8x512_0_0 : ∀ a, (![0, 0] : Fin 2 → Nat) a + S8x512.size a ≤ S8x512.size a
  h_S8x512 : 0 < S8x512.numel
  shapeCasts_S8x512_S8x512 : S8x512.ShapeCasts S8x512
  slices_S512x512_o0_0_S512x64 : S512x512.Slices ![0, 0] S512x64
  slices_S2048x512_o0_0_S2048x64 : S2048x512.Slices ![0, 0] S2048x64
  slices_S2048x64_o0_0_S512x64 : S2048x64.Slices ![0, 0] S512x64
  transposes_S512x64_p1_0_S64x512 : S512x64.Transposes [1, 0] S64x512
  reduces_S512x512_S512 : S512x512.Reduces [1] S512
  shapeCasts_S512_S512x1 : S512.ShapeCasts S512x1
  broadcasts_S512x1_S512x512 : S512x1.Broadcasts S512x512
  broadcasts_S512x1_S512x64 : S512x1.Broadcasts S512x64
  slices_S2048x64_o512_0_S512x64 : S2048x64.Slices ![512, 0] S512x64
  slices_S2048x64_o1024_0_S512x64 : S2048x64.Slices ![1024, 0] S512x64
  slices_S2048x64_o1536_0_S512x64 : S2048x64.Slices ![1536, 0] S512x64
  inb_S512x512_S512x64_0_0 : ∀ a, (![0, 0] : Fin 2 → Nat) a + S512x64.size a ≤ S512x512.size a
  h_S512x64 : 0 < S512x64.numel
  shapeCasts_S512x64_S512x64 : S512x64.ShapeCasts S512x64
  packedbf16_S512x512_S512x64_0_0 : (Rect.unit (s := S512x512) ![0, 0] S512x64.size inb_S512x512_S512x64_0_0).PackedRows (EltTy.packing .bf16)
  slices_S512x512_o0_64_S512x64 : S512x512.Slices ![0, 64] S512x64
  slices_S2048x512_o0_64_S2048x64 : S2048x512.Slices ![0, 64] S2048x64
  inb_S512x512_S512x64_0_64 : ∀ a, (![0, 64] : Fin 2 → Nat) a + S512x64.size a ≤ S512x512.size a
  packedbf16_S512x512_S512x64_0_64 : (Rect.unit (s := S512x512) ![0, 64] S512x64.size inb_S512x512_S512x64_0_64).PackedRows (EltTy.packing .bf16)
  slices_S512x512_o0_128_S512x64 : S512x512.Slices ![0, 128] S512x64
  slices_S2048x512_o0_128_S2048x64 : S2048x512.Slices ![0, 128] S2048x64
  inb_S512x512_S512x64_0_128 : ∀ a, (![0, 128] : Fin 2 → Nat) a + S512x64.size a ≤ S512x512.size a
  packedbf16_S512x512_S512x64_0_128 : (Rect.unit (s := S512x512) ![0, 128] S512x64.size inb_S512x512_S512x64_0_128).PackedRows (EltTy.packing .bf16)
  slices_S512x512_o0_192_S512x64 : S512x512.Slices ![0, 192] S512x64
  slices_S2048x512_o0_192_S2048x64 : S2048x512.Slices ![0, 192] S2048x64
  inb_S512x512_S512x64_0_192 : ∀ a, (![0, 192] : Fin 2 → Nat) a + S512x64.size a ≤ S512x512.size a
  packedbf16_S512x512_S512x64_0_192 : (Rect.unit (s := S512x512) ![0, 192] S512x64.size inb_S512x512_S512x64_0_192).PackedRows (EltTy.packing .bf16)
  slices_S512x512_o0_256_S512x64 : S512x512.Slices ![0, 256] S512x64
  slices_S2048x512_o0_256_S2048x64 : S2048x512.Slices ![0, 256] S2048x64
  inb_S512x512_S512x64_0_256 : ∀ a, (![0, 256] : Fin 2 → Nat) a + S512x64.size a ≤ S512x512.size a
  packedbf16_S512x512_S512x64_0_256 : (Rect.unit (s := S512x512) ![0, 256] S512x64.size inb_S512x512_S512x64_0_256).PackedRows (EltTy.packing .bf16)
  slices_S512x512_o0_320_S512x64 : S512x512.Slices ![0, 320] S512x64
  slices_S2048x512_o0_320_S2048x64 : S2048x512.Slices ![0, 320] S2048x64
  inb_S512x512_S512x64_0_320 : ∀ a, (![0, 320] : Fin 2 → Nat) a + S512x64.size a ≤ S512x512.size a
  packedbf16_S512x512_S512x64_0_320 : (Rect.unit (s := S512x512) ![0, 320] S512x64.size inb_S512x512_S512x64_0_320).PackedRows (EltTy.packing .bf16)
  slices_S512x512_o0_384_S512x64 : S512x512.Slices ![0, 384] S512x64
  slices_S2048x512_o0_384_S2048x64 : S2048x512.Slices ![0, 384] S2048x64
  inb_S512x512_S512x64_0_384 : ∀ a, (![0, 384] : Fin 2 → Nat) a + S512x64.size a ≤ S512x512.size a
  packedbf16_S512x512_S512x64_0_384 : (Rect.unit (s := S512x512) ![0, 384] S512x64.size inb_S512x512_S512x64_0_384).PackedRows (EltTy.packing .bf16)
  slices_S512x512_o0_448_S512x64 : S512x512.Slices ![0, 448] S512x64
  slices_S2048x512_o0_448_S2048x64 : S2048x512.Slices ![0, 448] S2048x64
  inb_S512x512_S512x64_0_448 : ∀ a, (![0, 448] : Fin 2 → Nat) a + S512x64.size a ≤ S512x512.size a
  packedbf16_S512x512_S512x64_0_448 : (Rect.unit (s := S512x512) ![0, 448] S512x64.size inb_S512x512_S512x64_0_448).PackedRows (EltTy.packing .bf16)
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S1x512x512_S1x512x512_0_0_0 : ∀ a, (![0, 0, 0] : Fin 3 → Nat) a + S1x512x512.size a ≤ S1x512x512.size a
  h_S1x512x512 : 0 < S1x512x512.numel
  shapeCasts_S1x512x512_S512x512 : S1x512x512.ShapeCasts S512x512
  shapeCasts_S512x512_S1x512x512 : S512x512.ShapeCasts S1x512x512
  dot_S2048x8_S8x512_S2048x512_1_0_0_1_n_n_wf : DotDims.WF S2048x8 S8x512 S2048x512 [1] [0] [0] [1] [] []
  dot_S512x8_S8x512_S512x512_1_0_0_1_n_n_wf : DotDims.WF S512x8 S8x512 S512x512 [1] [0] [0] [1] [] []
  dot_S512x64_S64x512_S512x512_1_0_0_1_n_n_wf : DotDims.WF S512x64 S64x512 S512x512 [1] [0] [0] [1] [] []
  dot_S512x512_S512x64_S512x64_1_0_0_1_n_n_wf : DotDims.WF S512x512 S512x64 S512x64 [1] [0] [0] [1] [] []
  dot_S512x512_S512x512_S512x512_1_0_0_1_n_n_wf : DotDims.WF S512x512 S512x512 S512x512 [1] [0] [0] [1] [] []
  hrank0 : 0 < grid0.rank
  k0_mult1_dvd : ∀ i : grid0.Coords, 512 ∣ (k0_mult1 i).toNat
  k0_off1_inb : ∀ i : grid0.Coords, ∀ a, (k0_off1 i) a + S1x512x8.size a ≤ S1x2048x8.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x8.size a ≤ S4x2048x8.size a
  hwx0_0 : ∀ i : grid0.Coords, EltTy.bits .f32 = 32 ∨ (Rect.block (s := S4x2048x8) S1x2048x8.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8.size a ≤ S8.size a
  hwx0_1 : ∀ i : grid0.Coords, EltTy.bits .f32 = 32 ∨ (Rect.block (s := S8) S8.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S8x512.size a ≤ S8x512.size a
  hwx0_2 : ∀ i : grid0.Coords, EltTy.bits .f32 = 32 ∨ (Rect.block (s := S8x512) S8x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S8x512.size a ≤ S8x512.size a
  hwx0_3 : ∀ i : grid0.Coords, EltTy.bits .f32 = 32 ∨ (Rect.block (s := S8x512) S8x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S8x512.size a ≤ S8x512.size a
  hwx0_4 : ∀ i : grid0.Coords, EltTy.bits .f32 = 32 ∨ (Rect.block (s := S8x512) S8x512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S512x512.size a ≤ S512x512.size a
  hwx0_5 : ∀ i : grid0.Coords, EltTy.bits .f32 = 32 ∨ (Rect.block (s := S512x512) S512x512.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x512x512.size a ≤ S4x2048x512.size a
  hwx0_6 : ∀ i : grid0.Coords, EltTy.bits .f32 = 32 ∨ (Rect.block (s := S4x2048x512) S1x512x512.size (cc0_transform_6 i) (hinb0_6 i)).WholeWords (EltTy.packing .f32)

variable [Facts₀]

def dot_S2048x8_S8x512_S2048x512_1_0_0_1_n_n : DotDims S2048x8 S8x512 S2048x512 where
  lhsContracting := [1]
  rhsContracting := [0]
  lhsNonContracting := [0]
  rhsNonContracting := [1]
  lhsBatch := []
  rhsBatch := []
  wf := dot_S2048x8_S8x512_S2048x512_1_0_0_1_n_n_wf
def dot_S512x8_S8x512_S512x512_1_0_0_1_n_n : DotDims S512x8 S8x512 S512x512 where
  lhsContracting := [1]
  rhsContracting := [0]
  lhsNonContracting := [0]
  rhsNonContracting := [1]
  lhsBatch := []
  rhsBatch := []
  wf := dot_S512x8_S8x512_S512x512_1_0_0_1_n_n_wf
def dot_S512x64_S64x512_S512x512_1_0_0_1_n_n : DotDims S512x64 S64x512 S512x512 where
  lhsContracting := [1]
  rhsContracting := [0]
  lhsNonContracting := [0]
  rhsNonContracting := [1]
  lhsBatch := []
  rhsBatch := []
  wf := dot_S512x64_S64x512_S512x512_1_0_0_1_n_n_wf
def dot_S512x512_S512x64_S512x64_1_0_0_1_n_n : DotDims S512x512 S512x64 S512x64 where
  lhsContracting := [1]
  rhsContracting := [0]
  lhsNonContracting := [0]
  rhsNonContracting := [1]
  lhsBatch := []
  rhsBatch := []
  wf := dot_S512x512_S512x64_S512x64_1_0_0_1_n_n_wf
def dot_S512x512_S512x512_S512x512_1_0_0_1_n_n : DotDims S512x512 S512x512 S512x512 where
  lhsContracting := [1]
  rhsContracting := [0]
  lhsNonContracting := [0]
  rhsNonContracting := [1]
  lhsBatch := []
  rhsBatch := []
  wf := dot_S512x512_S512x512_S512x512_1_0_0_1_n_n_wf

abbrev win0_0 : Pipeline.Window sig grid0 :=
  Pipeline.Window.ofSpec (Memref.whole main_arg0) S1x2048x8.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S8x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S8x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4) S8x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v5) S512x512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v6) S1x512x512.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S4x2048x8 : Shape := ⟨3, ![4, 2048, 8]⟩
abbrev S8 : Shape := ⟨1, ![8]⟩
abbrev S512x8 : Shape := ⟨2, ![512, 8]⟩
abbrev S512x512 : Shape := ⟨2, ![512, 512]⟩
abbrev S1x1x8 : Shape := ⟨3, ![1, 1, 8]⟩
abbrev S4x2048x512 : Shape := ⟨3, ![4, 2048, 512]⟩
abbrev S4x2048x8x64 : Shape := ⟨4, ![4, 2048, 8, 64]⟩
abbrev S4x8x2048x64 : Shape := ⟨4, ![4, 8, 2048, 64]⟩
abbrev S4x8x2048x2048 : Shape := ⟨4, ![4, 8, 2048, 2048]⟩
abbrev S_ : Shape := ⟨0, ![]⟩
abbrev S4x8x2048 : Shape := ⟨3, ![4, 8, 2048]⟩
abbrev S4x8x2048x1 : Shape := ⟨4, ![4, 8, 2048, 1]⟩

abbrev nBuf : Space → Nat
  | .hbm => 41
  | .vmem => 0
  | .smem => 0
  | _ => 0

abbrev bufTy : (tb : Table) → Fin (tcTables nBuf tb) → BufTy
  | .hbm, ⟨0, _⟩ => ⟨S4x2048x8, .f32⟩
  | .hbm, ⟨1, _⟩ => ⟨S8, .f32⟩
  | .hbm, ⟨2, _⟩ => ⟨S512x8, .f32⟩
  | .hbm, ⟨3, _⟩ => ⟨S512x8, .f32⟩
  | .hbm, ⟨4, _⟩ => ⟨S512x8, .f32⟩
  | .hbm, ⟨5, _⟩ => ⟨S512x512, .f32⟩
  | .hbm, ⟨6, _⟩ => ⟨S1x1x8, .f32⟩
  | .hbm, ⟨7, _⟩ => ⟨S4x2048x8, .f32⟩
  | .hbm, ⟨8, _⟩ => ⟨S4x2048x8, .f32⟩
  | .hbm, ⟨9, _⟩ => ⟨S4x2048x8, .f32⟩
  | .hbm, ⟨10, _⟩ => ⟨S4x2048x512, .f32⟩
  | .hbm, ⟨11, _⟩ => ⟨S4x2048x512, .f32⟩
  | .hbm, ⟨12, _⟩ => ⟨S4x2048x512, .f32⟩
  | .hbm, ⟨13, _⟩ => ⟨S4x2048x8x64, .f32⟩
  | .hbm, ⟨14, _⟩ => ⟨S4x8x2048x64, .f32⟩
  | .hbm, ⟨15, _⟩ => ⟨S4x2048x8x64, .f32⟩
  | .hbm, ⟨16, _⟩ => ⟨S4x8x2048x64, .f32⟩
  | .hbm, ⟨17, _⟩ => ⟨S4x2048x8x64, .f32⟩
  | .hbm, ⟨18, _⟩ => ⟨S4x8x2048x64, .f32⟩
  | .hbm, ⟨19, _⟩ => ⟨S4x8x2048x2048, .f32⟩
  | .hbm, ⟨20, _⟩ => ⟨S_, .f32⟩
  | .hbm, ⟨21, _⟩ => ⟨S4x8x2048x2048, .f32⟩
  | .hbm, ⟨22, _⟩ => ⟨S4x8x2048x2048, .f32⟩
  | .hbm, ⟨23, _⟩ => ⟨S_, .f32⟩
  | .hbm, ⟨24, _⟩ => ⟨S4x8x2048, .f32⟩
  | .hbm, ⟨25, _⟩ => ⟨S_, .f32⟩
  | .hbm, ⟨26, _⟩ => ⟨S4x8x2048, .f32⟩
  | .hbm, ⟨27, _⟩ => ⟨S4x8x2048, .f32⟩
  | .hbm, ⟨28, _⟩ => ⟨S4x8x2048x1, .f32⟩
  | .hbm, ⟨29, _⟩ => ⟨S4x8x2048x2048, .f32⟩
  | .hbm, ⟨30, _⟩ => ⟨S4x8x2048x2048, .f32⟩
  | .hbm, ⟨31, _⟩ => ⟨S4x8x2048x2048, .f32⟩
  | .hbm, ⟨32, _⟩ => ⟨S_, .f32⟩
  | .hbm, ⟨33, _⟩ => ⟨S4x8x2048, .f32⟩
  | .hbm, ⟨34, _⟩ => ⟨S4x8x2048x1, .f32⟩
  | .hbm, ⟨35, _⟩ => ⟨S4x8x2048x2048, .f32⟩
  | .hbm, ⟨36, _⟩ => ⟨S4x8x2048x2048, .f32⟩
  | .hbm, ⟨37, _⟩ => ⟨S4x8x2048x64, .f32⟩
  | .hbm, ⟨38, _⟩ => ⟨S4x2048x8x64, .f32⟩
  | .hbm, ⟨39, _⟩ => ⟨S4x2048x512, .f32⟩
  | .hbm, ⟨40, _⟩ => ⟨S4x2048x512, .f32⟩
  | _, _ => ⟨S4x2048x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst : Ref sig .tc := ⟨.hbm, 20, rfl⟩
abbrev main_v14 : Ref sig .tc := ⟨.hbm, 21, rfl⟩
abbrev main_v15 : Ref sig .tc := ⟨.hbm, 22, rfl⟩
abbrev main_cst_0 : Ref sig .tc := ⟨.hbm, 23, rfl⟩
abbrev main_v16 : Ref sig .tc := ⟨.hbm, 24, rfl⟩
abbrev main_cst_1 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_2 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩

abbrev nD : Nat := 1
abbrev τ : Topo := Topo.v7x

variable {F : FTy → Type} [FloatOps F]

class Facts₀ : Prop where
  bcast_S8_S1x1x8_2 : S8.BroadcastsInDim S1x1x8 (![2] : Fin 1 → Fin S1x1x8.rank)
  bcast_S1x1x8_S4x2048x8_0_1_2 : S1x1x8.BroadcastsInDim S4x2048x8 (![0, 1, 2] : Fin 3 → Fin S4x2048x8.rank)
  shapeCasts_S4x2048x512_S4x2048x8x64 : S4x2048x512.ShapeCasts S4x2048x8x64
  transposes_S4x2048x8x64_S4x8x2048x64_0_2_1_3 : S4x2048x8x64.Transposes [0, 2, 1, 3] S4x8x2048x64
  bcast_S_S4x8x2048x2048 : S_.BroadcastsInDim S4x8x2048x2048 (![] : Fin 0 → Fin S4x8x2048x2048.rank)
  reducesTo_S4x8x2048x2048_S4x8x2048_d3 : S4x8x2048x2048.ReducesTo [3] S4x8x2048
  h_S_ : 0 < S_.numel
  bcast_S_S4x8x2048 : S_.BroadcastsInDim S4x8x2048 (![] : Fin 0 → Fin S4x8x2048.rank)
  bcast_S4x8x2048_S4x8x2048x1_0_1_2 : S4x8x2048.BroadcastsInDim S4x8x2048x1 (![0, 1, 2] : Fin 3 → Fin S4x8x2048x1.rank)
  bcast_S4x8x2048x1_S4x8x2048x2048_0_1_2_3 : S4x8x2048x1.BroadcastsInDim S4x8x2048x2048 (![0, 1, 2, 3] : Fin 4 → Fin S4x8x2048x2048.rank)
  transposes_S4x8x2048x64_S4x2048x8x64_0_2_1_3 : S4x8x2048x64.Transposes [0, 2, 1, 3] S4x2048x8x64
  shapeCasts_S4x2048x8x64_S4x2048x512 : S4x2048x8x64.ShapeCasts S4x2048x512
  dot_S4x2048x8_S512x8_S4x2048x512_2_1_01_0_n_n_wf : DotDims.WF S4x2048x8 S512x8 S4x2048x512 [2] [1] [0, 1] [0] [] []
  dot_S4x8x2048x64_S4x8x2048x64_S4x8x2048x2048_3_3_2_2_01_01_wf : DotDims.WF S4x8x2048x64 S4x8x2048x64 S4x8x2048x2048 [3] [3] [2] [2] [0, 1] [0, 1]
  dot_S4x8x2048x2048_S4x8x2048x64_S4x8x2048x64_3_2_2_3_01_01_wf : DotDims.WF S4x8x2048x2048 S4x8x2048x64 S4x8x2048x64 [3] [2] [2] [3] [0, 1] [0, 1]
  dot_S4x2048x512_S512x512_S4x2048x512_2_1_01_0_n_n_wf : DotDims.WF S4x2048x512 S512x512 S4x2048x512 [2] [1] [0, 1] [0] [] []

variable [Facts₀]

def dot_S4x2048x8_S512x8_S4x2048x512_2_1_01_0_n_n : DotDims S4x2048x8 S512x8 S4x2048x512 where
  lhsContracting := [2]
  rhsContracting := [1]
  lhsNonContracting := [0, 1]
  rhsNonContracting := [0]
  lhsBatch := []
  rhsBatch := []
  wf := dot_S4x2048x8_S512x8_S4x2048x512_2_1_01_0_n_n_wf
def dot_S4x8x2048x64_S4x8x2048x64_S4x8x2048x2048_3_3_2_2_01_01 : DotDims S4x8x2048x64 S4x8x2048x64 S4x8x2048x2048 where
  lhsContracting := [3]
  rhsContracting := [3]
  lhsNonContracting := [2]
  rhsNonContracting := [2]
  lhsBatch := [0, 1]
  rhsBatch := [0, 1]
  wf := dot_S4x8x2048x64_S4x8x2048x64_S4x8x2048x2048_3_3_2_2_01_01_wf
def dot_S4x8x2048x2048_S4x8x2048x64_S4x8x2048x64_3_2_2_3_01_01 : DotDims S4x8x2048x2048 S4x8x2048x64 S4x8x2048x64 where
  lhsContracting := [3]
  rhsContracting := [2]
  lhsNonContracting := [2]
  rhsNonContracting := [3]
  lhsBatch := [0, 1]
  rhsBatch := [0, 1]
  wf := dot_S4x8x2048x2048_S4x8x2048x64_S4x8x2048x64_3_2_2_3_01_01_wf
def dot_S4x2048x512_S512x512_S4x2048x512_2_1_01_0_n_n : DotDims S4x2048x512 S512x512 S4x2048x512 where
  lhsContracting := [2]
  rhsContracting := [1]
  lhsNonContracting := [0, 1]
  rhsNonContracting := [0]
  lhsBatch := []
  rhsBatch := []
  wf := dot_S4x2048x512_S512x512_S4x2048x512_2_1_01_0_n_n_wf

class Facts : Prop extends Facts₀ where

variable [Facts]
-- ==== Proof.Clean.lean ====
/-
  The attention body of the kernel, written once as a composition of small functions.

  One grid point of the kernel encodes the whole key sequence and its own 512 query rows as cos (x + θ), projects
  them to keys, values and (pre-scaled) queries, and then, head by head, runs an online softmax over four key
  tiles of 512 rows: a running row maximum m, a running normaliser l and a running weighted sum acc, each
  rescaled by exp (m_old - m_new) when a tile raises the maximum. Each head ends with acc / l, the eight heads
  are laid side by side, and the result is multiplied by the output projection.

  Here that computation is spelled as functions of the loaded blocks, at any float instance, in the very
  operations the kernel uses; the unrolled body is shown elsewhere to be this composition.
-/
import proofs.«416602_j65481071403103_3_alg».proof.Proof.Gen.KernelIdeal

set_option synthInstance.maxSize 4096

noncomputable section

namespace Cert.KernelIdeal.Clean

open Idealize.ShloMosaic Idealize.SL.Sem
open Cert.KernelIdeal Cert.KernelIdeal.Gen

variable {F : FTy → Type} [FloatOps F]

/-! ## The encoding and the three projections -/

/-- cos (x + θ) over all 2048 positions of the batch row, θ broadcast along the rows. -/
def encAll (θ : Vec F S8 .f32) (x : Vec F S1x2048x8 .f32) : FVec F S2048x8 .bf16 :=
  truncf .bf16 (cos (addf (shapeCast S2048x8 x shapeCasts_S1x2048x8_S2048x8)
    (broadcastTo S2048x8 (shapeCast S1x8 θ shapeCasts_S8_S1x8) broadcasts_S1x8_S2048x8))) bitsLt_bf16_f32

/-- cos (x + θ) over the 512 query positions this grid point owns. -/
def encQ (θ : Vec F S8 .f32) (xq : Vec F S1x512x8 .f32) : FVec F S512x8 .bf16 :=
  truncf .bf16 (cos (addf (shapeCast S512x8 xq shapeCasts_S1x512x8_S512x8)
    (broadcastTo S512x8 (shapeCast S1x8 θ shapeCasts_S8_S1x8) broadcasts_S1x8_S512x8))) bitsLt_bf16_f32

/-- A weight block as the matrix unit takes it. -/
def wgt (w : Vec F S8x512 .f32) : FVec F S8x512 .bf16 :=
  truncf .bf16 (shapeCast S8x512 w shapeCasts_S8x512_S8x512) bitsLt_bf16_f32

/-- Keys (or values) of every position: the encoding times the transposed weight. -/
def projAll (θ : Vec F S8 .f32) (x : Vec F S1x2048x8 .f32) (w : Vec F S8x512 .f32) : FVec F S2048x512 .bf16 :=
  truncf .bf16 (matmul dot_S2048x8_S8x512_S2048x512_1_0_0_1_n_n none (encAll θ x) (wgt w)
    (constant S2048x512 .f32 0x00000000#32)) bitsLt_bf16_f32

/-- Queries of the 512 owned positions. -/
def projQ (θ : Vec F S8 .f32) (xq : Vec F S1x512x8 .f32) (w : Vec F S8x512 .f32) : FVec F S512x512 .bf16 :=
  truncf .bf16 (matmul dot_S512x8_S8x512_S512x512_1_0_0_1_n_n none (encQ θ xq) (wgt w)
    (constant S512x512 .f32 0x00000000#32)) bitsLt_bf16_f32

/-! ## One key tile of the online softmax -/

/-- Scores of the 512 queries against one tile of 512 keys. -/
def scores (q kt : FVec F S512x64 .bf16) : FVec F S512x512 .f32 :=
  matmul dot_S512x64_S64x512_S512x512_1_0_0_1_n_n none q
    (transpose S64x512 [1, 0] kt transposes_S512x64_p1_0_S64x512) (constant S512x512 .f32 0x00000000#32)

/-- The running maximum after the tile. -/
def tileM (q kt : FVec F S512x64 .bf16) (m : FVec F S512x1 .f32) : FVec F S512x1 .f32 :=
  maximumf m (shapeCast S512x1
    (multiReduction .maximumf [1] S512 (scores q kt) 0xFF800000#32 reduces_S512x512_S512 (.inl rfl) rfl)
    shapeCasts_S512_S512x1)

/-- The factor exp (m_old - m_new) by which the tile rescales what was accumulated before it. -/
def tileA (q kt : FVec F S512x64 .bf16) (m : FVec F S512x1 .f32) : FVec F S512x1 .f32 :=
  exp (subf m (tileM q kt m))

/-- The tile's unnormalised weights exp (score - m_new). -/
def tileP (q kt : FVec F S512x64 .bf16) (m : FVec F S512x1 .f32) : FVec F S512x512 .f32 :=
  exp (subf (scores q kt) (broadcastTo S512x512 (tileM q kt m) broadcasts_S512x1_S512x512))

/-- The running normaliser after the tile. -/
def tileL (q kt : FVec F S512x64 .bf16) (m l : FVec F S512x1 .f32) : FVec F S512x1 .f32 :=
  addf (mulf (tileA q kt m) l) (shapeCast S512x1
    (multiReduction .add [1] S512 (tileP q kt m) 0x00000000#32 reduces_S512x512_S512 (.inl rfl) rfl)
    shapeCasts_S512_S512x1)

/-- The running weighted sum of values after the tile. -/
def tileAcc (q kt vt : FVec F S512x64 .bf16) (m : FVec F S512x1 .f32) (acc : FVec F S512x64 .f32) :
    FVec F S512x64 .f32 :=
  addf (mulf (broadcastTo S512x64 (tileA q kt m) broadcasts_S512x1_S512x64) acc)
    (matmul dot_S512x512_S512x64_S512x64_1_0_0_1_n_n none (truncf .bf16 (tileP q kt m) bitsLt_bf16_f32) vt
      (constant S512x64 .f32 0x00000000#32))

/-! ## One head -/

/-- The four key (or value) tiles of a head. -/
def kt0 (k : FVec F S2048x64 .bf16) : FVec F S512x64 .bf16 := extractStridedSlice S512x64 ![0, 0] k slices_S2048x64_o0_0_S512x64
def kt1 (k : FVec F S2048x64 .bf16) : FVec F S512x64 .bf16 := extractStridedSlice S512x64 ![512, 0] k slices_S2048x64_o512_0_S512x64
def kt2 (k : FVec F S2048x64 .bf16) : FVec F S512x64 .bf16 := extractStridedSlice S512x64 ![1024, 0] k slices_S2048x64_o1024_0_S512x64
def kt3 (k : FVec F S2048x64 .bf16) : FVec F S512x64 .bf16 := extractStridedSlice S512x64 ![1536, 0] k slices_S2048x64_o1536_0_S512x64

/-- The starting state: maximum -∞, normaliser 0, sum 0. -/
def m0 : FVec F S512x1 .f32 := broadcast S512x1 (Scalar.ofBits .f32 0xFF800000#32)
def l0 : FVec F S512x1 .f32 := broadcast S512x1 (Scalar.ofBits .f32 0x00000000#32)
def a0 : FVec F S512x64 .f32 := broadcast S512x64 (Scalar.ofBits .f32 0x00000000#32)

def m1 (q : FVec F S512x64 .bf16) (k : FVec F S2048x64 .bf16) : FVec F S512x1 .f32 := tileM q (kt0 k) (m0 (F := F))
def m2 (q : FVec F S512x64 .bf16) (k : FVec F S2048x64 .bf16) : FVec F S512x1 .f32 := tileM q (kt1 k) (m1 (F := F) q k)
def m3 (q : FVec F S512x64 .bf16) (k : FVec F S2048x64 .bf16) : FVec F S512x1 .f32 := tileM q (kt2 k) (m2 (F := F) q k)
def m4 (q : FVec F S512x64 .bf16) (k : FVec F S2048x64 .bf16) : FVec F S512x1 .f32 := tileM q (kt3 k) (m3 (F := F) q k)

def l1 (q : FVec F S512x64 .bf16) (k : FVec F S2048x64 .bf16) : FVec F S512x1 .f32 := tileL q (kt0 k) (m0 (F := F)) (l0 (F := F))
def l2 (q : FVec F S512x64 .bf16) (k : FVec F S2048x64 .bf16) : FVec F S512x1 .f32 := tileL q (kt1 k) (m1 (F := F) q k) (l1 (F := F) q k)
def l3 (q : FVec F S512x64 .bf16) (k : FVec F S2048x64 .bf16) : FVec F S512x1 .f32 := tileL q (kt2 k) (m2 (F := F) q k) (l2 (F := F) q k)
def l4 (q : FVec F S512x64 .bf16) (k : FVec F S2048x64 .bf16) : FVec F S512x1 .f32 := tileL q (kt3 k) (m3 (F := F) q k) (l3 (F := F) q k)

def a1 (q : FVec F S512x64 .bf16) (k v : FVec F S2048x64 .bf16) : FVec F S512x64 .f32 := tileAcc q (kt0 k) (kt0 v) (m0 (F := F)) (a0 (F := F))
def a2 (q : FVec F S512x64 .bf16) (k v : FVec F S2048x64 .bf16) : FVec F S512x64 .f32 := tileAcc q (kt1 k) (kt1 v) (m1 (F := F) q k) (a1 (F := F) q k v)
def a3 (q : FVec F S512x64 .bf16) (k v : FVec F S2048x64 .bf16) : FVec F S512x64 .f32 := tileAcc q (kt2 k) (kt2 v) (m2 (F := F) q k) (a2 (F := F) q k v)
def a4 (q : FVec F S512x64 .bf16) (k v : FVec F S2048x64 .bf16) : FVec F S512x64 .f32 := tileAcc q (kt3 k) (kt3 v) (m3 (F := F) q k) (a3 (F := F) q k v)

/-- A head's output: the weighted sum over the normaliser. -/
def headOut (q : FVec F S512x64 .bf16) (k v : FVec F S2048x64 .bf16) : FVec F S512x64 .bf16 :=
  shapeCast S512x64 (truncf .bf16 (divf (a4 q k v) (broadcastTo S512x64 (l4 q k) broadcasts_S512x1_S512x64))
    bitsLt_bf16_f32) shapeCasts_S512x64_S512x64

/-! ## The eight heads -/

/-- Head h's 64 columns of the queries and of the keys (or values). -/
def qH0 (pq : FVec F S512x512 .bf16) : FVec F S512x64 .bf16 := extractStridedSlice S512x64 ![0, 0] pq slices_S512x512_o0_0_S512x64
def kH0 (pk : FVec F S2048x512 .bf16) : FVec F S2048x64 .bf16 := extractStridedSlice S2048x64 ![0, 0] pk slices_S2048x512_o0_0_S2048x64
def qH1 (pq : FVec F S512x512 .bf16) : FVec F S512x64 .bf16 := extractStridedSlice S512x64 ![0, 64] pq slices_S512x512_o0_64_S512x64
def kH1 (pk : FVec F S2048x512 .bf16) : FVec F S2048x64 .bf16 := extractStridedSlice S2048x64 ![0, 64] pk slices_S2048x512_o0_64_S2048x64
def qH2 (pq : FVec F S512x512 .bf16) : FVec F S512x64 .bf16 := extractStridedSlice S512x64 ![0, 128] pq slices_S512x512_o0_128_S512x64
def kH2 (pk : FVec F S2048x512 .bf16) : FVec F S2048x64 .bf16 := extractStridedSlice S2048x64 ![0, 128] pk slices_S2048x512_o0_128_S2048x64
def qH3 (pq : FVec F S512x512 .bf16) : FVec F S512x64 .bf16 := extractStridedSlice S512x64 ![0, 192] pq slices_S512x512_o0_192_S512x64
def kH3 (pk : FVec F S2048x512 .bf16) : FVec F S2048x64 .bf16 := extractStridedSlice S2048x64 ![0, 192] pk slices_S2048x512_o0_192_S2048x64
def qH4 (pq : FVec F S512x512 .bf16) : FVec F S512x64 .bf16 := extractStridedSlice S512x64 ![0, 256] pq slices_S512x512_o0_256_S512x64
def kH4 (pk : FVec F S2048x512 .bf16) : FVec F S2048x64 .bf16 := extractStridedSlice S2048x64 ![0, 256] pk slices_S2048x512_o0_256_S2048x64
def qH5 (pq : FVec F S512x512 .bf16) : FVec F S512x64 .bf16 := extractStridedSlice S512x64 ![0, 320] pq slices_S512x512_o0_320_S512x64
def kH5 (pk : FVec F S2048x512 .bf16) : FVec F S2048x64 .bf16 := extractStridedSlice S2048x64 ![0, 320] pk slices_S2048x512_o0_320_S2048x64
def qH6 (pq : FVec F S512x512 .bf16) : FVec F S512x64 .bf16 := extractStridedSlice S512x64 ![0, 384] pq slices_S512x512_o0_384_S512x64
def kH6 (pk : FVec F S2048x512 .bf16) : FVec F S2048x64 .bf16 := extractStridedSlice S2048x64 ![0, 384] pk slices_S2048x512_o0_384_S2048x64
def qH7 (pq : FVec F S512x512 .bf16) : FVec F S512x64 .bf16 := extractStridedSlice S512x64 ![0, 448] pq slices_S512x512_o0_448_S512x64
def kH7 (pk : FVec F S2048x512 .bf16) : FVec F S2048x64 .bf16 := extractStridedSlice S2048x64 ![0, 448] pk slices_S2048x512_o0_448_S2048x64

/-- The eight heads' outputs as the column blocks they are written to, last written first. -/
def heads (θ : Vec F S8 .f32) (x : Vec F S1x2048x8 .f32) (xq : Vec F S1x512x8 .f32) (wq wk wv : Vec F S8x512 .f32) :
    List (View.Piece (Elt F) S512x512 .bf16) :=
  [⟨Rect.unit ![0, 448] S512x64.size inb_S512x512_S512x64_0_448, headOut (qH7 (projQ θ xq wq)) (kH7 (projAll θ x wk)) (kH7 (projAll θ x wv))⟩,
   ⟨Rect.unit ![0, 384] S512x64.size inb_S512x512_S512x64_0_384, headOut (qH6 (projQ θ xq wq)) (kH6 (projAll θ x wk)) (kH6 (projAll θ x wv))⟩,
   ⟨Rect.unit ![0, 320] S512x64.size inb_S512x512_S512x64_0_320, headOut (qH5 (projQ θ xq wq)) (kH5 (projAll θ x wk)) (kH5 (projAll θ x wv))⟩,
   ⟨Rect.unit ![0, 256] S512x64.size inb_S512x512_S512x64_0_256, headOut (qH4 (projQ θ xq wq)) (kH4 (projAll θ x wk)) (kH4 (projAll θ x wv))⟩,
   ⟨Rect.unit ![0, 192] S512x64.size inb_S512x512_S512x64_0_192, headOut (qH3 (projQ θ xq wq)) (kH3 (projAll θ x wk)) (kH3 (projAll θ x wv))⟩,
   ⟨Rect.unit ![0, 128] S512x64.size inb_S512x512_S512x64_0_128, headOut (qH2 (projQ θ xq wq)) (kH2 (projAll θ x wk)) (kH2 (projAll θ x wv))⟩,
   ⟨Rect.unit ![0, 64] S512x64.size inb_S512x512_S512x64_0_64, headOut (qH1 (projQ θ xq wq)) (kH1 (projAll θ x wk)) (kH1 (projAll θ x wv))⟩,
   ⟨Rect.unit ![0, 0] S512x64.size inb_S512x512_S512x64_0_0, headOut (qH0 (projQ θ xq wq)) (kH0 (projAll θ x wk)) (kH0 (projAll θ x wv))⟩]

/-! ## The output projection -/

/-- The output block: the heads' outputs, side by side, times the transposed output weight. -/
def outBlock (attn : Vec F S512x512 .bf16) (wc : Vec F S512x512 .f32) : FVec F S1x512x512 .f32 :=
  shapeCast S1x512x512 (matmul dot_S512x512_S512x512_S512x512_1_0_0_1_n_n none attn
    (truncf .bf16 (shapeCast S512x512 wc shapeCasts_S512x512_S512x512) bitsLt_bf16_f32)
    (constant S512x512 .f32 0x00000000#32)) shapeCasts_S512x512_S1x512x512

end Cert.KernelIdeal.Clean

end
-- ==== Proof.Witness.lean ====
/-
  What one grid point writes to its output block, as one expression of the blocks it loads.

  The kernel body is a straight line of some eight hundred vector operations: eight heads, each an online softmax over
  four key tiles, each head's result stored into its 64 columns of a 512 × 512 scratch, the scratch then read back
  whole and multiplied by the output projection. Unfolding the operations in order shows that the eight stored column
  blocks are the eight heads' outputs as `Clean.headOut` spells them, and that the block written back is
  `Clean.outBlock` of the scratch (the column blocks read back as one matrix) and the output weight.
-/
import proofs.«416602_j65481071403103_3_alg».proof.Proof.Gen.KernelIdeal.Frame
import proofs.«416602_j65481071403103_3_alg».proof.Proof.Clean
import Idealize.ShloMosaic.Lib.Pipeline.Value

set_option maxRecDepth 16384

noncomputable section

namespace Cert.KernelIdeal.Witness

open Idealize.ShloMosaic Idealize.ShloMosaic.TcCoe Idealize.ShloMosaic.Tactic
open Idealize.SL Idealize.SL.Sem
open Cert.KernelIdeal Cert.KernelIdeal.Gen Cert.KernelIdeal.Clean

variable {F : FTy → Type} [FloatOps F]

theorem hz1 : (![0] : Fin 1 → Nat) = fun _ => 0 := by funext a; fin_cases a; rfl
theorem hz2 : (![0, 0] : Fin 2 → Nat) = fun _ => 0 := by funext a; fin_cases a <;> rfl
theorem hz3 : (![0, 0, 0] : Fin 3 → Nat) = fun _ => 0 := by funext a; fin_cases a <;> rfl

/-- The 512 query rows a grid point owns, read out of the batch row's 2048 at the point's row offset. -/
abbrev xqOf (i : grid0.Coords) (x0 : Vec F S1x2048x8 .f32) : Vec F S1x512x8 .f32 :=
  View.ld x0 (Rect.unit (s := S1x2048x8) (k0_off1 i) S1x512x8.size (k0_off1_inb i))

/-- The scratch after the eight heads: the column blocks read back as one 512 × 512 matrix. -/
def attn (i : grid0.Coords) (x0 : Vec F S1x2048x8 .f32) (x1 : Vec F S8 .f32) (x2 x3 x4 : Vec F S8x512 .f32) :
    Vec F S512x512 .bf16 :=
  View.canon (heads x1 x0 (xqOf i x0) x2 x3 x4)

set_option maxHeartbeats 4000000 in
/-- The eight stores into the scratch hold the eight heads' outputs. -/
theorem stores_eq (c : Dev nD) (i : grid0.Coords) (arg2 : Memref sig .tc .vmem S1x2048x8 .f32) (harg2 : arg2.IsWhole) (arg3 : Memref sig .tc .vmem S8 .f32) (harg3 : arg3.IsWhole) (arg4 : Memref sig .tc .vmem S8x512 .f32) (harg4 : arg4.IsWhole) (arg5 : Memref sig .tc .vmem S8x512 .f32) (harg5 : arg5.IsWhole) (arg6 : Memref sig .tc .vmem S8x512 .f32) (harg6 : arg6.IsWhole) (arg7 : Memref sig .tc .vmem S512x512 .f32) (harg7 : arg7.IsWhole) (arg8 : Memref sig .tc .vmem S1x512x512 .f32) (harg8 : arg8.IsWhole) (arg9 : Memref sig .tc .vmem S512x512 .bf16) (harg9 : arg9.IsWhole)
    (x0 : Vec F S1x2048x8 .f32) (x1 : Vec F S8 .f32) (x2 : Vec F S8x512 .f32) (x3 : Vec F S8x512 .f32) (x4 : Vec F S8x512 .f32) (x5 : Vec F S512x512 .f32) :
    kernelRun0_A.sl.HS0_8 c i arg2 harg2 arg3 harg3 arg4 harg4 arg5 harg5 arg6 harg6 x0 x1 x2 x3 x4
      = heads x1 x0 (xqOf i x0) x2 x3 x4 := by
  sl_unfold_run_names
  simp only [View.readAt_eq_ld, Memref.IsWhole.read_unread]
  simp only [View.ld_unit_zero (S := S8) hz1, View.ld_unit_zero (S := S8x512) hz2, View.ld_unit_zero (S := S1x2048x8) hz3]
  rfl

set_option maxHeartbeats 4000000 in
/-- What the run leaves in the output's staging buffer. -/
theorem out_eq (c : Dev nD) (i : grid0.Coords) (arg2 : Memref sig .tc .vmem S1x2048x8 .f32) (harg2 : arg2.IsWhole) (arg3 : Memref sig .tc .vmem S8 .f32) (harg3 : arg3.IsWhole) (arg4 : Memref sig .tc .vmem S8x512 .f32) (harg4 : arg4.IsWhole) (arg5 : Memref sig .tc .vmem S8x512 .f32) (harg5 : arg5.IsWhole) (arg6 : Memref sig .tc .vmem S8x512 .f32) (harg6 : arg6.IsWhole) (arg7 : Memref sig .tc .vmem S512x512 .f32) (harg7 : arg7.IsWhole) (arg8 : Memref sig .tc .vmem S1x512x512 .f32) (harg8 : arg8.IsWhole) (arg9 : Memref sig .tc .vmem S512x512 .bf16) (harg9 : arg9.IsWhole)
    (x0 : Vec F S1x2048x8 .f32) (x1 : Vec F S8 .f32) (x2 : Vec F S8x512 .f32) (x3 : Vec F S8x512 .f32) (x4 : Vec F S8x512 .f32) (x5 : Vec F S512x512 .f32) :
    out0_A_6 c i arg2 harg2 arg3 harg3 arg4 harg4 arg5 harg5 arg6 harg6 arg7 harg7 arg8 harg8 arg9 harg9 x0 x1 x2 x3 x4 x5
      = outBlock (attn i x0 x1 x2 x3 x4) x5 := by
  unfold out0_A_6
  rw [View.read_writes_eq_canon _ _ _ (cover0_A_6 c i arg2 harg2 arg3 harg3 arg4 harg4 arg5 harg5 arg6 harg6 arg7 harg7 arg8 harg8 arg9 harg9 x0 x1 x2 x3 x4 x5)]
  unfold kernelRun0_A
  dsimp only
  rw [View.canon_unit_zero (S := S1x512x512) hz3]
  unfold kernelRun0_A.sl.v804 kernelRun0_A.sl.r_96 kernelRun0_A.sl.cst_57
  rw [stores_eq c i arg2 harg2 arg3 harg3 arg4 harg4 arg5 harg5 arg6 harg6 arg7 harg7 arg8 harg8 arg9 harg9 x0 x1 x2 x3 x4 x5]
  rw [View.readCov_eq_canon']
  simp only [View.readAt_eq_ld, Memref.IsWhole.read_unread]
  show k0_pay1 (k0_pay196 (View.ld x5 (Rect.unit (s := S512x512) ![0, 0] S512x512.size inb_S512x512_S512x512_0_0)))
      (View.ld (View.canon (heads x1 x0 (xqOf i x0) x2 x3 x4)) (Rect.unit (s := S512x512) ![0, 0] S512x512.size inb_S512x512_S512x512_0_0))
      (constant S512x512 .f32 0x00000000#32) = _
  rw [View.ld_unit_zero (S := S512x512) hz2, View.ld_unit_zero (S := S512x512) hz2]
  rfl

end Cert.KernelIdeal.Witness

end
-- ==== Proof.LibColumn.lean ====
/-
  Column vectors and one-axis reductions of a matrix, read at an index given by coordinates.

  A reduction of an `[a, b]` matrix with `keepdims` goes through three layout steps the library reads only in their
  row forms: the reduced `[a]` vector is cast to the column `[a, 1]`, and the column is broadcast back over
  `[a, b]`. Here those two are read at `(r, c)`, together with the reductions themselves at the ideal instance:
  the sum of a matrix along its columns or its rows as a `Fin`-indexed sum over `ix2`, and the maximum along the
  columns as the fold of `max` over the row — for the vector unit's reduction and for the host's alike.
-/
import Idealize.ShloMosaic.Lib.Pipeline.Value
import Idealize.ShloMosaic.Lib.ValueIdx
import Idealize.ShloMosaic.PureOps.Ideal.Laws

noncomputable section

open scoped BigOperators

namespace Cert.LibColumn

open Idealize.ShloMosaic Idealize.ShloMosaic.ValueIdx

/-! ## The layout steps of a keepdims reduction -/

section Layout
variable {α : Type}

/-- An `[a]` vector cast to the column `[a, 1]` reads, at `(r, u)`, the vector at `r`. -/
theorem shapeCast_a_a1_apply {a : ℕ} (x : (⟨1, ![a]⟩ : Shape).Idx → α) (h : (⟨1, ![a]⟩ : Shape).ShapeCasts ⟨2, ![a, 1]⟩)
    (r : Fin a) (u : Fin 1) : shapeCast ⟨2, ![a, 1]⟩ x h (ix2 r u) = x (ix1 r) :=
  shapeCast_apply x h _ _ (by
    have hu : u.val = 0 := by omega
    rw [Shape.rowMajor_val_two, Shape.rowMajor_val_one]
    show r.val = r.val * 1 + u.val
    rw [hu, Nat.mul_one, Nat.add_zero])

/-- A column `[a, 1]` broadcast over `[a, b]` reads, at `(r, c)`, the column's entry of row `r`. -/
theorem broadcastTo_a1_ab_apply {a b : ℕ} (v : (⟨2, ![a, 1]⟩ : Shape).Idx → α)
    (h : (⟨2, ![a, 1]⟩ : Shape).Broadcasts ⟨2, ![a, b]⟩) (r : Fin a) (c : Fin b) :
    broadcastTo ⟨2, ![a, b]⟩ v h (ix2 r c) = v (ix2 r (0 : Fin 1)) := by
  refine broadcastTo_apply v h (ix2 r c) (ix2 r (0 : Fin 1)) fun ax => ?_
  match ax with
  | ⟨0, _⟩ =>
    show r.val = if a = 1 then 0 else r.val
    split
    · have := r.isLt; omega
    · rfl
  | ⟨1, _⟩ => rfl

end Layout

/-! ## Which source index a reduced index and a coordinate name -/

/-- Reducing `[a, b]` along axis 1: over row `r`, coordinate `k` put back is `(r, k)`. -/
theorem lift_axis1 {a b : ℕ} (h : (⟨2, ![a, b]⟩ : Shape).Reduces [1] (⟨1, ![a]⟩ : Shape)) (r : Fin a)
    (k : Fin ((⟨2, ![a, b]⟩ : Shape).size 1)) : h.lift (ix1 r) k = ix2 r (⟨k.val, k.isLt⟩ : Fin b) := by
  funext c; apply Fin.ext
  fin_cases c <;> rfl

/-- Reducing `[a, b]` along axis 0: over column `t`, coordinate `k` put back is `(k, t)`. -/
theorem lift_axis0 {a b : ℕ} (h : (⟨2, ![a, b]⟩ : Shape).Reduces [0] (⟨1, ![b]⟩ : Shape)) (t : Fin b)
    (k : Fin ((⟨2, ![a, b]⟩ : Shape).size 0)) : h.lift (ix1 t) k = ix2 (⟨k.val, k.isLt⟩ : Fin a) t := by
  funext c; apply Fin.ext
  fin_cases c <;> rfl

/-! ## The reductions at the ideal instance -/

section Reductions
variable {φ : FTy}

/-- The vector unit's sum of a matrix along its columns is, at row `r`, the sum of that row. -/
theorem sumAxis1_apply {a b : ℕ} (v : FVec Ideal ⟨2, ![a, b]⟩ φ) (acc : BitVec φ.bits)
    (h : (⟨2, ![a, b]⟩ : Shape).Reduces [1] (⟨1, ![a]⟩ : Shape)) (hφ : FKind.Formats φ)
    (hacc : acc = FKind.add.neutral φ hφ) (r : Fin a) :
    multiReduction .add [1] ⟨1, ![a]⟩ v acc h hφ hacc (ix1 r) = ∑ k : Fin b, v (ix2 r k) :=
  (Ideal.multiReduction_add_single v acc h hφ hacc (ix1 r)).trans
    (Finset.sum_congr rfl fun k _ => congrArg v (lift_axis1 h r k))

/-- The vector unit's sum of a matrix along its rows is, at column `t`, the sum of that column. -/
theorem sumAxis0_apply {a b : ℕ} (v : FVec Ideal ⟨2, ![a, b]⟩ φ) (acc : BitVec φ.bits)
    (h : (⟨2, ![a, b]⟩ : Shape).Reduces [0] (⟨1, ![b]⟩ : Shape)) (hφ : FKind.Formats φ)
    (hacc : acc = FKind.add.neutral φ hφ) (t : Fin b) :
    multiReduction .add [0] ⟨1, ![b]⟩ v acc h hφ hacc (ix1 t) = ∑ k : Fin a, v (ix2 k t) :=
  (Ideal.multiReduction_add_single v acc h hφ hacc (ix1 t)).trans
    (Finset.sum_congr rfl fun k _ => congrArg v (lift_axis0 h t k))

/-- The vector unit's maximum of a matrix along its columns is, at row `r`, the fold of `max` over that row from
    the accumulator's value. -/
theorem maxAxis1_apply {a b : ℕ} (v : FVec Ideal ⟨2, ![a, b]⟩ φ) (acc : BitVec φ.bits)
    (h : (⟨2, ![a, b]⟩ : Shape).Reduces [1] (⟨1, ![a]⟩ : Shape)) (hφ : FKind.Formats φ)
    (hacc : acc = FKind.maximumf.neutral φ hφ) (r : Fin a) :
    multiReduction .maximumf [1] ⟨1, ![a]⟩ v acc h hφ hacc (ix1 r)
      = (Finset.univ : Finset (Fin b)).fold max (Ideal.ofBits φ acc) (fun k => v (ix2 r k)) :=
  (Ideal.multiReduction_maximumf_single v acc h hφ hacc (ix1 r)).trans
    (congrArg (fun f => (Finset.univ : Finset (Fin b)).fold max (Ideal.ofBits φ acc) f)
      (funext fun k => congrArg v (lift_axis1 h r k)))

/-- The host's reduce with a maximum body along the columns is, at row `r`, the same fold from the initial value. -/
theorem hostMaxAxis1_apply {a b : ℕ} {u : Shape} (x : FVec Ideal ⟨2, ![a, b]⟩ φ) (init : u.Idx → Ideal φ)
    (h' : (⟨2, ![a, b]⟩ : Shape).ReducesTo [1] (⟨1, ![a]⟩ : Shape))
    (h : (⟨2, ![a, b]⟩ : Shape).Reduces [1] (⟨1, ![a]⟩ : Shape)) (hu : 0 < u.numel) (r : Fin a) :
    Host.reduce FloatOps.maximumf x init h' hu (ix1 r)
      = (Finset.univ : Finset (Fin b)).fold max (init (Shape.Idx.first hu)) (fun k => x (ix2 r k)) :=
  (Host.reduce_eq_fold_single FloatOps.maximumf x init h' h hu (ix1 r)).trans
    (congrArg (fun f => (Finset.univ : Finset (Fin b)).fold max (init (Shape.Idx.first hu)) f)
      (funext fun k => congrArg x (lift_axis1 h r k)))

end Reductions

end Cert.LibColumn

end
-- ==== Proof.LibEReal.lean ====
/-
  Extended reals that are real: the few facts that carry a computation on real entries through the extended reals'
  operations. A finite sum of reals is the sum of the coercions; the fold of `max` from −∞ over a non-empty family
  of reals is the family's greatest member; the ideal quotient of two reals with a non-zero divisor is their quotient;
  and the values of the float words this kernel and its reference spell out (−∞, 1/8, 8).
-/
import Mathlib.Data.EReal.Basic
import Mathlib.Data.EReal.Operations
import Mathlib.Analysis.SpecialFunctions.Exp
import Idealize.ShloMosaic.PureOps.Ideal

noncomputable section

open scoped BigOperators

namespace Cert.LibEReal

open Idealize.ShloMosaic

/-- The coercion of a finite sum of reals is the sum of the coercions. -/
theorem coe_sum {ι : Type} (s : Finset ι) (f : ι → ℝ) :
    (((∑ i ∈ s, f i : ℝ)) : EReal) = ∑ i ∈ s, ((f i : ℝ) : EReal) := by
  classical
  induction s using Finset.induction_on with
  | empty => simp
  | insert a s ha ih => rw [Finset.sum_insert ha, Finset.sum_insert ha, EReal.coe_add, ih]

/-- The fold of `max` from −∞ over a non-empty finite family of reals is the family's greatest member. -/
theorem fold_max_bot_coe {ι : Type} [Fintype ι] (h : (Finset.univ : Finset ι).Nonempty) (f : ι → ℝ) :
    (Finset.univ : Finset ι).fold max (⊥ : EReal) (fun k => ((f k : ℝ) : EReal))
      = ((Finset.univ.sup' h f : ℝ) : EReal) := by
  classical
  -- the fold of max from ⊥ is the supremum; the supremum of the coercions is the coercion of the greatest member
  have hfold : ∀ t : Finset ι, t.fold max (⊥ : EReal) (fun k => ((f k : ℝ) : EReal))
      = t.sup (fun k => ((f k : ℝ) : EReal)) := by
    intro t
    induction t using Finset.induction_on with
    | empty => simp
    | insert a t ha ih => rw [Finset.fold_insert ha, Finset.sup_insert, ih]
  rw [hfold]
  apply le_antisymm
  · apply Finset.sup_le
    intro k hk
    exact EReal.coe_le_coe_iff.mpr (Finset.le_sup' f hk)
  · obtain ⟨k, hk, hkeq⟩ := Finset.exists_mem_eq_sup' h f
    rw [hkeq]
    exact Finset.le_sup (f := fun k => ((f k : ℝ) : EReal)) hk

/-- The ideal quotient of two reals, the divisor not zero, is their quotient. -/
theorem div_coe_coe (a b : ℝ) (hb : b ≠ 0) : Ideal.div (a : EReal) (b : EReal) = ((a / b : ℝ) : EReal) := by
  have hb' : ((b : ℝ) : EReal) ≠ 0 := by exact_mod_cast hb
  rw [Ideal.div, if_neg hb', ← EReal.coe_inv, ← EReal.coe_mul, div_eq_mul_inv]

/-- The float word of −∞ denotes the bottom of the extended reals. -/
theorem ofBits_neg_inf : Ideal.ofBits .f32 0xFF800000#32 = (⊥ : EReal) := by
  simp [Ideal.ofBits, Ideal.ieee]

/-- The float word 0x3E000000 denotes 1/8. -/
theorem ofBits_eighth : Ideal.ofBits .f32 0x3E000000#32 = (((1 / 8 : ℝ)) : EReal) := by
  simp [Ideal.ofBits, Ideal.ieee, -EReal.coe_mul]
  norm_num

/-- The float word 0x41000000 denotes 8. -/
theorem ofBits_eight : Ideal.ofBits .f32 0x41000000#32 = (((8 : ℝ)) : EReal) := by
  simp [Ideal.ofBits, Ideal.ieee, -EReal.coe_mul]
  norm_num

end Cert.LibEReal

end
-- ==== Proof.Spec.lean ====
/-
  The function both programs compute, over the reals.

  Every position s of batch row b is encoded as enc b s n = cos (x b s n + θ n), n over the 8 wires. Queries, keys and
  values are the encoding times the three weight matrices (`lin`). Head h owns columns 64 h … 64 h + 63; its score of
  query i against key j is the dot product of their head columns over 8 (the square root of the head width), the
  scores of a query row are turned into weights by the softmax along the keys, and the head's context is the
  weights' combination of the value rows (`softmaxDot`). The heads' contexts side by side (`ctxE`) are multiplied by the
  output weight (`out`).

  The arrays are indexed by the index types of their literal shapes, so that both programs' arrays can be handed in
  as they are; `G` is the same function on extended-real arrays whose entries are all real.
-/
import Mathlib.Analysis.SpecialFunctions.Exp
import Mathlib.Analysis.SpecialFunctions.Trigonometric.Basic
import Mathlib.Data.EReal.Basic
import Idealize.ShloMosaic.Lib.ValueIdx

noncomputable section

open scoped BigOperators

namespace Cert.Spec

open Idealize.ShloMosaic Idealize.ShloMosaic.ValueIdx

abbrev SX : Shape := ⟨3, ![4, 2048, 8]⟩
abbrev ST : Shape := ⟨1, ![8]⟩
abbrev SW : Shape := ⟨2, ![512, 8]⟩
abbrev SC : Shape := ⟨2, ![512, 512]⟩
abbrev SO : Shape := ⟨3, ![4, 2048, 512]⟩

/-- The greatest of 2048 reals. -/
def rowSup (s : Fin 2048 → ℝ) : ℝ := Finset.univ.sup' Finset.univ_nonempty s

/-- The softmax of the scores `s` combined with the values `v`: Σ_j exp (s j − max s) / (Σ_j' exp (s j' − max s)) · v j. -/
def softmaxDot (s v : Fin 2048 → ℝ) : ℝ :=
  ∑ j, Real.exp (s j - rowSup s) / (∑ j', Real.exp (s j' - rowSup s)) * v j

/-- Column d of head h among the 512 embedding columns. -/
def hcol (h : Fin 8) (d : Fin 64) : Fin 512 := ⟨64 * h.val + d.val, by omega⟩
/-- The head an embedding column belongs to, and its place in the head. -/
def ehead (e : Fin 512) : Fin 8 := ⟨e.val / 64, by omega⟩
def elane (e : Fin 512) : Fin 64 := ⟨e.val % 64, by omega⟩

theorem hcol_ehead_elane (e : Fin 512) : hcol (ehead e) (elane e) = e := by
  apply Fin.ext; show 64 * (e.val / 64) + e.val % 64 = e.val; omega

section
variable (x : SX.Idx → ℝ) (θ : ST.Idx → ℝ) (wq wk wv : SW.Idx → ℝ) (wc : SC.Idx → ℝ)

/-- The encoding cos (x + θ). -/
def enc (b : Fin 4) (s : Fin 2048) (n : Fin 8) : ℝ := Real.cos (x (ix3 b s n) + θ (ix1 n))

/-- A linear projection of the encoding by a weight matrix `w` of shape (512, 8). -/
def lin (w : SW.Idx → ℝ) (b : Fin 4) (s : Fin 2048) (e : Fin 512) : ℝ := ∑ n : Fin 8, enc x θ b s n * w (ix2 e n)

/-- Head h's score of query position i against key position j. -/
def score (b : Fin 4) (h : Fin 8) (i j : Fin 2048) : ℝ :=
  (∑ d : Fin 64, lin x θ wq b i (hcol h d) * lin x θ wk b j (hcol h d)) / 8

/-- Head h's context at query position i, column d of the head. -/
def ctx (b : Fin 4) (i : Fin 2048) (h : Fin 8) (d : Fin 64) : ℝ :=
  softmaxDot (fun j => score x θ wq wk b h i j) (fun j => lin x θ wv b j (hcol h d))

/-- The heads' contexts side by side. -/
def ctxE (b : Fin 4) (i : Fin 2048) (e : Fin 512) : ℝ := ctx x θ wq wk wv b i (ehead e) (elane e)

/-- The result: the contexts times the output weight. -/
def out (b : Fin 4) (i : Fin 2048) (f : Fin 512) : ℝ := ∑ e : Fin 512, ctxE x θ wq wk wv b i e * wc (ix2 f e)

end

/-- An array of extended reals all of whose entries are real. -/
def IsReal {ι : Type} (v : ι → EReal) : Prop := ∀ i, ∃ r : ℝ, v i = (r : EReal)

theorem IsReal.eq_coe {ι : Type} {v : ι → EReal} (h : IsReal v) : v = fun i => (((v i).toReal : ℝ) : EReal) := by
  funext i; obtain ⟨r, hr⟩ := h i; rw [hr, EReal.toReal_coe]

/-- The result on arrays of extended reals (read through `toReal`: meant for arrays whose entries are real). -/
def G (x : SX.Idx → EReal) (θ : ST.Idx → EReal) (wq wk wv : SW.Idx → EReal) (wc : SC.Idx → EReal) : SO.Idx → EReal :=
  fun i => ((out (fun j => (x j).toReal) (fun j => (θ j).toReal) (fun j => (wq j).toReal) (fun j => (wk j).toReal)
    (fun j => (wv j).toReal) (fun j => (wc j).toReal) (i 0) (i 1) (i 2) : ℝ) : EReal)

/-- On real arrays handed in as extended reals, `G` is `out`. -/
theorem G_coe (x : SX.Idx → ℝ) (θ : ST.Idx → ℝ) (wq wk wv : SW.Idx → ℝ) (wc : SC.Idx → ℝ) :
    G (fun j => (x j : EReal)) (fun j => (θ j : EReal)) (fun j => (wq j : EReal)) (fun j => (wk j : EReal))
      (fun j => (wv j : EReal)) (fun j => (wc j : EReal))
      = fun i => ((out x θ wq wk wv wc (i 0) (i 1) (i 2) : ℝ) : EReal) := by
  funext i; simp only [G, EReal.toReal_coe]

end Cert.Spec

end
-- ==== Proof.Online.lean ====
/-
  The online softmax is the softmax.

  A row of 2048 scores is visited in four tiles of 512. After the first tile the running maximum is the tile's
  greatest score, the running normaliser the sum of exp (score − maximum) over the tile, the running sum the same
  with each term times its value. Every later tile raises the maximum to m' = max m (tile's greatest), rescales
  what was accumulated by exp (m − m') and adds the tile's own terms at m'. Because exp (m − m') · exp (s − m) =
  exp (s − m'), after each tile the normaliser and the sum are the sums over all scores seen so far at the
  current maximum; after the fourth the maximum is the row's, and the sum over the normaliser is the softmax
  of the row combined with the values.
-/
import proofs.«416602_j65481071403103_3_alg».proof.Proof.Spec

noncomputable section

open scoped BigOperators

namespace Cert.Online

open Cert.Spec

/-- The greatest of a tile's 512 scores. -/
def tmax (s : Fin 512 → ℝ) : ℝ := Finset.univ.sup' Finset.univ_nonempty s

/-- After the first tile: normaliser and weighted sum at the tile's maximum. -/
def lFirst (s : Fin 512 → ℝ) : ℝ := ∑ c, Real.exp (s c - tmax s)
def aFirst (s v : Fin 512 → ℝ) : ℝ := ∑ c, Real.exp (s c - tmax s) * v c

/-- A later tile: the new maximum, normaliser and weighted sum from the old ones. -/
def mNext (m : ℝ) (s : Fin 512 → ℝ) : ℝ := max m (tmax s)
def lNext (m l : ℝ) (s : Fin 512 → ℝ) : ℝ := Real.exp (m - mNext m s) * l + ∑ c, Real.exp (s c - mNext m s)
def aNext (m a : ℝ) (s v : Fin 512 → ℝ) : ℝ :=
  Real.exp (m - mNext m s) * a + ∑ c, Real.exp (s c - mNext m s) * v c

/-- Tile t of a row of 2048. -/
def tileOf (s : Fin 2048 → ℝ) (t : Fin 4) : Fin 512 → ℝ := fun c => s ⟨512 * t.val + c.val, by omega⟩

/-- Rescaling from one maximum to another: exp (m − m') · exp (x − m) = exp (x − m'). -/
private theorem exp_rescale (m m' x : ℝ) : Real.exp (m - m') * Real.exp (x - m) = Real.exp (x - m') := by
  rw [← Real.exp_add]; congr 1; ring

/-- A tile's normaliser at the maximum m, rescaled, is the tile's normaliser at m'. -/
private theorem scale_l (m m' : ℝ) (t : Fin 512 → ℝ) :
    Real.exp (m - m') * ∑ c, Real.exp (t c - m) = ∑ c, Real.exp (t c - m') := by
  rw [Finset.mul_sum]
  exact Finset.sum_congr rfl (fun c _ => exp_rescale m m' (t c))

/-- A tile's weighted sum at the maximum m, rescaled, is the tile's weighted sum at m'. -/
private theorem scale_a (m m' : ℝ) (t w : Fin 512 → ℝ) :
    Real.exp (m - m') * ∑ c, Real.exp (t c - m) * w c = ∑ c, Real.exp (t c - m') * w c := by
  rw [Finset.mul_sum]
  refine Finset.sum_congr rfl (fun c _ => ?_)
  rw [← mul_assoc, exp_rescale]

/-- A position of the row is a tile and a place in the tile. -/
private def tileEquiv : Fin 4 × Fin 512 ≃ Fin 2048 where
  toFun p := ⟨512 * p.1.val + p.2.val, by omega⟩
  invFun j := (⟨j.val / 512, by omega⟩, ⟨j.val % 512, by omega⟩)
  left_inv := by
    rintro ⟨t, c⟩
    apply Prod.ext
    · apply Fin.ext; show (512 * t.val + c.val) / 512 = t.val; omega
    · apply Fin.ext; show (512 * t.val + c.val) % 512 = c.val; omega
  right_inv := by
    intro j
    apply Fin.ext; show 512 * (j.val / 512) + j.val % 512 = j.val; omega

/-- A sum over the row is the sum over the four tiles of the sums over each tile. -/
private theorem sum_tiles (f : Fin 2048 → ℝ) :
    ∑ j, f j = ∑ t : Fin 4, ∑ c : Fin 512, tileOf f t c := by
  rw [← Fintype.sum_equiv tileEquiv (fun p => f (tileEquiv p)) f (fun _ => rfl)]
  exact Fintype.sum_prod_type _

/-- Every score is at most its tile's greatest. -/
private theorem le_tmax (t : Fin 512 → ℝ) (c : Fin 512) : t c ≤ tmax t :=
  Finset.le_sup' t (Finset.mem_univ c)

section
variable (s v : Fin 2048 → ℝ)

def m1 : ℝ := tmax (tileOf s 0)
def m2 : ℝ := mNext (m1 s) (tileOf s 1)
def m3 : ℝ := mNext (m2 s) (tileOf s 2)
def l1 : ℝ := lFirst (tileOf s 0)
def l2 : ℝ := lNext (m1 s) (l1 s) (tileOf s 1)
def l3 : ℝ := lNext (m2 s) (l2 s) (tileOf s 2)
def l4 : ℝ := lNext (m3 s) (l3 s) (tileOf s 3)
def a1 : ℝ := aFirst (tileOf s 0) (tileOf v 0)
def a2 : ℝ := aNext (m1 s) (a1 s v) (tileOf s 1) (tileOf v 1)
def a3 : ℝ := aNext (m2 s) (a2 s v) (tileOf s 2) (tileOf v 2)
def a4 : ℝ := aNext (m3 s) (a3 s v) (tileOf s 3) (tileOf v 3)

/-- The running maximum after the fourth tile. -/
private def m4 : ℝ := mNext (m3 s) (tileOf s 3)

/-- The running maximum after the four tiles is the row's greatest score. -/
private theorem m4_eq : m4 s = rowSup s := by
  apply le_antisymm
  · have ht : ∀ t : Fin 4, tmax (tileOf s t) ≤ rowSup s := by
      intro t
      apply Finset.sup'_le
      intro c _
      exact Finset.le_sup' s (Finset.mem_univ _)
    unfold m4 m3 m2 m1 mNext
    exact max_le (max_le (max_le (ht 0) (ht 1)) (ht 2)) (ht 3)
  · apply Finset.sup'_le
    intro j _
    have hj : s j = tileOf s (tileEquiv.symm j).1 (tileEquiv.symm j).2 := by
      conv_lhs => rw [← tileEquiv.apply_symm_apply j]
      rfl
    have h0 : tmax (tileOf s 0) ≤ m4 s := by
      unfold m4 m3 m2 m1 mNext
      exact le_trans (le_trans (le_max_left _ _) (le_max_left _ _)) (le_max_left _ _)
    have h1 : tmax (tileOf s 1) ≤ m4 s := by
      unfold m4 m3 m2 mNext
      exact le_trans (le_trans (le_max_right _ _) (le_max_left _ _)) (le_max_left _ _)
    have h2 : tmax (tileOf s 2) ≤ m4 s := by
      unfold m4 m3 mNext
      exact le_trans (le_max_right _ _) (le_max_left _ _)
    have h3 : tmax (tileOf s 3) ≤ m4 s := by
      unfold m4 mNext
      exact le_max_right _ _
    have ht : ∀ t : Fin 4, tmax (tileOf s t) ≤ m4 s := by
      intro t
      fin_cases t
      · exact h0
      · exact h1
      · exact h2
      · exact h3
    rw [hj]
    exact le_trans (le_tmax _ _) (ht _)

/-- After the four tiles the normaliser is the sum over the row of exp (score − the running maximum). -/
private theorem l4_eq : l4 s = ∑ j, Real.exp (s j - m4 s) := by
  have e2 : l2 s = ∑ c, Real.exp (tileOf s 0 c - m2 s) + ∑ c, Real.exp (tileOf s 1 c - m2 s) := by
    show Real.exp (m1 s - m2 s) * (∑ c, Real.exp (tileOf s 0 c - m1 s)) + _ = _
    rw [scale_l]; rfl
  have e3 : l3 s = ∑ c, Real.exp (tileOf s 0 c - m3 s) + ∑ c, Real.exp (tileOf s 1 c - m3 s)
      + ∑ c, Real.exp (tileOf s 2 c - m3 s) := by
    show Real.exp (m2 s - m3 s) * l2 s + _ = _
    rw [e2, mul_add, scale_l, scale_l]; rfl
  have e4 : l4 s = ∑ c, Real.exp (tileOf s 0 c - m4 s) + ∑ c, Real.exp (tileOf s 1 c - m4 s)
      + ∑ c, Real.exp (tileOf s 2 c - m4 s) + ∑ c, Real.exp (tileOf s 3 c - m4 s) := by
    show Real.exp (m3 s - m4 s) * l3 s + _ = _
    rw [e3, mul_add, mul_add, scale_l, scale_l, scale_l]; rfl
  rw [e4, sum_tiles (fun j => Real.exp (s j - m4 s)), Fin.sum_univ_four]
  rfl

/-- After the four tiles the weighted sum is the sum over the row of exp (score − the running maximum) · value. -/
private theorem a4_eq : a4 s v = ∑ j, Real.exp (s j - m4 s) * v j := by
  have e2 : a2 s v = ∑ c, Real.exp (tileOf s 0 c - m2 s) * tileOf v 0 c
      + ∑ c, Real.exp (tileOf s 1 c - m2 s) * tileOf v 1 c := by
    show Real.exp (m1 s - m2 s) * (∑ c, Real.exp (tileOf s 0 c - m1 s) * tileOf v 0 c) + _ = _
    rw [scale_a]; rfl
  have e3 : a3 s v = ∑ c, Real.exp (tileOf s 0 c - m3 s) * tileOf v 0 c
      + ∑ c, Real.exp (tileOf s 1 c - m3 s) * tileOf v 1 c
      + ∑ c, Real.exp (tileOf s 2 c - m3 s) * tileOf v 2 c := by
    show Real.exp (m2 s - m3 s) * a2 s v + _ = _
    rw [e2, mul_add, scale_a, scale_a]; rfl
  have e4 : a4 s v = ∑ c, Real.exp (tileOf s 0 c - m4 s) * tileOf v 0 c
      + ∑ c, Real.exp (tileOf s 1 c - m4 s) * tileOf v 1 c
      + ∑ c, Real.exp (tileOf s 2 c - m4 s) * tileOf v 2 c
      + ∑ c, Real.exp (tileOf s 3 c - m4 s) * tileOf v 3 c := by
    show Real.exp (m3 s - m4 s) * a3 s v + _ = _
    rw [e3, mul_add, mul_add, scale_a, scale_a, scale_a]; rfl
  rw [e4, sum_tiles (fun j => Real.exp (s j - m4 s) * v j), Fin.sum_univ_four]
  rfl

/-- The normaliser after the four tiles is positive. -/
theorem l4_pos : 0 < l4 s := by
  rw [l4_eq]
  exact Finset.sum_pos (fun j _ => Real.exp_pos _) Finset.univ_nonempty

/-- The online softmax of a row is the softmax of the row combined with the values. -/
theorem online_eq : a4 s v / l4 s = softmaxDot s v := by
  rw [l4_eq, a4_eq, m4_eq, softmaxDot, Finset.sum_div]
  exact Finset.sum_congr rfl (fun j _ => (div_mul_eq_mul_div _ _ _).symm)

end

end Cert.Online

end
-- ==== Proof.HeadRead.lean ====
/-
  One head of the kernel, read at an entry, on real inputs.

  With real queries q (512 × 64), keys k and values v (2048 × 64), the head's output at row r, column d is the
  softmax along the 2048 keys of the scores q_r · k_j combined with column d of the values. The kernel reaches it
  through four tiles of an online softmax that starts from the maximum −∞ (whose rescaling factor exp (−∞ − m) is 0, so
  the first tile simply installs its own sums), and every quantity after the first tile is real.
-/
import proofs.«416602_j65481071403103_3_alg».proof.Proof.Clean
import proofs.«416602_j65481071403103_3_alg».proof.Proof.LibColumn
import proofs.«416602_j65481071403103_3_alg».proof.Proof.LibEReal
import proofs.«416602_j65481071403103_3_alg».proof.Proof.Online
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.HeadRead

open Idealize.ShloMosaic Idealize.ShloMosaic.ValueIdx
open Cert.KernelIdeal Cert.KernelIdeal.Clean Cert.Spec

/-! ## The two products' operand indices -/

private theorem sc_lhs0 (i : S512x512.Idx) (p : dot_S512x64_S64x512_S512x512_1_0_0_1_n_n.contr.Idx) :
    (dot_S512x64_S64x512_S512x512_1_0_0_1_n_n.lhsIdx i p 0).val = (i 0).val := by
  unfold DotDims.lhsIdx
  rw [dif_neg (show ¬(0 : Fin S512x64.rank) ∈ dot_S512x64_S64x512_S512x512_1_0_0_1_n_n.lhsBatch by decide),
    dif_pos (show (0 : Fin S512x64.rank) ∈ dot_S512x64_S64x512_S512x512_1_0_0_1_n_n.lhsNonContracting by decide)]
  rfl
private theorem sc_lhs1 (i : S512x512.Idx) (p : dot_S512x64_S64x512_S512x512_1_0_0_1_n_n.contr.Idx) :
    (dot_S512x64_S64x512_S512x512_1_0_0_1_n_n.lhsIdx i p 1).val = (p ⟨0, by decide⟩).val :=
  dot_S512x64_S64x512_S512x512_1_0_0_1_n_n.lhsIdx_val_of_single rfl i p
private theorem sc_rhs0 (i : S512x512.Idx) (p : dot_S512x64_S64x512_S512x512_1_0_0_1_n_n.contr.Idx) :
    (dot_S512x64_S64x512_S512x512_1_0_0_1_n_n.rhsIdx i p 0).val = (p ⟨0, by decide⟩).val :=
  dot_S512x64_S64x512_S512x512_1_0_0_1_n_n.rhsIdx_val_of_single rfl i p
private theorem sc_rhs1 (i : S512x512.Idx) (p : dot_S512x64_S64x512_S512x512_1_0_0_1_n_n.contr.Idx) :
    (dot_S512x64_S64x512_S512x512_1_0_0_1_n_n.rhsIdx i p 1).val = (i 1).val := by
  unfold DotDims.rhsIdx
  rw [dif_neg (show ¬(1 : Fin S64x512.rank) ∈ dot_S512x64_S64x512_S512x512_1_0_0_1_n_n.rhsBatch by decide),
    dif_pos (show (1 : Fin S64x512.rank) ∈ dot_S512x64_S64x512_S512x512_1_0_0_1_n_n.rhsNonContracting by decide)]
  rfl

/-- The scores at (r, c): the dot product of query row r and key row c of the tile. -/
private theorem scores_apply (q kt : FVec Ideal S512x64 .bf16) (r c : Fin 512) :
    scores q kt (ix2 r c) = ∑ d' : Fin 64, q (ix2 r d') * kt (ix2 c d') := by
  unfold scores
  simp only [matmul]
  rw [Ideal.matmul_constant_zero_apply,
    ← Equiv.sum_comp (contrEquiv1 dot_S512x64_S64x512_S512x512_1_0_0_1_n_n 64 rfl rfl).symm]
  refine Finset.sum_congr rfl fun d' _ => ?_
  have hk := contrEquiv1_symm_val dot_S512x64_S64x512_S512x512_1_0_0_1_n_n 64 rfl rfl d'
  have el : dot_S512x64_S64x512_S512x512_1_0_0_1_n_n.lhsIdx (ix2 r c)
      ((contrEquiv1 dot_S512x64_S64x512_S512x512_1_0_0_1_n_n 64 rfl rfl).symm d') = ix2 r d' :=
    funext fun a => Fin.ext (by
      match a with
      | ⟨0, _⟩ => exact sc_lhs0 _ _
      | ⟨1, _⟩ => exact (sc_lhs1 _ _).trans hk)
  have er : dot_S512x64_S64x512_S512x512_1_0_0_1_n_n.rhsIdx (ix2 r c)
      ((contrEquiv1 dot_S512x64_S64x512_S512x512_1_0_0_1_n_n 64 rfl rfl).symm d') = ix2 d' c :=
    funext fun a => Fin.ext (by
      match a with
      | ⟨0, _⟩ => exact (sc_rhs0 _ _).trans hk
      | ⟨1, _⟩ => exact sc_rhs1 _ _)
  rw [el, er]
  exact congrArg (q (ix2 r d') * ·) (transpose_ix2_apply kt _ d' c)

/-! ## One tile, read at an entry -/

/-- The running maximum after a tile: the greater of the old one and the fold of max over the row's scores. -/
private theorem tileM_apply (q kt : FVec Ideal S512x64 .bf16) (m : FVec Ideal S512x1 .f32) (r : Fin 512) (u : Fin 1) :
    tileM q kt m (ix2 r u) = max (m (ix2 r u))
      ((Finset.univ : Finset (Fin 512)).fold max (Ideal.ofBits .f32 0xFF800000#32) (fun c => scores q kt (ix2 r c))) := by
  unfold tileM
  rw [maximumf_apply]
  refine congrArg (max (m (ix2 r u))) ?_
  rw [Cert.LibColumn.shapeCast_a_a1_apply]
  exact Cert.LibColumn.maxAxis1_apply (scores q kt) _ _ _ _ r

/-- The tile's rescaling factor. -/
private theorem tileA_apply (q kt : FVec Ideal S512x64 .bf16) (m : FVec Ideal S512x1 .f32) (r : Fin 512) (u : Fin 1) :
    tileA q kt m (ix2 r u) = Ideal.exp (m (ix2 r u) - tileM q kt m (ix2 r u)) := rfl

/-- The tile's weights. -/
private theorem tileP_apply (q kt : FVec Ideal S512x64 .bf16) (m : FVec Ideal S512x1 .f32) (r c : Fin 512) :
    tileP q kt m (ix2 r c) = Ideal.exp (scores q kt (ix2 r c) - tileM q kt m (ix2 r (0 : Fin 1))) := by
  unfold tileP
  show Ideal.exp (scores q kt (ix2 r c) - broadcastTo S512x512 (tileM q kt m) Gen.broadcasts_S512x1_S512x512 (ix2 r c)) = _
  rw [Cert.LibColumn.broadcastTo_a1_ab_apply]

/-- The running normaliser after a tile. -/
private theorem tileL_apply (q kt : FVec Ideal S512x64 .bf16) (m l : FVec Ideal S512x1 .f32) (r : Fin 512) (u : Fin 1) :
    tileL q kt m l (ix2 r u) = tileA q kt m (ix2 r u) * l (ix2 r u) + ∑ c : Fin 512, tileP q kt m (ix2 r c) := by
  unfold tileL
  rw [addf_apply, mulf_apply]
  refine congrArg (tileA q kt m (ix2 r u) * l (ix2 r u) + ·) ?_
  rw [Cert.LibColumn.shapeCast_a_a1_apply]
  exact Cert.LibColumn.sumAxis1_apply (tileP q kt m) _ _ _ _ r

private theorem av_lhs0 (i : S512x64.Idx) (p : dot_S512x512_S512x64_S512x64_1_0_0_1_n_n.contr.Idx) :
    (dot_S512x512_S512x64_S512x64_1_0_0_1_n_n.lhsIdx i p 0).val = (i 0).val := by
  unfold DotDims.lhsIdx
  rw [dif_neg (show ¬(0 : Fin S512x512.rank) ∈ dot_S512x512_S512x64_S512x64_1_0_0_1_n_n.lhsBatch by decide),
    dif_pos (show (0 : Fin S512x512.rank) ∈ dot_S512x512_S512x64_S512x64_1_0_0_1_n_n.lhsNonContracting by decide)]
  rfl
private theorem av_lhs1 (i : S512x64.Idx) (p : dot_S512x512_S512x64_S512x64_1_0_0_1_n_n.contr.Idx) :
    (dot_S512x512_S512x64_S512x64_1_0_0_1_n_n.lhsIdx i p 1).val = (p ⟨0, by decide⟩).val :=
  dot_S512x512_S512x64_S512x64_1_0_0_1_n_n.lhsIdx_val_of_single rfl i p
private theorem av_rhs0 (i : S512x64.Idx) (p : dot_S512x512_S512x64_S512x64_1_0_0_1_n_n.contr.Idx) :
    (dot_S512x512_S512x64_S512x64_1_0_0_1_n_n.rhsIdx i p 0).val = (p ⟨0, by decide⟩).val :=
  dot_S512x512_S512x64_S512x64_1_0_0_1_n_n.rhsIdx_val_of_single rfl i p
private theorem av_rhs1 (i : S512x64.Idx) (p : dot_S512x512_S512x64_S512x64_1_0_0_1_n_n.contr.Idx) :
    (dot_S512x512_S512x64_S512x64_1_0_0_1_n_n.rhsIdx i p 1).val = (i 1).val := by
  unfold DotDims.rhsIdx
  rw [dif_neg (show ¬(1 : Fin S512x64.rank) ∈ dot_S512x512_S512x64_S512x64_1_0_0_1_n_n.rhsBatch by decide),
    dif_pos (show (1 : Fin S512x64.rank) ∈ dot_S512x512_S512x64_S512x64_1_0_0_1_n_n.rhsNonContracting by decide)]
  rfl

/-- The weights times a tile of values, at (r, d). -/
private theorem weighted_apply (p : FVec Ideal S512x512 .bf16) (vt : FVec Ideal S512x64 .bf16) (r : Fin 512) (d : Fin 64) :
    matmul dot_S512x512_S512x64_S512x64_1_0_0_1_n_n none p vt (constant S512x64 .f32 0x00000000#32) (ix2 r d)
      = ∑ c : Fin 512, p (ix2 r c) * vt (ix2 c d) := by
  simp only [matmul]
  rw [Ideal.matmul_constant_zero_apply,
    ← Equiv.sum_comp (contrEquiv1 dot_S512x512_S512x64_S512x64_1_0_0_1_n_n 512 rfl rfl).symm]
  refine Finset.sum_congr rfl fun c _ => ?_
  have hk := contrEquiv1_symm_val dot_S512x512_S512x64_S512x64_1_0_0_1_n_n 512 rfl rfl c
  have el : dot_S512x512_S512x64_S512x64_1_0_0_1_n_n.lhsIdx (ix2 r d)
      ((contrEquiv1 dot_S512x512_S512x64_S512x64_1_0_0_1_n_n 512 rfl rfl).symm c) = ix2 r c :=
    funext fun a => Fin.ext (by
      match a with
      | ⟨0, _⟩ => exact av_lhs0 _ _
      | ⟨1, _⟩ => exact (av_lhs1 _ _).trans hk)
  have er : dot_S512x512_S512x64_S512x64_1_0_0_1_n_n.rhsIdx (ix2 r d)
      ((contrEquiv1 dot_S512x512_S512x64_S512x64_1_0_0_1_n_n 512 rfl rfl).symm c) = ix2 c d :=
    funext fun a => Fin.ext (by
      match a with
      | ⟨0, _⟩ => exact (av_rhs0 _ _).trans hk
      | ⟨1, _⟩ => exact av_rhs1 _ _)
  rw [el, er]

/-- The running weighted sum after a tile. -/
private theorem tileAcc_apply (q kt vt : FVec Ideal S512x64 .bf16) (m : FVec Ideal S512x1 .f32) (acc : FVec Ideal S512x64 .f32)
    (r : Fin 512) (d : Fin 64) :
    tileAcc q kt vt m acc (ix2 r d)
      = tileA q kt m (ix2 r (0 : Fin 1)) * acc (ix2 r d) + ∑ c : Fin 512, tileP q kt m (ix2 r c) * vt (ix2 c d) := by
  unfold tileAcc
  rw [addf_apply, mulf_apply, Cert.LibColumn.broadcastTo_a1_ab_apply, weighted_apply]
  rfl

/-! ## A tile on real scores and values -/

/-- The greater of two reals, as extended reals. -/
private theorem coe_max (a b : ℝ) : max (a : EReal) (b : EReal) = ((max a b : ℝ) : EReal) := by
  rcases le_total a b with h | h
  · rw [max_eq_right h, max_eq_right (EReal.coe_le_coe_iff.mpr h)]
  · rw [max_eq_left h, max_eq_left (EReal.coe_le_coe_iff.mpr h)]

section Tile
variable (q kt vt : FVec Ideal S512x64 .bf16) (m l : FVec Ideal S512x1 .f32) (acc : FVec Ideal S512x64 .f32)
  (r : Fin 512) (d : Fin 64) (st vr : Fin 512 → ℝ)

/-- The fold of max over a row of real scores, from −∞, is the row's greatest score. -/
private theorem rowMax_real (hs : ∀ c, scores q kt (ix2 r c) = ((st c : ℝ) : EReal)) :
    (Finset.univ : Finset (Fin 512)).fold max (Ideal.ofBits .f32 0xFF800000#32) (fun c => scores q kt (ix2 r c))
      = ((Online.tmax st : ℝ) : EReal) := by
  rw [Cert.LibEReal.ofBits_neg_inf, show (fun c => scores q kt (ix2 r c)) = fun c => ((st c : ℝ) : EReal) from funext hs]
  exact Cert.LibEReal.fold_max_bot_coe Finset.univ_nonempty st

/-- From the maximum −∞ the tile installs its own greatest score. -/
private theorem tileM_first (hs : ∀ c, scores q kt (ix2 r c) = ((st c : ℝ) : EReal))
    (hm : m (ix2 r (0 : Fin 1)) = ⊥) : tileM q kt m (ix2 r (0 : Fin 1)) = ((Online.tmax st : ℝ) : EReal) := by
  rw [tileM_apply, hm, rowMax_real q kt r st hs, max_bot_left]

/-- From a real maximum the tile raises it to the greater of it and its own greatest score. -/
private theorem tileM_next (hs : ∀ c, scores q kt (ix2 r c) = ((st c : ℝ) : EReal)) (mr : ℝ)
    (hm : m (ix2 r (0 : Fin 1)) = ((mr : ℝ) : EReal)) :
    tileM q kt m (ix2 r (0 : Fin 1)) = ((Online.mNext mr st : ℝ) : EReal) := by
  rw [tileM_apply, hm, rowMax_real q kt r st hs, coe_max]
  rfl

/-- With a real new maximum M the tile's weights are exp (score − M). -/
private theorem tileP_real (hs : ∀ c, scores q kt (ix2 r c) = ((st c : ℝ) : EReal)) (M : ℝ)
    (hM : tileM q kt m (ix2 r (0 : Fin 1)) = ((M : ℝ) : EReal)) (c : Fin 512) :
    tileP q kt m (ix2 r c) = ((Real.exp (st c - M) : ℝ) : EReal) := by
  rw [tileP_apply, hs c, hM, ← EReal.coe_sub, Ideal.exp_coe]

/-- Their sum over the tile. -/
private theorem sumP_real (hs : ∀ c, scores q kt (ix2 r c) = ((st c : ℝ) : EReal)) (M : ℝ)
    (hM : tileM q kt m (ix2 r (0 : Fin 1)) = ((M : ℝ) : EReal)) :
    ∑ c : Fin 512, tileP q kt m (ix2 r c) = ((∑ c : Fin 512, Real.exp (st c - M) : ℝ) : EReal) := by
  rw [Cert.LibEReal.coe_sum]
  exact Finset.sum_congr rfl fun c _ => tileP_real q kt m r st hs M hM c

/-- Their combination of a column of real values. -/
private theorem sumPV_real (hs : ∀ c, scores q kt (ix2 r c) = ((st c : ℝ) : EReal))
    (hv : ∀ c, vt (ix2 c d) = ((vr c : ℝ) : EReal)) (M : ℝ)
    (hM : tileM q kt m (ix2 r (0 : Fin 1)) = ((M : ℝ) : EReal)) :
    ∑ c : Fin 512, tileP q kt m (ix2 r c) * vt (ix2 c d)
      = ((∑ c : Fin 512, Real.exp (st c - M) * vr c : ℝ) : EReal) := by
  rw [Cert.LibEReal.coe_sum]
  refine Finset.sum_congr rfl fun c _ => ?_
  rw [tileP_real q kt m r st hs M hM c, hv c, EReal.coe_mul]

/-- The first tile's normaliser: the factor exp (−∞ − M) is 0, and what it multiplies is 0. -/
private theorem tileL_first (hs : ∀ c, scores q kt (ix2 r c) = ((st c : ℝ) : EReal))
    (hm : m (ix2 r (0 : Fin 1)) = ⊥) (hl : l (ix2 r (0 : Fin 1)) = 0) :
    tileL q kt m l (ix2 r (0 : Fin 1)) = ((Online.lFirst st : ℝ) : EReal) := by
  rw [tileL_apply, tileA_apply, hm, EReal.bot_sub, Ideal.exp_bot, hl, mul_zero, zero_add,
    sumP_real q kt m r st hs _ (tileM_first q kt m r st hs hm)]
  rfl

/-- A later tile's normaliser. -/
private theorem tileL_next (hs : ∀ c, scores q kt (ix2 r c) = ((st c : ℝ) : EReal)) (mr lr : ℝ)
    (hm : m (ix2 r (0 : Fin 1)) = ((mr : ℝ) : EReal)) (hl : l (ix2 r (0 : Fin 1)) = ((lr : ℝ) : EReal)) :
    tileL q kt m l (ix2 r (0 : Fin 1)) = ((Online.lNext mr lr st : ℝ) : EReal) := by
  have hM := tileM_next q kt m r st hs mr hm
  rw [tileL_apply, tileA_apply, hM, hm, ← EReal.coe_sub, Ideal.exp_coe, hl, ← EReal.coe_mul,
    sumP_real q kt m r st hs _ hM, ← EReal.coe_add]
  rfl

/-- The first tile's weighted sum. -/
private theorem tileAcc_first (hs : ∀ c, scores q kt (ix2 r c) = ((st c : ℝ) : EReal))
    (hv : ∀ c, vt (ix2 c d) = ((vr c : ℝ) : EReal))
    (hm : m (ix2 r (0 : Fin 1)) = ⊥) (ha : acc (ix2 r d) = 0) :
    tileAcc q kt vt m acc (ix2 r d) = ((Online.aFirst st vr : ℝ) : EReal) := by
  rw [tileAcc_apply, tileA_apply, hm, EReal.bot_sub, Ideal.exp_bot, ha, mul_zero, zero_add,
    sumPV_real q kt vt m r d st vr hs hv _ (tileM_first q kt m r st hs hm)]
  rfl

/-- A later tile's weighted sum. -/
private theorem tileAcc_next (hs : ∀ c, scores q kt (ix2 r c) = ((st c : ℝ) : EReal))
    (hv : ∀ c, vt (ix2 c d) = ((vr c : ℝ) : EReal)) (mr ar : ℝ)
    (hm : m (ix2 r (0 : Fin 1)) = ((mr : ℝ) : EReal)) (ha : acc (ix2 r d) = ((ar : ℝ) : EReal)) :
    tileAcc q kt vt m acc (ix2 r d) = ((Online.aNext mr ar st vr : ℝ) : EReal) := by
  have hM := tileM_next q kt m r st hs mr hm
  rw [tileAcc_apply, tileA_apply, hM, hm, ← EReal.coe_sub, Ideal.exp_coe, ha, ← EReal.coe_mul,
    sumPV_real q kt vt m r d st vr hs hv _ hM, ← EReal.coe_add]
  rfl

end Tile

/-! ## The four tiles of a head on real queries, keys and values -/

private theorem kt0_read (x : FVec Ideal S2048x64 .bf16) (c : Fin 512) (d : Fin 64) :
    kt0 x (ix2 c d) = x (ix2 ⟨512 * (0 : Fin 4).val + c.val, by omega⟩ d) :=
  slice2_axis0_apply 0 x _ c d _ (by simp)
private theorem kt1_read (x : FVec Ideal S2048x64 .bf16) (c : Fin 512) (d : Fin 64) :
    kt1 x (ix2 c d) = x (ix2 ⟨512 * (1 : Fin 4).val + c.val, by omega⟩ d) :=
  slice2_axis0_apply 512 x _ c d _ (by simp)
private theorem kt2_read (x : FVec Ideal S2048x64 .bf16) (c : Fin 512) (d : Fin 64) :
    kt2 x (ix2 c d) = x (ix2 ⟨512 * (2 : Fin 4).val + c.val, by omega⟩ d) :=
  slice2_axis0_apply 1024 x _ c d _ (by simp)
private theorem kt3_read (x : FVec Ideal S2048x64 .bf16) (c : Fin 512) (d : Fin 64) :
    kt3 x (ix2 c d) = x (ix2 ⟨512 * (3 : Fin 4).val + c.val, by omega⟩ d) :=
  slice2_axis0_apply 1536 x _ c d _ (by simp)

/-- Real queries against a tile of real keys: the scores are the row's scores at the tile's positions. -/
private theorem scores_real (q : S512x64.Idx → ℝ) (k : S2048x64.Idx → ℝ) (kt : FVec Ideal S512x64 .bf16) (t : Fin 4)
    (hkt : ∀ (c : Fin 512) (d' : Fin 64), kt (ix2 c d') = ((k (ix2 ⟨512 * t.val + c.val, by omega⟩ d') : ℝ) : EReal))
    (r c : Fin 512) :
    scores (fun j => ((q j : ℝ) : EReal)) kt (ix2 r c)
      = ((Online.tileOf (fun j : Fin 2048 => ∑ d' : Fin 64, q (ix2 r d') * k (ix2 j d')) t c : ℝ) : EReal) := by
  rw [scores_apply]
  show _ = (((∑ d' : Fin 64, q (ix2 r d') * k (ix2 ⟨512 * t.val + c.val, by omega⟩ d') : ℝ)) : EReal)
  rw [Cert.LibEReal.coe_sum]
  refine Finset.sum_congr rfl fun d' _ => ?_
  rw [hkt c d', EReal.coe_mul]

section Head
variable (q : S512x64.Idx → ℝ) (k v : S2048x64.Idx → ℝ) (r : Fin 512) (d : Fin 64)

local notation "Q" => (fun j : S512x64.Idx => ((q j : ℝ) : EReal))
local notation "K" => (fun j : S2048x64.Idx => ((k j : ℝ) : EReal))
local notation "V" => (fun j : S2048x64.Idx => ((v j : ℝ) : EReal))
local notation "σ" => (fun j : Fin 2048 => ∑ d' : Fin 64, q (ix2 r d') * k (ix2 j d'))
local notation "ω" => (fun j : Fin 2048 => v (ix2 j d))

private theorem hs0 (c : Fin 512) : scores (F := Ideal) Q (kt0 (F := Ideal) K) (ix2 r c) = ((Online.tileOf σ 0 c : ℝ) : EReal) :=
  scores_real q k (kt0 K) 0 (fun c d' => kt0_read K c d') r c
private theorem hs1 (c : Fin 512) : scores (F := Ideal) Q (kt1 (F := Ideal) K) (ix2 r c) = ((Online.tileOf σ 1 c : ℝ) : EReal) :=
  scores_real q k (kt1 K) 1 (fun c d' => kt1_read K c d') r c
private theorem hs2 (c : Fin 512) : scores (F := Ideal) Q (kt2 (F := Ideal) K) (ix2 r c) = ((Online.tileOf σ 2 c : ℝ) : EReal) :=
  scores_real q k (kt2 K) 2 (fun c d' => kt2_read K c d') r c
private theorem hs3 (c : Fin 512) : scores (F := Ideal) Q (kt3 (F := Ideal) K) (ix2 r c) = ((Online.tileOf σ 3 c : ℝ) : EReal) :=
  scores_real q k (kt3 K) 3 (fun c d' => kt3_read K c d') r c

private theorem hv0 (c : Fin 512) : kt0 (F := Ideal) V (ix2 c d) = ((Online.tileOf ω 0 c : ℝ) : EReal) := kt0_read V c d
private theorem hv1 (c : Fin 512) : kt1 (F := Ideal) V (ix2 c d) = ((Online.tileOf ω 1 c : ℝ) : EReal) := kt1_read V c d
private theorem hv2 (c : Fin 512) : kt2 (F := Ideal) V (ix2 c d) = ((Online.tileOf ω 2 c : ℝ) : EReal) := kt2_read V c d
private theorem hv3 (c : Fin 512) : kt3 (F := Ideal) V (ix2 c d) = ((Online.tileOf ω 3 c : ℝ) : EReal) := kt3_read V c d

/-- The starting state at an entry: −∞, 0 and 0. -/
private theorem m0_read : m0 (F := Ideal) (ix2 r (0 : Fin 1)) = ⊥ := Cert.LibEReal.ofBits_neg_inf
private theorem l0_read : l0 (F := Ideal) (ix2 r (0 : Fin 1)) = 0 := Ideal.ofBits_zero_f32
private theorem a0_read : a0 (F := Ideal) (ix2 r d) = 0 := Ideal.ofBits_zero_f32

private theorem m1_real : m1 (F := Ideal) Q K (ix2 r (0 : Fin 1)) = ((Online.m1 σ : ℝ) : EReal) :=
  tileM_first Q (kt0 K) m0 r _ (hs0 q k r) (m0_read r)
private theorem l1_real : l1 (F := Ideal) Q K (ix2 r (0 : Fin 1)) = ((Online.l1 σ : ℝ) : EReal) :=
  tileL_first Q (kt0 K) m0 l0 r _ (hs0 q k r) (m0_read r) (l0_read r)
private theorem a1_real : a1 (F := Ideal) Q K V (ix2 r d) = ((Online.a1 σ ω : ℝ) : EReal) :=
  tileAcc_first Q (kt0 K) (kt0 V) m0 a0 r d _ _ (hs0 q k r) (hv0 v d) (m0_read r) (a0_read r d)

private theorem m2_real : m2 (F := Ideal) Q K (ix2 r (0 : Fin 1)) = ((Online.m2 σ : ℝ) : EReal) :=
  tileM_next Q (kt1 K) (m1 Q K) r _ (hs1 q k r) _ (m1_real q k r)
private theorem l2_real : l2 (F := Ideal) Q K (ix2 r (0 : Fin 1)) = ((Online.l2 σ : ℝ) : EReal) :=
  tileL_next Q (kt1 K) (m1 Q K) (l1 Q K) r _ (hs1 q k r) _ _ (m1_real q k r) (l1_real q k r)
private theorem a2_real : a2 (F := Ideal) Q K V (ix2 r d) = ((Online.a2 σ ω : ℝ) : EReal) :=
  tileAcc_next Q (kt1 K) (kt1 V) (m1 Q K) (a1 Q K V) r d _ _ (hs1 q k r) (hv1 v d) _ _ (m1_real q k r) (a1_real q k v r d)

private theorem m3_real : m3 (F := Ideal) Q K (ix2 r (0 : Fin 1)) = ((Online.m3 σ : ℝ) : EReal) :=
  tileM_next Q (kt2 K) (m2 Q K) r _ (hs2 q k r) _ (m2_real q k r)
private theorem l3_real : l3 (F := Ideal) Q K (ix2 r (0 : Fin 1)) = ((Online.l3 σ : ℝ) : EReal) :=
  tileL_next Q (kt2 K) (m2 Q K) (l2 Q K) r _ (hs2 q k r) _ _ (m2_real q k r) (l2_real q k r)
private theorem a3_real : a3 (F := Ideal) Q K V (ix2 r d) = ((Online.a3 σ ω : ℝ) : EReal) :=
  tileAcc_next Q (kt2 K) (kt2 V) (m2 Q K) (a2 Q K V) r d _ _ (hs2 q k r) (hv2 v d) _ _ (m2_real q k r) (a2_real q k v r d)

private theorem l4_real : l4 (F := Ideal) Q K (ix2 r (0 : Fin 1)) = ((Online.l4 σ : ℝ) : EReal) :=
  tileL_next Q (kt3 K) (m3 Q K) (l3 Q K) r _ (hs3 q k r) _ _ (m3_real q k r) (l3_real q k r)
private theorem a4_real : a4 (F := Ideal) Q K V (ix2 r d) = ((Online.a4 σ ω : ℝ) : EReal) :=
  tileAcc_next Q (kt3 K) (kt3 V) (m3 Q K) (a3 Q K V) r d _ _ (hs3 q k r) (hv3 v d) _ _ (m3_real q k r) (a3_real q k v r d)

end Head

/-- A head's output on real queries, keys and values: the softmax of the row's scores combined with the values' column. -/
theorem headOut_real (q : S512x64.Idx → ℝ) (k v : S2048x64.Idx → ℝ) (r : Fin 512) (d : Fin 64) :
    headOut (F := Ideal) (fun j => ((q j : ℝ) : EReal)) (fun j => ((k j : ℝ) : EReal)) (fun j => ((v j : ℝ) : EReal)) (ix2 r d)
      = ((softmaxDot (fun j : Fin 2048 => ∑ d' : Fin 64, q (ix2 r d') * k (ix2 j d')) (fun j : Fin 2048 => v (ix2 j d)) : ℝ) : EReal) := by
  unfold headOut
  rw [shapeCast_self, truncf_apply, divf_apply, Cert.LibColumn.broadcastTo_a1_ab_apply, a4_real q k v r d, l4_real q k r,
    Cert.LibEReal.div_coe_coe _ _ (ne_of_gt (Online.l4_pos _)), Online.online_eq]

end Cert.KernelIdeal.HeadRead

end
-- ==== Proof.KSpec.lean ====
/-
  The kernel's arithmetic over the reals, in the kernel's own arrangement, and that it is the specification.

  A grid point sees one batch row `xb` (shape 1 × 2048 × 8), the angles, and the weights transposed (contraction axis
  first), the query weight already multiplied by 1/8. Its queries are therefore the specification's queries over 8,
  and the dot products of its head columns are the specification's scores with no further division: the two
  arrangements differ by where the factor 1/8 is applied and by the transposition of the weights.
-/
import proofs.«416602_j65481071403103_3_alg».proof.Proof.Spec

noncomputable section

open scoped BigOperators

namespace Cert.KSpec

open Idealize.ShloMosaic Idealize.ShloMosaic.ValueIdx Cert.Spec

abbrev SXb : Shape := ⟨3, ![1, 2048, 8]⟩
abbrev SWt : Shape := ⟨2, ![8, 512]⟩

section
variable (xb : SXb.Idx → ℝ) (θ : ST.Idx → ℝ) (wqT wkT wvT : SWt.Idx → ℝ) (wcT : SC.Idx → ℝ)

/-- The encoding of position s of the batch row. -/
def kenc (s : Fin 2048) (n : Fin 8) : ℝ := Real.cos (xb (ix3 (0 : Fin 1) s n) + θ (ix1 n))

/-- A projection by a transposed weight. -/
def kproj (wT : SWt.Idx → ℝ) (s : Fin 2048) (e : Fin 512) : ℝ := ∑ n : Fin 8, kenc xb θ s n * wT (ix2 n e)

/-- Head h's score as the kernel forms it: the dot product of the head's query and key columns. -/
def kscore (h : Fin 8) (i j : Fin 2048) : ℝ :=
  ∑ d : Fin 64, kproj xb θ wqT i (hcol h d) * kproj xb θ wkT j (hcol h d)

/-- The context at position i, embedding column e. -/
def kctx (i : Fin 2048) (e : Fin 512) : ℝ :=
  softmaxDot (fun j => kscore xb θ wqT wkT (ehead e) i j) (fun j => kproj xb θ wvT j e)

/-- The output at position i, column f. -/
def kout (i : Fin 2048) (f : Fin 512) : ℝ := ∑ e : Fin 512, kctx xb θ wqT wkT wvT i e * wcT (ix2 e f)

end

/-- With the batch row cut out of `x` and the weights transposed (the query weight also scaled by 1/8), the kernel's
    arrangement computes the specification. -/
theorem kout_eq_out (x : SX.Idx → ℝ) (θ : ST.Idx → ℝ) (wq wk wv : SW.Idx → ℝ) (wc : SC.Idx → ℝ)
    (xb : SXb.Idx → ℝ) (wqT wkT wvT : SWt.Idx → ℝ) (wcT : SC.Idx → ℝ) (b : Fin 4)
    (hx : ∀ (s : Fin 2048) (n : Fin 8), xb (ix3 (0 : Fin 1) s n) = x (ix3 b s n))
    (hq : ∀ (n : Fin 8) (e : Fin 512), wqT (ix2 n e) = wq (ix2 e n) * (1 / 8))
    (hk : ∀ (n : Fin 8) (e : Fin 512), wkT (ix2 n e) = wk (ix2 e n))
    (hv : ∀ (n : Fin 8) (e : Fin 512), wvT (ix2 n e) = wv (ix2 e n))
    (hc : ∀ (e f : Fin 512), wcT (ix2 e f) = wc (ix2 f e))
    (i : Fin 2048) (f : Fin 512) :
    kout xb θ wqT wkT wvT wcT i f = out x θ wq wk wv wc b i f := by
  -- the encodings agree: the batch row is row b of x
  have henc : ∀ (s : Fin 2048) (n : Fin 8), kenc xb θ s n = enc x θ b s n := by
    intro s n; unfold kenc enc; rw [hx]
  -- keys and values: a transposed weight read at (n, e) is the weight at (e, n)
  have hK : ∀ (s : Fin 2048) (e : Fin 512), kproj xb θ wkT s e = lin x θ wk b s e := by
    intro s e; unfold kproj lin
    exact Finset.sum_congr rfl (fun n _ => by rw [henc, hk])
  have hV : ∀ (s : Fin 2048) (e : Fin 512), kproj xb θ wvT s e = lin x θ wv b s e := by
    intro s e; unfold kproj lin
    exact Finset.sum_congr rfl (fun n _ => by rw [henc, hv])
  -- queries: the factor 1/8 comes out of the sum
  have hQ : ∀ (s : Fin 2048) (e : Fin 512), kproj xb θ wqT s e = lin x θ wq b s e * (1 / 8) := by
    intro s e; unfold kproj lin
    rw [Finset.sum_mul]
    exact Finset.sum_congr rfl (fun n _ => by rw [henc, hq, mul_assoc])
  -- scores: Σ_d (q · 1/8) · k = (Σ_d q · k) / 8
  have hS : ∀ (h : Fin 8) (i j : Fin 2048), kscore xb θ wqT wkT h i j = score x θ wq wk b h i j := by
    intro h i j; unfold kscore score
    rw [Finset.sum_div]
    exact Finset.sum_congr rfl (fun d _ => by rw [hQ, hK]; ring)
  -- contexts: the same scores, and column e is column (lane of e) of (head of e)
  have hC : ∀ (i : Fin 2048) (e : Fin 512), kctx xb θ wqT wkT wvT i e = ctxE x θ wq wk wv b i e := by
    intro i e; unfold kctx ctxE ctx
    have h1 : (fun j => kscore xb θ wqT wkT (ehead e) i j) = fun j => score x θ wq wk b (ehead e) i j :=
      funext (fun j => hS _ _ _)
    have h2 : (fun j => kproj xb θ wvT j e) = fun j => lin x θ wv b j (hcol (ehead e) (elane e)) :=
      funext (fun j => by rw [hV, hcol_ehead_elane])
    rw [h1, h2]
  unfold kout out
  exact Finset.sum_congr rfl (fun e _ => by rw [hC, hc])

end Cert.KSpec

end
-- ==== Proof.ProjRead.lean ====
/-
  The projections and the output product of the kernel, read at an entry.

  On a real batch row, real angles and a real transposed weight, keys (or values) at position s, column e are
  Σ_n cos (x_s,n + θ_n) · w_n,e, and the same for the 512 owned query positions; the output block at (r, f) is
  Σ_e attn_r,e · wc_e,f. Each is a matrix product with a zero accumulator read as a plain sum, the float format
  changes being the identity on the extended reals.
-/
import proofs.«416602_j65481071403103_3_alg».proof.Proof.Clean
import proofs.«416602_j65481071403103_3_alg».proof.Proof.LibEReal
import proofs.«416602_j65481071403103_3_alg».proof.Proof.KSpec
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.ProjRead

open Idealize.ShloMosaic Idealize.ShloMosaic.ValueIdx
open Cert.KernelIdeal Cert.KernelIdeal.Clean Cert.Spec

/-! ## The encodings and the weight block at an entry -/

/-- The encoding of all positions at (s, n): the cosine of the row's entry plus the angle. -/
private theorem encAll_apply (θ : Vec Ideal S8 .f32) (x : Vec Ideal S1x2048x8 .f32) (s : Fin 2048) (n : Fin 8) :
    encAll (F := Ideal) θ x (ix2 s n) = Ideal.cos (x (ix3 (0 : Fin 1) s n) + θ (ix1 n)) := by
  unfold encAll
  show Ideal.cos (shapeCast S2048x8 x _ (ix2 s n) + broadcastTo S2048x8 (shapeCast S1x8 θ _) _ (ix2 s n)) = _
  rw [shapeCast_1ab_ab_apply, broadcastTo_1b_ab_apply, shapeCast_a_1a_apply]

/-- The encoding of the owned query positions at (r, n). -/
private theorem encQ_apply (θ : Vec Ideal S8 .f32) (xq : Vec Ideal S1x512x8 .f32) (r : Fin 512) (n : Fin 8) :
    encQ (F := Ideal) θ xq (ix2 r n) = Ideal.cos (xq (ix3 (0 : Fin 1) r n) + θ (ix1 n)) := by
  unfold encQ
  show Ideal.cos (shapeCast S512x8 xq _ (ix2 r n) + broadcastTo S512x8 (shapeCast S1x8 θ _) _ (ix2 r n)) = _
  rw [shapeCast_1ab_ab_apply, broadcastTo_1b_ab_apply, shapeCast_a_1a_apply]

/-- A weight block as the matrix unit takes it is the weight block: a cast to its own shape and a format change. -/
private theorem wgt_apply (w : Vec Ideal S8x512 .f32) (j : S8x512.Idx) : wgt (F := Ideal) w j = w j := by
  unfold wgt
  show shapeCast S8x512 w _ j = w j
  rw [shapeCast_self]

/-! ## The three matrix products into a zero accumulator, as plain sums

For each product the operand indices at an output index and a contraction position are read coordinate by
coordinate, and the sum over the one contracted axis is re-indexed by that axis' coordinate. -/

private theorem lhsAll_0 (i : S2048x512.Idx) (q : dot_S2048x8_S8x512_S2048x512_1_0_0_1_n_n.contr.Idx) :
    (dot_S2048x8_S8x512_S2048x512_1_0_0_1_n_n.lhsIdx i q 0).val = (i 0).val := by
  unfold DotDims.lhsIdx
  rw [dif_neg (show ¬(0 : Fin S2048x8.rank) ∈ dot_S2048x8_S8x512_S2048x512_1_0_0_1_n_n.lhsBatch by decide),
    dif_pos (show (0 : Fin S2048x8.rank) ∈ dot_S2048x8_S8x512_S2048x512_1_0_0_1_n_n.lhsNonContracting by decide)]
  rfl
private theorem lhsAll_1 (i : S2048x512.Idx) (q : dot_S2048x8_S8x512_S2048x512_1_0_0_1_n_n.contr.Idx) :
    (dot_S2048x8_S8x512_S2048x512_1_0_0_1_n_n.lhsIdx i q 1).val = (q ⟨0, by decide⟩).val :=
  dot_S2048x8_S8x512_S2048x512_1_0_0_1_n_n.lhsIdx_val_of_single rfl i q
private theorem rhsAll_0 (i : S2048x512.Idx) (q : dot_S2048x8_S8x512_S2048x512_1_0_0_1_n_n.contr.Idx) :
    (dot_S2048x8_S8x512_S2048x512_1_0_0_1_n_n.rhsIdx i q 0).val = (q ⟨0, by decide⟩).val :=
  dot_S2048x8_S8x512_S2048x512_1_0_0_1_n_n.rhsIdx_val_of_single rfl i q
private theorem rhsAll_1 (i : S2048x512.Idx) (q : dot_S2048x8_S8x512_S2048x512_1_0_0_1_n_n.contr.Idx) :
    (dot_S2048x8_S8x512_S2048x512_1_0_0_1_n_n.rhsIdx i q 1).val = (i 1).val := by
  unfold DotDims.rhsIdx
  rw [dif_neg (show ¬(1 : Fin S8x512.rank) ∈ dot_S2048x8_S8x512_S2048x512_1_0_0_1_n_n.rhsBatch by decide),
    dif_pos (show (1 : Fin S8x512.rank) ∈ dot_S2048x8_S8x512_S2048x512_1_0_0_1_n_n.rhsNonContracting by decide)]
  rfl

/-- The product of a [2048, 8] matrix by an [8, 512] one, at (s, e). -/
private theorem mmAll_apply (a : FVec Ideal S2048x8 .bf16) (b : FVec Ideal S8x512 .bf16) (s : Fin 2048) (e : Fin 512) :
    matmul dot_S2048x8_S8x512_S2048x512_1_0_0_1_n_n none a b (constant (F := Ideal) S2048x512 .f32 0x00000000#32) (ix2 s e)
      = ∑ n : Fin 8, a (ix2 s n) * b (ix2 n e) := by
  simp only [matmul]
  rw [Ideal.matmul_constant_zero_apply, ← Equiv.sum_comp (contrEquiv1 dot_S2048x8_S8x512_S2048x512_1_0_0_1_n_n 8 rfl rfl).symm]
  refine Finset.sum_congr rfl fun k _ => ?_
  have hk := contrEquiv1_symm_val dot_S2048x8_S8x512_S2048x512_1_0_0_1_n_n 8 rfl rfl k
  have el : dot_S2048x8_S8x512_S2048x512_1_0_0_1_n_n.lhsIdx (ix2 s e) ((contrEquiv1 dot_S2048x8_S8x512_S2048x512_1_0_0_1_n_n 8 rfl rfl).symm k) = ix2 s k :=
    funext fun c => Fin.ext (by
      match c with
      | ⟨0, _⟩ => exact lhsAll_0 _ _
      | ⟨1, _⟩ => exact (lhsAll_1 _ _).trans hk)
  have er : dot_S2048x8_S8x512_S2048x512_1_0_0_1_n_n.rhsIdx (ix2 s e) ((contrEquiv1 dot_S2048x8_S8x512_S2048x512_1_0_0_1_n_n 8 rfl rfl).symm k) = ix2 k e :=
    funext fun c => Fin.ext (by
      match c with
      | ⟨0, _⟩ => exact (rhsAll_0 _ _).trans hk
      | ⟨1, _⟩ => exact rhsAll_1 _ _)
  rw [el, er]

private theorem lhsQ_0 (i : S512x512.Idx) (q : dot_S512x8_S8x512_S512x512_1_0_0_1_n_n.contr.Idx) :
    (dot_S512x8_S8x512_S512x512_1_0_0_1_n_n.lhsIdx i q 0).val = (i 0).val := by
  unfold DotDims.lhsIdx
  rw [dif_neg (show ¬(0 : Fin S512x8.rank) ∈ dot_S512x8_S8x512_S512x512_1_0_0_1_n_n.lhsBatch by decide),
    dif_pos (show (0 : Fin S512x8.rank) ∈ dot_S512x8_S8x512_S512x512_1_0_0_1_n_n.lhsNonContracting by decide)]
  rfl
private theorem lhsQ_1 (i : S512x512.Idx) (q : dot_S512x8_S8x512_S512x512_1_0_0_1_n_n.contr.Idx) :
    (dot_S512x8_S8x512_S512x512_1_0_0_1_n_n.lhsIdx i q 1).val = (q ⟨0, by decide⟩).val :=
  dot_S512x8_S8x512_S512x512_1_0_0_1_n_n.lhsIdx_val_of_single rfl i q
private theorem rhsQ_0 (i : S512x512.Idx) (q : dot_S512x8_S8x512_S512x512_1_0_0_1_n_n.contr.Idx) :
    (dot_S512x8_S8x512_S512x512_1_0_0_1_n_n.rhsIdx i q 0).val = (q ⟨0, by decide⟩).val :=
  dot_S512x8_S8x512_S512x512_1_0_0_1_n_n.rhsIdx_val_of_single rfl i q
private theorem rhsQ_1 (i : S512x512.Idx) (q : dot_S512x8_S8x512_S512x512_1_0_0_1_n_n.contr.Idx) :
    (dot_S512x8_S8x512_S512x512_1_0_0_1_n_n.rhsIdx i q 1).val = (i 1).val := by
  unfold DotDims.rhsIdx
  rw [dif_neg (show ¬(1 : Fin S8x512.rank) ∈ dot_S512x8_S8x512_S512x512_1_0_0_1_n_n.rhsBatch by decide),
    dif_pos (show (1 : Fin S8x512.rank) ∈ dot_S512x8_S8x512_S512x512_1_0_0_1_n_n.rhsNonContracting by decide)]
  rfl

/-- The product of a [512, 8] matrix by an [8, 512] one, at (s, e). -/
private theorem mmQ_apply (a : FVec Ideal S512x8 .bf16) (b : FVec Ideal S8x512 .bf16) (s : Fin 512) (e : Fin 512) :
    matmul dot_S512x8_S8x512_S512x512_1_0_0_1_n_n none a b (constant (F := Ideal) S512x512 .f32 0x00000000#32) (ix2 s e)
      = ∑ n : Fin 8, a (ix2 s n) * b (ix2 n e) := by
  simp only [matmul]
  rw [Ideal.matmul_constant_zero_apply, ← Equiv.sum_comp (contrEquiv1 dot_S512x8_S8x512_S512x512_1_0_0_1_n_n 8 rfl rfl).symm]
  refine Finset.sum_congr rfl fun k _ => ?_
  have hk := contrEquiv1_symm_val dot_S512x8_S8x512_S512x512_1_0_0_1_n_n 8 rfl rfl k
  have el : dot_S512x8_S8x512_S512x512_1_0_0_1_n_n.lhsIdx (ix2 s e) ((contrEquiv1 dot_S512x8_S8x512_S512x512_1_0_0_1_n_n 8 rfl rfl).symm k) = ix2 s k :=
    funext fun c => Fin.ext (by
      match c with
      | ⟨0, _⟩ => exact lhsQ_0 _ _
      | ⟨1, _⟩ => exact (lhsQ_1 _ _).trans hk)
  have er : dot_S512x8_S8x512_S512x512_1_0_0_1_n_n.rhsIdx (ix2 s e) ((contrEquiv1 dot_S512x8_S8x512_S512x512_1_0_0_1_n_n 8 rfl rfl).symm k) = ix2 k e :=
    funext fun c => Fin.ext (by
      match c with
      | ⟨0, _⟩ => exact (rhsQ_0 _ _).trans hk
      | ⟨1, _⟩ => exact rhsQ_1 _ _)
  rw [el, er]

private theorem lhsOut_0 (i : S512x512.Idx) (q : dot_S512x512_S512x512_S512x512_1_0_0_1_n_n.contr.Idx) :
    (dot_S512x512_S512x512_S512x512_1_0_0_1_n_n.lhsIdx i q 0).val = (i 0).val := by
  unfold DotDims.lhsIdx
  rw [dif_neg (show ¬(0 : Fin S512x512.rank) ∈ dot_S512x512_S512x512_S512x512_1_0_0_1_n_n.lhsBatch by decide),
    dif_pos (show (0 : Fin S512x512.rank) ∈ dot_S512x512_S512x512_S512x512_1_0_0_1_n_n.lhsNonContracting by decide)]
  rfl
private theorem lhsOut_1 (i : S512x512.Idx) (q : dot_S512x512_S512x512_S512x512_1_0_0_1_n_n.contr.Idx) :
    (dot_S512x512_S512x512_S512x512_1_0_0_1_n_n.lhsIdx i q 1).val = (q ⟨0, by decide⟩).val :=
  dot_S512x512_S512x512_S512x512_1_0_0_1_n_n.lhsIdx_val_of_single rfl i q
private theorem rhsOut_0 (i : S512x512.Idx) (q : dot_S512x512_S512x512_S512x512_1_0_0_1_n_n.contr.Idx) :
    (dot_S512x512_S512x512_S512x512_1_0_0_1_n_n.rhsIdx i q 0).val = (q ⟨0, by decide⟩).val :=
  dot_S512x512_S512x512_S512x512_1_0_0_1_n_n.rhsIdx_val_of_single rfl i q
private theorem rhsOut_1 (i : S512x512.Idx) (q : dot_S512x512_S512x512_S512x512_1_0_0_1_n_n.contr.Idx) :
    (dot_S512x512_S512x512_S512x512_1_0_0_1_n_n.rhsIdx i q 1).val = (i 1).val := by
  unfold DotDims.rhsIdx
  rw [dif_neg (show ¬(1 : Fin S512x512.rank) ∈ dot_S512x512_S512x512_S512x512_1_0_0_1_n_n.rhsBatch by decide),
    dif_pos (show (1 : Fin S512x512.rank) ∈ dot_S512x512_S512x512_S512x512_1_0_0_1_n_n.rhsNonContracting by decide)]
  rfl

/-- The product of two [512, 512] matrices, at (s, e). -/
private theorem mmOut_apply (a : FVec Ideal S512x512 .bf16) (b : FVec Ideal S512x512 .bf16) (s : Fin 512) (e : Fin 512) :
    matmul dot_S512x512_S512x512_S512x512_1_0_0_1_n_n none a b (constant (F := Ideal) S512x512 .f32 0x00000000#32) (ix2 s e)
      = ∑ n : Fin 512, a (ix2 s n) * b (ix2 n e) := by
  simp only [matmul]
  rw [Ideal.matmul_constant_zero_apply, ← Equiv.sum_comp (contrEquiv1 dot_S512x512_S512x512_S512x512_1_0_0_1_n_n 512 rfl rfl).symm]
  refine Finset.sum_congr rfl fun k _ => ?_
  have hk := contrEquiv1_symm_val dot_S512x512_S512x512_S512x512_1_0_0_1_n_n 512 rfl rfl k
  have el : dot_S512x512_S512x512_S512x512_1_0_0_1_n_n.lhsIdx (ix2 s e) ((contrEquiv1 dot_S512x512_S512x512_S512x512_1_0_0_1_n_n 512 rfl rfl).symm k) = ix2 s k :=
    funext fun c => Fin.ext (by
      match c with
      | ⟨0, _⟩ => exact lhsOut_0 _ _
      | ⟨1, _⟩ => exact (lhsOut_1 _ _).trans hk)
  have er : dot_S512x512_S512x512_S512x512_1_0_0_1_n_n.rhsIdx (ix2 s e) ((contrEquiv1 dot_S512x512_S512x512_S512x512_1_0_0_1_n_n 512 rfl rfl).symm k) = ix2 k e :=
    funext fun c => Fin.ext (by
      match c with
      | ⟨0, _⟩ => exact (rhsOut_0 _ _).trans hk
      | ⟨1, _⟩ => exact rhsOut_1 _ _)
  rw [el, er]

/-! ## The projections on real inputs, and the output block -/

/-- A term of a projection on real inputs is the coercion of the real term. -/
private theorem term_real (x t w : ℝ) :
    Ideal.cos ((x : EReal) + (t : EReal)) * (w : EReal) = ((Real.cos (x + t) * w : ℝ) : EReal) := by
  rw [← EReal.coe_add, Ideal.cos_coe, ← EReal.coe_mul]

/-- Keys (or values) of every position of a real batch row, by a real transposed weight. -/
theorem projAll_real (θ : S8.Idx → ℝ) (xb : S1x2048x8.Idx → ℝ) (wT : S8x512.Idx → ℝ) (s : Fin 2048) (e : Fin 512) :
    projAll (F := Ideal) (fun j => ((θ j : ℝ) : EReal)) (fun j => ((xb j : ℝ) : EReal)) (fun j => ((wT j : ℝ) : EReal)) (ix2 s e)
      = ((Cert.KSpec.kproj xb θ wT s e : ℝ) : EReal) := by
  unfold projAll
  show matmul dot_S2048x8_S8x512_S2048x512_1_0_0_1_n_n none (encAll _ _) (wgt _) (constant (F := Ideal) S2048x512 .f32 0x00000000#32) (ix2 s e) = _
  rw [mmAll_apply]
  unfold Cert.KSpec.kproj Cert.KSpec.kenc
  rw [LibEReal.coe_sum]
  refine Finset.sum_congr rfl fun n _ => ?_
  rw [encAll_apply, wgt_apply]
  exact term_real _ _ _

/-- Queries of the 512 owned positions, from the rows `xq` the grid point loads for them. -/
theorem projQ_real (θ : S8.Idx → ℝ) (xq : S1x512x8.Idx → ℝ) (wT : S8x512.Idx → ℝ) (r : Fin 512) (e : Fin 512) :
    projQ (F := Ideal) (fun j => ((θ j : ℝ) : EReal)) (fun j => ((xq j : ℝ) : EReal)) (fun j => ((wT j : ℝ) : EReal)) (ix2 r e)
      = ((∑ n : Fin 8, Real.cos (xq (ix3 (0 : Fin 1) r n) + θ (ix1 n)) * wT (ix2 n e) : ℝ) : EReal) := by
  unfold projQ
  show matmul dot_S512x8_S8x512_S512x512_1_0_0_1_n_n none (encQ _ _) (wgt _) (constant (F := Ideal) S512x512 .f32 0x00000000#32) (ix2 r e) = _
  rw [mmQ_apply, LibEReal.coe_sum]
  refine Finset.sum_congr rfl fun n _ => ?_
  rw [encQ_apply, wgt_apply]
  exact term_real _ _ _

/-- The output block at (r, f): the attention row times the output weight's column. -/
theorem outBlock_apply (a : S512x512.Idx → EReal) (wc : S512x512.Idx → EReal) (r f : Fin 512) :
    outBlock (F := Ideal) a wc (ix3 (0 : Fin 1) r f) = ∑ e : Fin 512, a (ix2 r e) * wc (ix2 e f) := by
  unfold outBlock
  rw [shapeCast_ab_1ab_apply, mmOut_apply]
  refine Finset.sum_congr rfl fun e _ => ?_
  show a (ix2 r e) * shapeCast S512x512 wc _ (ix2 e f) = _
  rw [shapeCast_self]

end Cert.KernelIdeal.ProjRead

end
-- ==== Proof.AttnRead.lean ====
/-
  The scratch after the eight heads, read at an entry.

  Head h's output is stored into columns 64 h … 64 h + 63 of the scratch, so the scratch at (r, e) is the output of
  the head that owns column e, at (r, e mod 64); and head h's queries, keys and values are columns 64 h + d of the
  projections.
-/
import proofs.«416602_j65481071403103_3_alg».proof.Proof.Clean
import proofs.«416602_j65481071403103_3_alg».proof.Proof.Spec
import Idealize.ShloMosaic.Lib.Pipeline.Value
import Idealize.ShloMosaic.Lib.ValueIdx
import Idealize.ShloMosaic.Lib.ValueLayout
import Idealize.ShloMosaic.Lib.Ring
import Idealize.ShloMosaic.Lib.Tactic

set_option maxRecDepth 16384

noncomputable section

namespace Cert.KernelIdeal.AttnRead

open Idealize.ShloMosaic Idealize.ShloMosaic.ValueIdx Idealize.ShloMosaic.Tactic
open Cert.KernelIdeal Cert.KernelIdeal.Gen Cert.KernelIdeal.Clean Cert.Spec

variable {F : FTy → Type} [FloatOps F]

/-- Head h's 64 columns of the queries; of the keys (or values). -/
def qHof (h : Fin 8) (pq : FVec F S512x512 .bf16) : FVec F S512x64 .bf16 :=
  match h with
  | 0 => qH0 pq | 1 => qH1 pq | 2 => qH2 pq | 3 => qH3 pq | 4 => qH4 pq | 5 => qH5 pq | 6 => qH6 pq | 7 => qH7 pq
def kHof (h : Fin 8) (pk : FVec F S2048x512 .bf16) : FVec F S2048x64 .bf16 :=
  match h with
  | 0 => kH0 pk | 1 => kH1 pk | 2 => kH2 pk | 3 => kH3 pk | 4 => kH4 pk | 5 => kH5 pk | 6 => kH6 pk | 7 => kH7 pk

/-- A head's slice reads the projection at the head's column. -/
theorem qHof_apply (h : Fin 8) (pq : FVec F S512x512 .bf16) (r : Fin 512) (d : Fin 64) :
    qHof h pq (ix2 r d) = pq (ix2 r (hcol h d)) := by
  match h with
  | 0 => exact slice2_axis1_apply 0 pq slices_S512x512_o0_0_S512x64 r d (hcol 0 d) (by show 64 * 0 + d.val = 0 + d.val; omega)
  | 1 => exact slice2_axis1_apply 64 pq slices_S512x512_o0_64_S512x64 r d (hcol 1 d) (by show 64 * 1 + d.val = 64 + d.val; omega)
  | 2 => exact slice2_axis1_apply 128 pq slices_S512x512_o0_128_S512x64 r d (hcol 2 d) (by show 64 * 2 + d.val = 128 + d.val; omega)
  | 3 => exact slice2_axis1_apply 192 pq slices_S512x512_o0_192_S512x64 r d (hcol 3 d) (by show 64 * 3 + d.val = 192 + d.val; omega)
  | 4 => exact slice2_axis1_apply 256 pq slices_S512x512_o0_256_S512x64 r d (hcol 4 d) (by show 64 * 4 + d.val = 256 + d.val; omega)
  | 5 => exact slice2_axis1_apply 320 pq slices_S512x512_o0_320_S512x64 r d (hcol 5 d) (by show 64 * 5 + d.val = 320 + d.val; omega)
  | 6 => exact slice2_axis1_apply 384 pq slices_S512x512_o0_384_S512x64 r d (hcol 6 d) (by show 64 * 6 + d.val = 384 + d.val; omega)
  | 7 => exact slice2_axis1_apply 448 pq slices_S512x512_o0_448_S512x64 r d (hcol 7 d) (by show 64 * 7 + d.val = 448 + d.val; omega)

theorem kHof_apply (h : Fin 8) (pk : FVec F S2048x512 .bf16) (s : Fin 2048) (d : Fin 64) :
    kHof h pk (ix2 s d) = pk (ix2 s (hcol h d)) := by
  match h with
  | 0 => exact slice2_axis1_apply 0 pk slices_S2048x512_o0_0_S2048x64 s d (hcol 0 d) (by show 64 * 0 + d.val = 0 + d.val; omega)
  | 1 => exact slice2_axis1_apply 64 pk slices_S2048x512_o0_64_S2048x64 s d (hcol 1 d) (by show 64 * 1 + d.val = 64 + d.val; omega)
  | 2 => exact slice2_axis1_apply 128 pk slices_S2048x512_o0_128_S2048x64 s d (hcol 2 d) (by show 64 * 2 + d.val = 128 + d.val; omega)
  | 3 => exact slice2_axis1_apply 192 pk slices_S2048x512_o0_192_S2048x64 s d (hcol 3 d) (by show 64 * 3 + d.val = 192 + d.val; omega)
  | 4 => exact slice2_axis1_apply 256 pk slices_S2048x512_o0_256_S2048x64 s d (hcol 4 d) (by show 64 * 4 + d.val = 256 + d.val; omega)
  | 5 => exact slice2_axis1_apply 320 pk slices_S2048x512_o0_320_S2048x64 s d (hcol 5 d) (by show 64 * 5 + d.val = 320 + d.val; omega)
  | 6 => exact slice2_axis1_apply 384 pk slices_S2048x512_o0_384_S2048x64 s d (hcol 6 d) (by show 64 * 6 + d.val = 384 + d.val; omega)
  | 7 => exact slice2_axis1_apply 448 pk slices_S2048x512_o0_448_S2048x64 s d (hcol 7 d) (by show 64 * 7 + d.val = 448 + d.val; omega)

/-- The function of the scratch index that every head's block is a block of. -/
private def headsFn (pq : FVec F S512x512 .bf16) (pk pv : FVec F S2048x512 .bf16) : S512x512.Idx → Elt F .bf16 :=
  fun y => headOut (qHof (ehead (y 1)) pq) (kHof (ehead (y 1)) pk) (kHof (ehead (y 1)) pv) (ix2 (y 0) (elane (y 1)))

/-- Head h's output, stored at column offset 64 h, is the block of that function under its rectangle. -/
private theorem piece_eq (h : Fin 8) (o : Nat) (ho : o = 64 * h.val)
    (inb : ∀ a, (![0, o] : Fin 2 → Nat) a + S512x64.size a ≤ S512x512.size a)
    (pq : FVec F S512x512 .bf16) (pk pv : FVec F S2048x512 .bf16)
    (x : (Rect.unit (s := S512x512) ![0, o] S512x64.size inb).shape.Idx) :
    headOut (qHof h pq) (kHof h pk) (kHof h pv) x
      = headsFn pq pk pv ((Rect.unit (s := S512x512) ![0, o] S512x64.size inb).emb x) := by
  have hh : h.val < 8 := h.isLt
  have hx0 : (x 0).val < 512 := (x 0).isLt
  have hx1 : (x 1).val < 64 := (x 1).isLt
  have e1 : ehead ((Rect.unit (s := S512x512) ![0, o] S512x64.size inb).emb x 1) = h := by
    apply Fin.ext; show (o + 1 * (x 1).val) / 64 = h.val; omega
  have e2 : ix2 ((Rect.unit (s := S512x512) ![0, o] S512x64.size inb).emb x 0)
      (elane ((Rect.unit (s := S512x512) ![0, o] S512x64.size inb).emb x 1)) = x := by
    funext a
    match a with
    | ⟨0, _⟩ => apply Fin.ext; show 0 + 1 * (x 0).val = (x 0).val; omega
    | ⟨1, _⟩ => apply Fin.ext; show (o + 1 * (x 1).val) % 64 = (x 1).val; omega
  show _ = headOut (qHof (ehead ((Rect.unit (s := S512x512) ![0, o] S512x64.size inb).emb x 1)) pq)
    (kHof (ehead ((Rect.unit (s := S512x512) ![0, o] S512x64.size inb).emb x 1)) pk)
    (kHof (ehead ((Rect.unit (s := S512x512) ![0, o] S512x64.size inb).emb x 1)) pv)
    (ix2 ((Rect.unit (s := S512x512) ![0, o] S512x64.size inb).emb x 0)
      (elane ((Rect.unit (s := S512x512) ![0, o] S512x64.size inb).emb x 1)))
  rw [e1]
  exact congrArg (headOut (qHof h pq) (kHof h pk) (kHof h pv)) e2.symm

/-- The scratch at (r, e) is the output of the head owning column e, at (r, e mod 64). -/
theorem heads_apply (θ : Vec F S8 .f32) (x : Vec F S1x2048x8 .f32) (xq : Vec F S1x512x8 .f32) (wq wk wv : Vec F S8x512 .f32)
    (r : Fin 512) (e : Fin 512) :
    View.canon (heads θ x xq wq wk wv) (ix2 r e)
      = headOut (qHof (ehead e) (projQ θ xq wq)) (kHof (ehead e) (projAll θ x wk)) (kHof (ehead e) (projAll θ x wv))
          (ix2 r (elane e)) := by
  refine View.canon_apply_of_pieces (headsFn (projQ θ xq wq) (projAll θ x wk) (projAll θ x wv)) _ ?_ (ix2 r e) ?_
  · intro p hp y
    simp only [heads, List.mem_cons, List.not_mem_nil, or_false] at hp
    rcases hp with rfl | rfl | rfl | rfl | rfl | rfl | rfl | rfl
    · exact piece_eq 7 448 rfl inb_S512x512_S512x64_0_448 _ _ _ y
    · exact piece_eq 6 384 rfl inb_S512x512_S512x64_0_384 _ _ _ y
    · exact piece_eq 5 320 rfl inb_S512x512_S512x64_0_320 _ _ _ y
    · exact piece_eq 4 256 rfl inb_S512x512_S512x64_0_256 _ _ _ y
    · exact piece_eq 3 192 rfl inb_S512x512_S512x64_0_192 _ _ _ y
    · exact piece_eq 2 128 rfl inb_S512x512_S512x64_0_128 _ _ _ y
    · exact piece_eq 1 64 rfl inb_S512x512_S512x64_0_64 _ _ _ y
    · exact piece_eq 0 0 rfl inb_S512x512_S512x64_0_0 _ _ _ y
  · exact View.cover_of_tiledL (heads θ x xq wq wk wv) S512x64.size (by sl_kernel_rfl) (ix2 r e)

end Cert.KernelIdeal.AttnRead

end
-- ==== Proof.BlockReal.lean ====
/-
  The output block of one grid point, on real inputs.

  Put together: the block at (r, f) is Σ_e attn_r,e · wc_e,f; the scratch entry attn_r,e is the output of the head
  owning column e at (r, e mod 64); that head sees columns 64 h + d of the queries, keys and values, which on real
  inputs are the real projections; so the head's output is the softmax of its scores combined with its value
  column, and the whole block is the kernel's formula `kout` at the point's own 512 rows — row r of the block is
  position 512 · qi + r of the batch row, because the query rows are loaded at that offset.
-/
import proofs.«416602_j65481071403103_3_alg».proof.Proof.Witness
import proofs.«416602_j65481071403103_3_alg».proof.Proof.HeadRead
import proofs.«416602_j65481071403103_3_alg».proof.Proof.ProjRead
import proofs.«416602_j65481071403103_3_alg».proof.Proof.AttnRead
import proofs.«416602_j65481071403103_3_alg».proof.Proof.KSpec
import proofs.«416602_j65481071403103_3_alg».proof.Proof.LibEReal

set_option maxRecDepth 16384

noncomputable section

open scoped BigOperators

namespace Cert.KernelIdeal.BlockReal

open Idealize.ShloMosaic Idealize.ShloMosaic.ValueIdx
open Cert.KernelIdeal Cert.KernelIdeal.Gen Cert.KernelIdeal.Clean Cert.KernelIdeal.Witness Cert.Spec Cert.KSpec

/-- The query rows a grid point loads are rows 512 · qi + r of the batch row. -/
theorem xqOf_apply (i : grid0.Coords) (qi : Fin 4) (hqi : (i 1).val = qi.val) (x0 : S1x2048x8.Idx → EReal)
    (r : Fin 512) (n : Fin 8) :
    xqOf (F := Ideal) i x0 (ix3 (0 : Fin 1) r n)
      = x0 (ix3 (0 : Fin 1) (⟨512 * qi.val + r.val, by omega⟩ : Fin 2048) n) := by
  show x0 ((Rect.unit (s := S1x2048x8) (k0_off1 i) S1x512x8.size (k0_off1_inb i)).idx (ix3 (0 : Fin 1) r n)) = _
  congr 1
  funext a
  apply Fin.ext
  simp only [LoadRect.idx_apply, Rect.emb_apply, Rect.off_unit, Rect.stride_unit, Nat.one_mul, k0_off1_eq]
  match a with
  | ⟨0, _⟩ => rfl
  | ⟨1, _⟩ => show 512 * (i 1).val + r.val = 512 * qi.val + r.val; rw [hqi]
  | ⟨2, _⟩ => show 0 + n.val = n.val; omega

section
variable (xb : S1x2048x8.Idx → ℝ) (θ : S8.Idx → ℝ) (wqT wkT wvT : S8x512.Idx → ℝ) (wcT : S512x512.Idx → ℝ)

/-- The rows of the batch row a grid point loads for its queries. -/
def xqR (qi : Fin 4) : S1x512x8.Idx → ℝ := fun y =>
  xb (ix3 (0 : Fin 1) (⟨512 * qi.val + (y 1).val, by have h : (y 1).val < 512 := (y 1).isLt; omega⟩ : Fin 2048)
    (⟨(y 2).val, (y 2).isLt⟩ : Fin 8))

/-- Head h's queries at the owned rows, keys and values at every row, as real arrays. -/
def qRows (qi : Fin 4) (h : Fin 8) : S512x64.Idx → ℝ := fun j =>
  kproj xb θ wqT (⟨512 * qi.val + (j 0).val, by have h0 : (j 0).val < 512 := (j 0).isLt; omega⟩ : Fin 2048)
    (hcol h (⟨(j 1).val, (j 1).isLt⟩ : Fin 64))
def kRows (wT : S8x512.Idx → ℝ) (h : Fin 8) : S2048x64.Idx → ℝ := fun j =>
  kproj xb θ wT (⟨(j 0).val, (j 0).isLt⟩ : Fin 2048) (hcol h (⟨(j 1).val, (j 1).isLt⟩ : Fin 64))

theorem xq_real (i : grid0.Coords) (qi : Fin 4) (hqi : (i 1).val = qi.val) :
    xqOf (F := Ideal) i (fun j => ((xb j : ℝ) : EReal)) = fun y => ((xqR xb qi y : ℝ) : EReal) := by
  funext y
  obtain ⟨z, r', n', rfl⟩ : ∃ (z : Fin 1) (r' : Fin 512) (n' : Fin 8), y = ix3 z r' n' := ⟨y 0, y 1, y 2, eq_ix3 y⟩
  obtain rfl : z = 0 := Subsingleton.elim _ _
  rw [xqOf_apply i qi hqi]
  rfl

theorem q_real (i : grid0.Coords) (qi : Fin 4) (hqi : (i 1).val = qi.val) (h : Fin 8) :
    AttnRead.qHof h (projQ (F := Ideal) (fun j => ((θ j : ℝ) : EReal)) (xqOf (F := Ideal) i (fun j => ((xb j : ℝ) : EReal)))
        (fun j => ((wqT j : ℝ) : EReal)))
      = fun j => ((qRows xb θ wqT qi h j : ℝ) : EReal) := by
  funext j
  obtain ⟨r', d', rfl⟩ : ∃ (r' : Fin 512) (d' : Fin 64), j = ix2 r' d' := ⟨j 0, j 1, eq_ix2 j⟩
  rw [AttnRead.qHof_apply, xq_real xb i qi hqi, ProjRead.projQ_real]
  rfl

theorem k_real (wT : S8x512.Idx → ℝ) (h : Fin 8) :
    AttnRead.kHof h (projAll (F := Ideal) (fun j => ((θ j : ℝ) : EReal)) (fun j => ((xb j : ℝ) : EReal))
        (fun j => ((wT j : ℝ) : EReal)))
      = fun j => ((kRows xb θ wT h j : ℝ) : EReal) := by
  funext j
  obtain ⟨s', d', rfl⟩ : ∃ (s' : Fin 2048) (d' : Fin 64), j = ix2 s' d' := ⟨j 0, j 1, eq_ix2 j⟩
  rw [AttnRead.kHof_apply, ProjRead.projAll_real]
  rfl

/-- The scratch entry at (r, e): the context of the kernel's formula at row 512 · qi + r, column e. -/
theorem attn_real (i : grid0.Coords) (qi : Fin 4) (hqi : (i 1).val = qi.val) (r e : Fin 512) :
    attn (F := Ideal) i (fun j => ((xb j : ℝ) : EReal)) (fun j => ((θ j : ℝ) : EReal)) (fun j => ((wqT j : ℝ) : EReal))
        (fun j => ((wkT j : ℝ) : EReal)) (fun j => ((wvT j : ℝ) : EReal)) (ix2 r e)
      = ((kctx xb θ wqT wkT wvT (⟨512 * qi.val + r.val, by omega⟩ : Fin 2048) e : ℝ) : EReal) := by
  unfold attn
  rw [AttnRead.heads_apply, q_real xb θ wqT i qi hqi, k_real xb θ wkT, k_real xb θ wvT, HeadRead.headOut_real]
  congr 1
  unfold kctx softmaxDot
  have hs : (fun j : Fin 2048 => ∑ d' : Fin 64, qRows xb θ wqT qi (ehead e) (ix2 r d') * kRows xb θ wkT (ehead e) (ix2 j d'))
      = fun j : Fin 2048 => kscore xb θ wqT wkT (ehead e) (⟨512 * qi.val + r.val, by omega⟩ : Fin 2048) j := rfl
  have hv : (fun j : Fin 2048 => kRows xb θ wvT (ehead e) (ix2 j (elane e))) = fun j : Fin 2048 => kproj xb θ wvT j e := by
    funext j
    show kproj xb θ wvT j (hcol (ehead e) (elane e)) = _
    rw [hcol_ehead_elane]
  rw [hs, hv]

/-- The output block at (r, f) is the kernel's formula at row 512 · qi + r, column f. -/
theorem block_real (i : grid0.Coords) (qi : Fin 4) (hqi : (i 1).val = qi.val) (r f : Fin 512) :
    outBlock (F := Ideal)
        (attn (F := Ideal) i (fun j => ((xb j : ℝ) : EReal)) (fun j => ((θ j : ℝ) : EReal)) (fun j => ((wqT j : ℝ) : EReal))
          (fun j => ((wkT j : ℝ) : EReal)) (fun j => ((wvT j : ℝ) : EReal)))
        (fun j => ((wcT j : ℝ) : EReal)) (ix3 (0 : Fin 1) r f)
      = ((kout xb θ wqT wkT wvT wcT (⟨512 * qi.val + r.val, by omega⟩ : Fin 2048) f : ℝ) : EReal) := by
  rw [ProjRead.outBlock_apply]
  unfold kout
  rw [LibEReal.coe_sum]
  refine Finset.sum_congr rfl fun e _ => ?_
  rw [EReal.coe_mul, attn_real xb θ wqT wkT wvT i qi hqi r e]

end

end Cert.KernelIdeal.BlockReal

end
-- ==== Proof.HostPrefix.lean ====
/-
  What the region finds in its windows' arrays, and that the inputs are real.

  Before the region the program transposes the three projection weights and the output weight, and multiplies the
  transposed query weight by the constant 1/8: entry (n, e) of a transposed weight is entry (e, n) of the weight.
  The precondition says every entry of every input has absolute value below +∞; on the extended reals that is to
  say every entry is a real number.
-/
import proofs.«416602_j65481071403103_3_alg».proof.Defs
import proofs.«416602_j65481071403103_3_alg».proof.Proof.Gen.KernelIdeal.Frame
import proofs.«416602_j65481071403103_3_alg».proof.Proof.Gen.Pre_finite_inputs
import proofs.«416602_j65481071403103_3_alg».proof.Proof.Spec
import proofs.«416602_j65481071403103_3_alg».proof.Proof.LibEReal
import Idealize.ShloMosaic.Lib.Pipeline.Value
import Idealize.ShloMosaic.Lib.ValueIdx
import Idealize.ShloMosaic.Lib.ValueLayout
import Idealize.ShloMosaic.Lib.ReduceAll
import Idealize.ShloMosaic.Lib.StableHlo.Run

noncomputable section

namespace Cert.KernelIdeal.HostPrefix

open Idealize.ShloMosaic Idealize.ShloMosaic.TcCoe Idealize.ShloMosaic.ValueIdx Idealize.SL.Sem
open Cert.KernelIdeal Cert.KernelIdeal.Gen Cert.Spec

variable (m : (ℓ : Loc nD τ sig) → Buf (Elt Ideal) ℓ)

/-- The six argument arrays on core `c`, as arrays of extended reals over their literal shapes. -/
abbrev xArr (c : Dev nD) : S4x2048x8.Idx → EReal := m ((c : Thread nD τ).loc main_arg0)
abbrev θArr (c : Dev nD) : S8.Idx → EReal := m ((c : Thread nD τ).loc main_arg1)
abbrev wqArr (c : Dev nD) : S512x8.Idx → EReal := m ((c : Thread nD τ).loc main_arg2)
abbrev wkArr (c : Dev nD) : S512x8.Idx → EReal := m ((c : Thread nD τ).loc main_arg3)
abbrev wvArr (c : Dev nD) : S512x8.Idx → EReal := m ((c : Thread nD τ).loc main_arg4)
abbrev wcArr (c : Dev nD) : S512x512.Idx → EReal := m ((c : Thread nD τ).loc main_arg5)

/-- The four weight arrays the region's windows stage, as the region finds them. -/
abbrev wqTArr (c : Dev nD) : S8x512.Idx → EReal := V m c main_v2
abbrev wkTArr (c : Dev nD) : S8x512.Idx → EReal := V m c main_v3
abbrev wvTArr (c : Dev nD) : S8x512.Idx → EReal := V m c main_v4
abbrev wcTArr (c : Dev nD) : S512x512.Idx → EReal := V m c main_v5

/-- A buffer that one operation before the region writes holds, when the region starts, that operation's value at the
    launched arrays. -/
private theorem wkT_eq (c : Dev nD) : (V m c main_v3 : S8x512.Idx → EReal)
    = transpose S8x512 [1, 0] (m ((c : Thread nD τ).loc main_arg3) : S512x8.Idx → EReal) transposes_S512x8_S8x512_1_0 := by
  dsimp only [Gen.V, Gen.hostOps0]
  after_results

private theorem wvT_eq (c : Dev nD) : (V m c main_v4 : S8x512.Idx → EReal)
    = transpose S8x512 [1, 0] (m ((c : Thread nD τ).loc main_arg4) : S512x8.Idx → EReal) transposes_S512x8_S8x512_1_0 := by
  dsimp only [Gen.V, Gen.hostOps0]
  after_results

private theorem wcT_eq (c : Dev nD) : (V m c main_v5 : S512x512.Idx → EReal)
    = transpose S512x512 [1, 0] (m ((c : Thread nD τ).loc main_arg5) : S512x512.Idx → EReal) transposes_S512x512_S512x512_1_0 := by
  dsimp only [Gen.V, Gen.hostOps0]
  after_results

/-- The query weight's buffer: the transposed weight times the broadcast constant. -/
private theorem wqT_eq (c : Dev nD) : (V m c main_v2 : S8x512.Idx → EReal)
    = mulf (transpose S8x512 [1, 0] (m ((c : Thread nD τ).loc main_arg2) : S512x8.Idx → EReal) transposes_S512x8_S8x512_1_0)
        (broadcastInDim S8x512 ![] bcast_S_S8x512 (constant (F := Ideal) S_ .f32 0x3E000000#32)) := by
  dsimp only [Gen.V, Gen.hostOps0]
  after_results

/-- Entry (n, e) of the transposed 512 × 8 array is entry (e, n) of the array. -/
private theorem transpose_ix2 (x : S512x8.Idx → EReal) (n : Fin 8) (e : Fin 512) :
    transpose S8x512 [1, 0] x transposes_S512x8_S8x512_1_0 (ix2 n e) = x (ix2 e n) :=
  transpose_apply [1, 0] x transposes_S512x8_S8x512_1_0 (ix2 n e) (ix2 e n) (fun b => match b with
    | ⟨0, _⟩ => rfl
    | ⟨1, _⟩ => rfl)

/-- The query weight's window: the weight transposed, times the word 0x3E000000 (1/8). -/
theorem wqT_apply (c : Dev nD) (n : Fin 8) (e : Fin 512) :
    wqTArr m c (ix2 n e) = wqArr m c (ix2 e n) * Ideal.ofBits .f32 0x3E000000#32 := by
  show (V m c main_v2 : S8x512.Idx → EReal) (ix2 n e) = _
  rw [wqT_eq, mulf_apply, transpose_ix2]
  rfl

/-- The key weight's window: the weight transposed. -/
theorem wkT_apply (c : Dev nD) (n : Fin 8) (e : Fin 512) : wkTArr m c (ix2 n e) = wkArr m c (ix2 e n) := by
  show (V m c main_v3 : S8x512.Idx → EReal) (ix2 n e) = _
  rw [wkT_eq, transpose_ix2]

/-- The value weight's window: the weight transposed. -/
theorem wvT_apply (c : Dev nD) (n : Fin 8) (e : Fin 512) : wvTArr m c (ix2 n e) = wvArr m c (ix2 e n) := by
  show (V m c main_v4 : S8x512.Idx → EReal) (ix2 n e) = _
  rw [wvT_eq, transpose_ix2]

/-- The output weight's window: the weight transposed. -/
theorem wcT_apply (c : Dev nD) (e f : Fin 512) : wcTArr m c (ix2 e f) = wcArr m c (ix2 f e) := by
  show (V m c main_v5 : S512x512.Idx → EReal) (ix2 e f) = _
  rw [wcT_eq]
  exact transpose_apply [1, 0] _ transposes_S512x512_S512x512_1_0 (ix2 e f) (ix2 f e) (fun b => match b with
    | ⟨0, _⟩ => rfl
    | ⟨1, _⟩ => rfl)

/-- An index of the rank-0 shape has no coordinate: there is only one. -/
private instance : Subsingleton Cert.Pre_finite_inputs.S_.Idx := ⟨fun _ _ => funext fun d => d.elim0⟩

/-- An extended real whose absolute value is below +∞ is a real number: at −∞ and at +∞ the absolute value is +∞. -/
private theorem real_of_abs_lt_top (x : EReal)
    (h : Ideal.cmp .olt (max x (-x)) (Ideal.ofBits .f32 0x7F800000#32) = 1#1) : ∃ r : ℝ, x = (r : EReal) := by
  have htop : Ideal.ofBits .f32 0x7F800000#32 = (⊤ : EReal) := by simp [Ideal.ofBits, Ideal.ieee]
  rw [htop] at h
  induction x using EReal.rec with
  | bot => simp [Ideal.cmp] at h
  | coe r => exact ⟨r, rfl⟩
  | top => simp [Ideal.cmp] at h

/-- An array every entry of which has absolute value below +∞ is an array of reals. -/
private theorem isReal_of_all {s : Shape} (v : s.Idx → EReal)
    (h : ∀ i, Ideal.cmp .olt (max (v i) (-(v i))) (Ideal.ofBits .f32 0x7F800000#32) = 1#1) : IsReal v :=
  fun i => real_of_abs_lt_top (v i) (h i)

/-- Under the precondition every entry of every input is real. -/
theorem isReal_of_pre (hpre : Cert.Pre_KernelIdeal (hPre_finite_inputs := Cert.Pre_finite_inputs.Gen.facts) m) (c : Dev nD) :
    IsReal (xArr m c) ∧ IsReal (θArr m c) ∧ IsReal (wqArr m c) ∧ IsReal (wkArr m c) ∧ IsReal (wvArr m c)
      ∧ IsReal (wcArr m c) := by
  -- the precondition at the one index of its result: a conjunction of six tests, one per input
  have h := congrFun (hpre c) ValueIdx.ix0
  dsimp only [Cert.Pre_finite_inputs.fn, Cert.Pre_finite_inputs.fn_part1] at h
  obtain ⟨h, h5⟩ := IntOp.andi_eq_one.mp h
  obtain ⟨h, h4⟩ := IntOp.andi_eq_one.mp h
  obtain ⟨h, h3⟩ := IntOp.andi_eq_one.mp h
  obtain ⟨h, h2⟩ := IntOp.andi_eq_one.mp h
  obtain ⟨h0, h1⟩ := IntOp.andi_eq_one.mp h
  -- each test is the conjunction over all entries of |x| < +∞
  exact ⟨isReal_of_all _ fun i => Host.reduce_andi_all _ _ _ _ _ h0 i,
    isReal_of_all _ fun i => Host.reduce_andi_all _ _ _ _ _ h1 i,
    isReal_of_all _ fun i => Host.reduce_andi_all _ _ _ _ _ h2 i,
    isReal_of_all _ fun i => Host.reduce_andi_all _ _ _ _ _ h3 i,
    isReal_of_all _ fun i => Host.reduce_andi_all _ _ _ _ _ h4 i,
    isReal_of_all _ fun i => Host.reduce_andi_all _ _ _ _ _ h5 i⟩

end Cert.KernelIdeal.HostPrefix

end
-- ==== Proof.Blocks.lean ====
/-
  From the grid points' blocks to the whole result array.

  The grid is 4 batch rows × 4 query tiles. Point (b, qi) stages batch row b of x, all of θ and of the four
  (transposed) weights, and writes back rows 512 · qi … 512 · qi + 511 of batch row b of the result. On real inputs
  the block it writes is, entry by entry, the specification at those rows: the block's formula in the kernel's
  arrangement (`KSpec.kout`), which is the specification once the transposed and scaled weights are read back
  through the program's operations before the region. The sixteen blocks tile the result array, so the array ends
  holding the specification everywhere.
-/
import proofs.«416602_j65481071403103_3_alg».proof.Defs
import proofs.«416602_j65481071403103_3_alg».proof.Proof.Gen.KernelIdeal.Value
import proofs.«416602_j65481071403103_3_alg».proof.Proof.Witness
import proofs.«416602_j65481071403103_3_alg».proof.Proof.BlockReal
import proofs.«416602_j65481071403103_3_alg».proof.Proof.HostPrefix
import proofs.«416602_j65481071403103_3_alg».proof.Proof.KSpec
import proofs.«416602_j65481071403103_3_alg».proof.Proof.LibEReal
import Idealize.ShloMosaic.Lib.Pipeline.Value

set_option maxRecDepth 16384

noncomputable section

open scoped BigOperators

namespace Cert.KernelIdeal.Blocks

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Clean Cert.KernelIdeal.Witness
open Cert.KernelIdeal.HostPrefix Cert.Spec Cert.KSpec

variable (m : (ℓ : Loc nD τ sig) → Buf (Elt Ideal) ℓ) (ρ : Dev nD → PrngReg)

/-- The printed index maps, decided over the sixteen grid points: the x window follows the batch coordinate, the
    output window both coordinates, every other window stays at block 0; both coordinates are below 4. -/
theorem idx_facts : ∀ t : Fin cfg0.N,
    win0_0.index t (0 : Fin 3) = (grid0.coords t 0).val ∧ win0_0.index t (1 : Fin 3) = 0 ∧ win0_0.index t (2 : Fin 3) = 0
    ∧ win0_1.index t (0 : Fin 1) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 3) = (grid0.coords t 0).val ∧ win0_6.index t (1 : Fin 3) = (grid0.coords t 1).val
    ∧ win0_6.index t (2 : Fin 3) = 0
    ∧ (grid0.coords t 0).val < 4 ∧ (grid0.coords t 1).val < 4 :=
  (by decide +kernel : ∀ t : Fin grid0.N, _)

/-- Every (batch row, query tile) is some point's. -/
theorem idx_onto : ∀ (b qi : Fin 4), ∃ t : Fin cfg0.N, win0_6.index t = ![b.val, qi.val, 0] :=
  (by decide +kernel : ∀ (b qi : Fin 4), ∃ t : Fin grid0.N, win0_6.index t = ![b.val, qi.val, 0])

/-- The six staged blocks at a point, over their literal shapes. -/
abbrev blk0 (c : Dev nD) (t : Fin cfg0.N) : S1x2048x8.Idx → EReal := iblk m c 0 t
abbrev blk1 (c : Dev nD) (t : Fin cfg0.N) : S8.Idx → EReal := iblk m c 1 t
abbrev blk2 (c : Dev nD) (t : Fin cfg0.N) : S8x512.Idx → EReal := iblk m c 2 t
abbrev blk3 (c : Dev nD) (t : Fin cfg0.N) : S8x512.Idx → EReal := iblk m c 3 t
abbrev blk4 (c : Dev nD) (t : Fin cfg0.N) : S8x512.Idx → EReal := iblk m c 4 t
abbrev blk5 (c : Dev nD) (t : Fin cfg0.N) : S512x512.Idx → EReal := iblk m c 5 t

/-- The x window's block is the point's batch row. -/
theorem blk0_apply (c : Dev nD) (t : Fin cfg0.N) (b : Fin 4) (hb : (grid0.coords t 0).val = b.val) (s : Fin 2048) (n : Fin 8) :
    blk0 m c t (ix3 (0 : Fin 1) s n) = xArr m c (ix3 b s n) := by
  obtain ⟨f00, f01, f02, -⟩ := idx_facts t
  unfold blk0 iblk
  rw [View.read_apply]
  show V m c main_arg0 _ = m (c.tc.loc main_arg0) _
  rw [V_main_arg0]
  congr 1
  funext a
  apply Fin.ext
  match a with
  | ⟨0, _⟩ => show win0_0.index t (0 : Fin 3) * 1 + 1 * (0 : ℕ) = b.val; rw [f00, hb]; omega
  | ⟨1, _⟩ => show win0_0.index t (1 : Fin 3) * 2048 + 1 * s.val = s.val; rw [f01]; omega
  | ⟨2, _⟩ => show win0_0.index t (2 : Fin 3) * 8 + 1 * n.val = n.val; rw [f02]; omega

/-- The other windows' blocks are their whole arrays. -/
theorem blk1_apply (c : Dev nD) (t : Fin cfg0.N) (n : Fin 8) : blk1 m c t (ix1 n) = θArr m c (ix1 n) := by
  obtain ⟨-, -, -, f1, -⟩ := idx_facts t
  unfold blk1 iblk
  rw [View.read_apply]
  show V m c main_arg1 _ = m (c.tc.loc main_arg1) _
  rw [V_main_arg1]
  congr 1
  funext a
  apply Fin.ext
  match a with
  | ⟨0, _⟩ => show win0_1.index t (0 : Fin 1) * 8 + 1 * n.val = n.val; rw [f1]; omega

theorem blk2_apply (c : Dev nD) (t : Fin cfg0.N) (n : Fin 8) (e : Fin 512) : blk2 m c t (ix2 n e) = wqTArr m c (ix2 n e) := by
  obtain ⟨-, -, -, -, f20, f21, -⟩ := idx_facts t
  unfold blk2 iblk
  rw [View.read_apply]
  show V m c main_v2 _ = V m c main_v2 _
  congr 1
  funext a
  apply Fin.ext
  match a with
  | ⟨0, _⟩ => show win0_2.index t (0 : Fin 2) * 8 + 1 * n.val = n.val; rw [f20]; omega
  | ⟨1, _⟩ => show win0_2.index t (1 : Fin 2) * 512 + 1 * e.val = e.val; rw [f21]; omega

theorem blk3_apply (c : Dev nD) (t : Fin cfg0.N) (n : Fin 8) (e : Fin 512) : blk3 m c t (ix2 n e) = wkTArr m c (ix2 n e) := by
  obtain ⟨-, -, -, -, -, -, f30, f31, -⟩ := idx_facts t
  unfold blk3 iblk
  rw [View.read_apply]
  show V m c main_v3 _ = V m c main_v3 _
  congr 1
  funext a
  apply Fin.ext
  match a with
  | ⟨0, _⟩ => show win0_3.index t (0 : Fin 2) * 8 + 1 * n.val = n.val; rw [f30]; omega
  | ⟨1, _⟩ => show win0_3.index t (1 : Fin 2) * 512 + 1 * e.val = e.val; rw [f31]; omega

theorem blk4_apply (c : Dev nD) (t : Fin cfg0.N) (n : Fin 8) (e : Fin 512) : blk4 m c t (ix2 n e) = wvTArr m c (ix2 n e) := by
  obtain ⟨-, -, -, -, -, -, -, -, f40, f41, -⟩ := idx_facts t
  unfold blk4 iblk
  rw [View.read_apply]
  show V m c main_v4 _ = V m c main_v4 _
  congr 1
  funext a
  apply Fin.ext
  match a with
  | ⟨0, _⟩ => show win0_4.index t (0 : Fin 2) * 8 + 1 * n.val = n.val; rw [f40]; omega
  | ⟨1, _⟩ => show win0_4.index t (1 : Fin 2) * 512 + 1 * e.val = e.val; rw [f41]; omega

theorem blk5_apply (c : Dev nD) (t : Fin cfg0.N) (e f : Fin 512) : blk5 m c t (ix2 e f) = wcTArr m c (ix2 e f) := by
  obtain ⟨-, -, -, -, -, -, -, -, -, -, f50, f51, -⟩ := idx_facts t
  unfold blk5 iblk
  rw [View.read_apply]
  show V m c main_v5 _ = V m c main_v5 _
  congr 1
  funext a
  apply Fin.ext
  match a with
  | ⟨0, _⟩ => show win0_5.index t (0 : Fin 2) * 512 + 1 * e.val = e.val; rw [f50]; omega
  | ⟨1, _⟩ => show win0_5.index t (1 : Fin 2) * 512 + 1 * f.val = f.val; rw [f51]; omega

/-! ## A point's block on real inputs -/

section
variable (xr : S4x2048x8.Idx → ℝ) (θr : S8.Idx → ℝ) (wqr wkr wvr : S512x8.Idx → ℝ) (wcr : S512x512.Idx → ℝ)

/-- Batch row b of x; the weights transposed, the query weight scaled by 1/8. -/
def xbR (b : Fin 4) : S1x2048x8.Idx → ℝ := fun y =>
  xr (ix3 b (⟨(y 1).val, (y 1).isLt⟩ : Fin 2048) (⟨(y 2).val, (y 2).isLt⟩ : Fin 8))
def wqTR : S8x512.Idx → ℝ := fun y =>
  wqr (ix2 (⟨(y 1).val, (y 1).isLt⟩ : Fin 512) (⟨(y 0).val, (y 0).isLt⟩ : Fin 8)) * (1 / 8)
def wTR (w : S512x8.Idx → ℝ) : S8x512.Idx → ℝ := fun y =>
  w (ix2 (⟨(y 1).val, (y 1).isLt⟩ : Fin 512) (⟨(y 0).val, (y 0).isLt⟩ : Fin 8))
def wcTR : S512x512.Idx → ℝ := fun y =>
  wcr (ix2 (⟨(y 1).val, (y 1).isLt⟩ : Fin 512) (⟨(y 0).val, (y 0).isLt⟩ : Fin 512))

variable (c : Dev nD)
variable (hx : xArr m c = fun j => ((xr j : ℝ) : EReal)) (hθ : θArr m c = fun j => ((θr j : ℝ) : EReal))
  (hq : wqArr m c = fun j => ((wqr j : ℝ) : EReal)) (hk : wkArr m c = fun j => ((wkr j : ℝ) : EReal))
  (hv : wvArr m c = fun j => ((wvr j : ℝ) : EReal)) (hc : wcArr m c = fun j => ((wcr j : ℝ) : EReal))

include hx in
theorem blk0_real (t : Fin cfg0.N) (b : Fin 4) (hb : (grid0.coords t 0).val = b.val) :
    blk0 m c t = fun y => ((xbR xr b y : ℝ) : EReal) := by
  funext y
  obtain ⟨z, s, n, rfl⟩ : ∃ (z : Fin 1) (s : Fin 2048) (n : Fin 8), y = ix3 z s n := ⟨y 0, y 1, y 2, eq_ix3 y⟩
  obtain rfl : z = 0 := Subsingleton.elim _ _
  rw [blk0_apply m c t b hb, hx]
  rfl

include hθ in
theorem blk1_real (t : Fin cfg0.N) : blk1 m c t = fun y => ((θr y : ℝ) : EReal) := by
  funext y
  obtain ⟨n, rfl⟩ : ∃ n : Fin 8, y = ix1 n := ⟨y 0, eq_ix1 y⟩
  rw [blk1_apply m c t, hθ]

include hq in
theorem blk2_real (t : Fin cfg0.N) : blk2 m c t = fun y => ((wqTR wqr y : ℝ) : EReal) := by
  funext y
  obtain ⟨n, e, rfl⟩ : ∃ (n : Fin 8) (e : Fin 512), y = ix2 n e := ⟨y 0, y 1, eq_ix2 y⟩
  rw [blk2_apply m c t, wqT_apply, hq, LibEReal.ofBits_eighth, ← EReal.coe_mul]
  rfl

include hk in
theorem blk3_real (t : Fin cfg0.N) : blk3 m c t = fun y => ((wTR wkr y : ℝ) : EReal) := by
  funext y
  obtain ⟨n, e, rfl⟩ : ∃ (n : Fin 8) (e : Fin 512), y = ix2 n e := ⟨y 0, y 1, eq_ix2 y⟩
  rw [blk3_apply m c t, wkT_apply, hk]
  rfl

include hv in
theorem blk4_real (t : Fin cfg0.N) : blk4 m c t = fun y => ((wTR wvr y : ℝ) : EReal) := by
  funext y
  obtain ⟨n, e, rfl⟩ : ∃ (n : Fin 8) (e : Fin 512), y = ix2 n e := ⟨y 0, y 1, eq_ix2 y⟩
  rw [blk4_apply m c t, wvT_apply, hv]
  rfl

include hc in
theorem blk5_real (t : Fin cfg0.N) : blk5 m c t = fun y => ((wcTR wcr y : ℝ) : EReal) := by
  funext y
  obtain ⟨e, f, rfl⟩ : ∃ (e f : Fin 512), y = ix2 e f := ⟨y 0, y 1, eq_ix2 y⟩
  rw [blk5_apply m c t, wcT_apply, hc]
  rfl

include hx hθ hq hk hv hc in
/-- What a point's body leaves for its output block, at (r, f): the specification at batch row b, position
    512 · qi + r, column f. -/
theorem block_point (t : Fin cfg0.N) (b qi : Fin 4) (hb : (grid0.coords t 0).val = b.val)
    (hqi : (grid0.coords t 1).val = qi.val) (r f : Fin 512) :
    outBlock (F := Ideal)
        (attn (F := Ideal) (grid0.coords t) (blk0 m c t) (blk1 m c t) (blk2 m c t) (blk3 m c t) (blk4 m c t))
        (blk5 m c t) (ix3 (0 : Fin 1) r f)
      = ((out xr θr wqr wkr wvr wcr b (⟨512 * qi.val + r.val, by omega⟩ : Fin 2048) f : ℝ) : EReal) := by
  rw [blk0_real m xr c hx t b hb, blk1_real m θr c hθ t, blk2_real m wqr c hq t, blk3_real m wkr c hk t,
    blk4_real m wvr c hv t, blk5_real m wcr c hc t,
    BlockReal.block_real (xbR xr b) θr (wqTR wqr) (wTR wkr) (wTR wvr) (wcTR wcr) (grid0.coords t) qi hqi r f,
    kout_eq_out xr θr wqr wkr wvr wcr (xbR xr b) (wqTR wqr) (wTR wkr) (wTR wvr) (wcTR wcr) b
      (fun _ _ => rfl) (fun _ _ => rfl) (fun _ _ => rfl) (fun _ _ => rfl) (fun _ _ => rfl)]

include hx hθ hq hk hv hc in
/-- The same at any index of the block. -/
theorem block_point' (t : Fin cfg0.N) (b qi : Fin 4) (hb : (grid0.coords t 0).val = b.val)
    (hqi : (grid0.coords t 1).val = qi.val) (y : S1x512x512.Idx) :
    outBlock (F := Ideal)
        (attn (F := Ideal) (grid0.coords t) (blk0 m c t) (blk1 m c t) (blk2 m c t) (blk3 m c t) (blk4 m c t))
        (blk5 m c t) y
      = ((out xr θr wqr wkr wvr wcr b
          (⟨512 * qi.val + (y 1).val, by have h1 : (y 1).val < 512 := (y 1).isLt; omega⟩ : Fin 2048)
          (⟨(y 2).val, (y 2).isLt⟩ : Fin 512) : ℝ) : EReal) := by
  obtain ⟨z, r, f, rfl⟩ : ∃ (z : Fin 1) (r f : Fin 512), y = ix3 z r f := ⟨y 0, y 1, y 2, eq_ix3 y⟩
  obtain rfl : z = 0 := Subsingleton.elim _ _
  exact block_point m xr θr wqr wkr wvr wcr c hx hθ hq hk hv hc t b qi hb hqi r f

include hx hθ hq hk hv hc in
/-- What point t writes back is block t of the specification. -/
theorem flushed_real (t : Fin cfg0.N) :
    (dats m 0 c).flushed 6 t = ((cfg0.win 6).blk t).view.read (Elt Ideal)
      (fun i : S4x2048x512.Idx => ((out xr θr wqr wkr wvr wcr (i 0) (i 1) (i 2) : ℝ) : EReal)) := by
  obtain ⟨-, -, -, -, -, -, -, -, -, -, -, -, f60, f61, f62, hb4, hq4⟩ := idx_facts t
  rw [Value.flushed6_A, Witness.out_eq]
  funext y
  rw [View.read_apply]
  refine (block_point' m xr θr wqr wkr wvr wcr c hx hθ hq hk hv hc t ⟨(grid0.coords t 0).val, hb4⟩
    ⟨(grid0.coords t 1).val, hq4⟩ rfl rfl y).trans ?_
  have h0 : (y 0).val < 1 := (y 0).isLt
  have h1 : (y 1).val < 512 := (y 1).isLt
  have h2 : (y 2).val < 512 := (y 2).isLt
  have hemb : ((cfg0.win 6).blk t).view.emb y
      = ix3 (⟨(grid0.coords t 0).val, hb4⟩ : Fin 4) (⟨512 * (grid0.coords t 1).val + (y 1).val, by omega⟩ : Fin 2048)
          (⟨(y 2).val, h2⟩ : Fin 512) := by
    funext a
    apply Fin.ext
    match a with
    | ⟨0, _⟩ => show win0_6.index t (0 : Fin 3) * 1 + 1 * (y 0).val = (grid0.coords t 0).val; rw [f60]; omega
    | ⟨1, _⟩ => show win0_6.index t (1 : Fin 3) * 512 + 1 * (y 1).val = 512 * (grid0.coords t 1).val + (y 1).val; rw [f61]; omega
    | ⟨2, _⟩ => show win0_6.index t (2 : Fin 3) * 512 + 1 * (y 2).val = (y 2).val; rw [f62]; omega
  rw [hemb]
  rfl

/-- The sixteen blocks tile the result array. -/
theorem cover (i : S4x2048x512.Idx) :
    ∃ t : Fin cfg0.N, (cfg0.win 6).flush t = true ∧ i ∈ ((cfg0.win 6).blk t).view.set := by
  have h0 : (i 0).val < 4 := (i 0).isLt
  have h1 : (i 1).val < 2048 := (i 1).isLt
  have h2 : (i 2).val < 512 := (i 2).isLt
  obtain ⟨t, ht⟩ := idx_onto ⟨(i 0).val, h0⟩ ⟨(i 1).val / 512, by omega⟩
  have q0 : win0_6.index t (0 : Fin 3) = (i 0).val := congrFun ht 0
  have q1 : win0_6.index t (1 : Fin 3) = (i 1).val / 512 := congrFun ht 1
  have q2 : win0_6.index t (2 : Fin 3) = 0 := congrFun ht 2
  refine ⟨t, flush0_6 t, ?_⟩
  show i ∈ ((View.whole main_v6).slice (win0_6.rect t)).set
  rw [View.set_slice_whole, Rect.mem_set_unit]
  intro a
  match a with
  | ⟨0, _⟩ => show win0_6.index t (0 : Fin 3) * 1 ≤ (i 0).val ∧ (i 0).val < win0_6.index t (0 : Fin 3) * 1 + 1; omega
  | ⟨1, _⟩ => show win0_6.index t (1 : Fin 3) * 512 ≤ (i 1).val ∧ (i 1).val < win0_6.index t (1 : Fin 3) * 512 + 512; omega
  | ⟨2, _⟩ => show win0_6.index t (2 : Fin 3) * 512 ≤ (i 2).val ∧ (i 2).val < win0_6.index t (2 : Fin 3) * 512 + 512; omega

include hx hθ hq hk hv hc in
/-- So the result array ends holding the specification. -/
theorem final_real :
    (dats m 0 c).arrAt 6 cfg0.N
      = fun i : S4x2048x512.Idx => ((out xr θr wqr wkr wvr wcr (i 0) (i 1) (i 2) : ℝ) : EReal) :=
  (dats m 0 c).arrAt_eq_of_cover 6 _ (fun t _ => flushed_real m xr θr wqr wkr wvr wcr c hx hθ hq hk hv hc t) cover

end

/-- On inputs whose entries are all real, the result array ends holding `G` of the inputs. -/
theorem final (c : Dev nD)
    (hreal : IsReal (xArr m c) ∧ IsReal (θArr m c) ∧ IsReal (wqArr m c) ∧ IsReal (wkArr m c) ∧ IsReal (wvArr m c)
      ∧ IsReal (wcArr m c)) :
    (dats m 0 c).arrAt 6 cfg0.N = G (xArr m c) (θArr m c) (wqArr m c) (wkArr m c) (wvArr m c) (wcArr m c) := by
  obtain ⟨h0, h1, h2, h3, h4, h5⟩ := hreal
  exact final_real m (fun j => (xArr m c j).toReal) (fun j => (θArr m c j).toReal) (fun j => (wqArr m c j).toReal)
    (fun j => (wkArr m c j).toReal) (fun j => (wvArr m c j).toReal) (fun j => (wcArr m c j).toReal) c
    h0.eq_coe h1.eq_coe h2.eq_coe h3.eq_coe h4.eq_coe h5.eq_coe

/-- The kernel's run, read: under the precondition the result array ends at `G` of the argument arrays, the arguments
    unchanged. -/
theorem run (hpre : Cert.Pre_KernelIdeal (hPre_finite_inputs := Cert.Pre_finite_inputs.Gen.facts) m) :
    θ_run defs (onTc (τ := τ) (main (F := Ideal))) ⟨m, fun _ => 0, ρ⟩ fun r => ∀ c : Dev nD,
      r.2.mem ((c : Thread nD τ).loc main_v6)
        = G (xArr m c) (θArr m c) (wqArr m c) (wkArr m c) (wvArr m c) (wcArr m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final m c (isReal_of_pre m hpre c)), (h c).2⟩)
    (Cert.KernelIdeal.Value.run_blocks m ρ)

end Cert.KernelIdeal.Blocks

end
-- ==== Proof.RefValue.lean ====
/-
  The reference computes the specification.

  Read one operation at a time at an entry, on real inputs, the reference's program is the specification's formula:
  the encoding cos (x + θ); the three products with the weights; the heads split off the embedding axis by a reshape
  and a transposition (entry (b, h, s, d) of a head array is entry (b, s, 64 h + d) of the product); the scores, a
  product over the head's 64 columns, divided by 8; their maximum along the keys (a fold of `max` from −∞, then
  once more `max` with −∞); the exponentials of the differences, their sum along the keys, the quotient; the product
  with the values; the heads merged back; the product with the output weight. Every intermediate entry is real.
-/
import proofs.«416602_j65481071403103_3_alg».proof.Proof.Gen.ReferenceIdeal.Read
import proofs.«416602_j65481071403103_3_alg».proof.Proof.Spec
import proofs.«416602_j65481071403103_3_alg».proof.Proof.LibEReal
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.ReferenceIdeal.RefValue

open Idealize.ShloMosaic Idealize.ShloMosaic.ValueIdx
open Cert.ReferenceIdeal Cert.Spec

/-- An array of reals handed in as extended reals. -/
private abbrev cE {ι : Type} (f : ι → ℝ) : ι → EReal := fun j => ((f j : ℝ) : EReal)

section Stages
variable (x : SX.Idx → ℝ) (θ : ST.Idx → ℝ) (wq wk wv : SW.Idx → ℝ) (wc : SC.Idx → ℝ)

/-- The encoding: entry (b, s, n) of the cosine stage is cos (x b s n + θ n). -/
private theorem v3_real (b : Fin 4) (s : Fin 2048) (n : Fin 8) :
    Read.val_main_v3 (F := Ideal) (cE x) (cE θ) (ix3 b s n) = ((enc x θ b s n : ℝ) : EReal) := by
  rw [Read.val_main_v3_apply, Read.val_main_v2_apply, Read.val_main_v1_apply, Read.val_main_v0_apply]
  have h : Read.idx_main_v0 (Read.idx_main_v1 (ix3 b s n)) = ix1 n :=
    funext fun a => Fin.ext (by match a with | ⟨0, _⟩ => rfl)
  rw [h, Ideal.hostUnary_cos_def, Ideal.addf_def]
  show Ideal.cos (((x (ix3 b s n) : ℝ) : EReal) + ((θ (ix1 n) : ℝ) : EReal)) = _
  rw [← EReal.coe_add, Ideal.cos_coe]
  rfl

/-- A product with a weight matrix: entry (b, s, e) is the sum over the 8 wires. -/
private theorem v4_real (w : SW.Idx → ℝ) (b : Fin 4) (s : Fin 2048) (e : Fin 512) :
    Read.val_main_v4 (F := Ideal) (cE x) (cE θ) (cE w) (ix3 b s e) = ((lin x θ w b s e : ℝ) : EReal) := by
  rw [Read.val_main_v4_apply]
  unfold lin
  rw [LibEReal.coe_sum]
  refine Finset.sum_congr rfl fun k _ => ?_
  have hl : Read.lidx_main_v4 (ix3 b s e) k = ix3 b s k :=
    funext fun a => Fin.ext (by match a with | ⟨0, _⟩ => rfl | ⟨1, _⟩ => rfl | ⟨2, _⟩ => rfl)
  have hr : Read.ridx_main_v4 (ix3 b s e) k = ix2 e k :=
    funext fun a => Fin.ext (by match a with | ⟨0, _⟩ => rfl | ⟨1, _⟩ => rfl)
  rw [hl, hr, v3_real, EReal.coe_mul]

private theorem v5_real (w : SW.Idx → ℝ) (b : Fin 4) (s : Fin 2048) (e : Fin 512) :
    Read.val_main_v5 (F := Ideal) (cE x) (cE θ) (cE w) (ix3 b s e) = ((lin x θ w b s e : ℝ) : EReal) :=
  v4_real x θ w b s e

private theorem v6_real (w : SW.Idx → ℝ) (b : Fin 4) (s : Fin 2048) (e : Fin 512) :
    Read.val_main_v6 (F := Ideal) (cE x) (cE θ) (cE w) (ix3 b s e) = ((lin x θ w b s e : ℝ) : EReal) :=
  v4_real x θ w b s e

/-- Where entry (b, h, s, d) of a head array sits in the product it is cut from: row (b, s), column 64 h + d. -/
private theorem head_idx (b : Fin 4) (h : Fin 8) (s : Fin 2048) (d : Fin 64) :
    Read.idx_main_v7 (Read.idx_main_v8 (ix4 b h s d)) = ix3 b s (hcol h d) := by
  have hb := b.isLt; have hh := h.isLt; have hs := s.isLt; have hd := d.isLt
  exact funext fun a => Fin.ext (by
    match a with
    | ⟨0, _⟩ => show (((b.val * 2048 + s.val) * 8 + h.val) * 64 + d.val) / 1048576 = b.val; omega
    | ⟨1, _⟩ => show (((b.val * 2048 + s.val) * 8 + h.val) * 64 + d.val) / 512 % 2048 = s.val; omega
    | ⟨2, _⟩ => show (((b.val * 2048 + s.val) * 8 + h.val) * 64 + d.val) % 512 = 64 * h.val + d.val; omega)

/-- The queries by head. -/
private theorem v8_real (w : SW.Idx → ℝ) (b : Fin 4) (h : Fin 8) (s : Fin 2048) (d : Fin 64) :
    Read.val_main_v8 (F := Ideal) (cE x) (cE θ) (cE w) (ix4 b h s d) = ((lin x θ w b s (hcol h d) : ℝ) : EReal) := by
  rw [Read.val_main_v8_apply, Read.val_main_v7_apply, head_idx, v4_real]

/-- The keys by head. -/
private theorem v10_real (w : SW.Idx → ℝ) (b : Fin 4) (h : Fin 8) (s : Fin 2048) (d : Fin 64) :
    Read.val_main_v10 (F := Ideal) (cE x) (cE θ) (cE w) (ix4 b h s d) = ((lin x θ w b s (hcol h d) : ℝ) : EReal) := by
  rw [Read.val_main_v10_apply, Read.val_main_v9_apply]
  show Read.val_main_v5 (F := Ideal) (cE x) (cE θ) (cE w) (Read.idx_main_v7 (Read.idx_main_v8 (ix4 b h s d))) = _
  rw [head_idx, v5_real]

/-- The values by head. -/
private theorem v12_real (w : SW.Idx → ℝ) (b : Fin 4) (h : Fin 8) (s : Fin 2048) (d : Fin 64) :
    Read.val_main_v12 (F := Ideal) (cE x) (cE θ) (cE w) (ix4 b h s d) = ((lin x θ w b s (hcol h d) : ℝ) : EReal) := by
  rw [Read.val_main_v12_apply, Read.val_main_v11_apply]
  show Read.val_main_v6 (F := Ideal) (cE x) (cE θ) (cE w) (Read.idx_main_v7 (Read.idx_main_v8 (ix4 b h s d))) = _
  rw [head_idx, v6_real]

end Stages

section Scores
variable (x : SX.Idx → ℝ) (θ : ST.Idx → ℝ) (wq wk wv : SW.Idx → ℝ) (wc : SC.Idx → ℝ)

/-- The product of a query row and a key row over the head's 64 columns. -/
private theorem v13_real (b : Fin 4) (h : Fin 8) (i j : Fin 2048) :
    Read.val_main_v13 (F := Ideal) (cE x) (cE θ) (cE wq) (cE wk) (ix4 b h i j)
      = ((∑ d : Fin 64, lin x θ wq b i (hcol h d) * lin x θ wk b j (hcol h d) : ℝ) : EReal) := by
  rw [Read.val_main_v13_apply, LibEReal.coe_sum]
  refine Finset.sum_congr rfl fun k _ => ?_
  have hl : Read.lidx_main_v13 (ix4 b h i j) k = ix4 b h i k :=
    funext fun a => Fin.ext (by match a with | ⟨0, _⟩ => rfl | ⟨1, _⟩ => rfl | ⟨2, _⟩ => rfl | ⟨3, _⟩ => rfl)
  have hr : Read.ridx_main_v13 (ix4 b h i j) k = ix4 b h j k :=
    funext fun a => Fin.ext (by match a with | ⟨0, _⟩ => rfl | ⟨1, _⟩ => rfl | ⟨2, _⟩ => rfl | ⟨3, _⟩ => rfl)
  rw [hl, hr, v8_real, v10_real, EReal.coe_mul]

/-- The scores: that product over 8. -/
private theorem v15_real (b : Fin 4) (h : Fin 8) (i j : Fin 2048) :
    Read.val_main_v15 (F := Ideal) (cE x) (cE θ) (cE wq) (cE wk) (ix4 b h i j)
      = ((score x θ wq wk b h i j : ℝ) : EReal) := by
  rw [Read.val_main_v15_apply, Read.val_main_v14_apply, Read.val_main_cst_apply, v13_real, Ideal.hostDivf_def]
  show Ideal.div _ (Ideal.ofBits .f32 0x41000000#32) = _
  rw [LibEReal.ofBits_eight, LibEReal.div_coe_coe _ _ (by norm_num)]
  rfl

/-- Reducing the last axis of the score array: over (b, h, i), key coordinate k put back is (b, h, i, k). -/
private theorem lift_axis3 (hR : S4x8x2048x2048.Reduces [3] S4x8x2048) (b : Fin 4) (h : Fin 8) (i : Fin 2048)
    (k : Fin (S4x8x2048x2048.size 3)) : hR.lift (ix3 b h i) k = ix4 b h i (⟨k.val, k.isLt⟩ : Fin 2048) := by
  funext c; apply Fin.ext
  fin_cases c <;> rfl

/-- The greatest score of a query row: the fold of max from −∞ along the keys. -/
private theorem v16_real (b : Fin 4) (h : Fin 8) (i : Fin 2048) :
    Read.val_main_v16 (F := Ideal) (cE x) (cE θ) (cE wq) (cE wk) (ix3 b h i)
      = ((rowSup (fun j => score x θ wq wk b h i j) : ℝ) : EReal) := by
  have hR : S4x8x2048x2048.Reduces [3] S4x8x2048 := by decide
  unfold Read.val_main_v16
  rw [Host.reduce_eq_fold_single FloatOps.maximumf _ _ Facts₀.reducesTo_S4x8x2048x2048_S4x8x2048_d3 hR Facts₀.h_S_
    (ix3 b h i)]
  have hf : (Read.val_main_v15 (F := Ideal) (cE x) (cE θ) (cE wq) (cE wk) ∘ hR.lift (ix3 b h i))
      = fun k : Fin 2048 => ((score x θ wq wk b h i k : ℝ) : EReal) := by
    funext k
    show Read.val_main_v15 (F := Ideal) (cE x) (cE θ) (cE wq) (cE wk) (hR.lift (ix3 b h i) k) = _
    rw [lift_axis3, v15_real]
    rfl
  rw [hf, Read.val_main_cst_0_apply]
  show (Finset.univ : Finset (Fin 2048)).fold max (Ideal.ofBits .f32 0xFF800000#32)
      (fun k => ((score x θ wq wk b h i k : ℝ) : EReal)) = _
  rw [LibEReal.ofBits_neg_inf, LibEReal.fold_max_bot_coe Finset.univ_nonempty]
  rfl

/-- Once more max with −∞ changes nothing. -/
private theorem v18_real (b : Fin 4) (h : Fin 8) (i : Fin 2048) :
    Read.val_main_v18 (F := Ideal) (cE x) (cE θ) (cE wq) (cE wk) (ix3 b h i)
      = ((rowSup (fun j => score x θ wq wk b h i j) : ℝ) : EReal) := by
  rw [Read.val_main_v18_apply, Read.val_main_v17_apply, Read.val_main_cst_1_apply, v16_real, Ideal.maximumf_def]
  show max (Ideal.ofBits .f32 0xFF800000#32) _ = _
  rw [LibEReal.ofBits_neg_inf]
  exact max_eq_right bot_le

/-- The row's greatest score spread back along the keys. -/
private theorem v20_real (b : Fin 4) (h : Fin 8) (i j : Fin 2048) :
    Read.val_main_v20 (F := Ideal) (cE x) (cE θ) (cE wq) (cE wk) (ix4 b h i j)
      = ((rowSup (fun j' => score x θ wq wk b h i j') : ℝ) : EReal) := by
  rw [Read.val_main_v20_apply, Read.val_main_v19_apply]
  have hi : Read.idx_main_v19 (Read.idx_main_v20 (ix4 b h i j)) = ix3 b h i :=
    funext fun a => Fin.ext (by match a with | ⟨0, _⟩ => rfl | ⟨1, _⟩ => rfl | ⟨2, _⟩ => rfl)
  rw [hi, v18_real]

/-- The exponential of a score less the row's greatest. -/
private theorem v22_real (b : Fin 4) (h : Fin 8) (i j : Fin 2048) :
    Read.val_main_v22 (F := Ideal) (cE x) (cE θ) (cE wq) (cE wk) (ix4 b h i j)
      = ((Real.exp (score x θ wq wk b h i j - rowSup (fun j' => score x θ wq wk b h i j')) : ℝ) : EReal) := by
  rw [Read.val_main_v22_apply, Read.val_main_v21_apply, v15_real, v20_real, Ideal.hostUnary_exp_def, Ideal.subf_def,
    ← EReal.coe_sub, Ideal.exp_coe]

/-- The sum of a row's exponentials. -/
private theorem v23_real (b : Fin 4) (h : Fin 8) (i : Fin 2048) :
    Read.val_main_v23 (F := Ideal) (cE x) (cE θ) (cE wq) (cE wk) (ix3 b h i)
      = ((∑ j : Fin 2048, Real.exp (score x θ wq wk b h i j - rowSup (fun j' => score x θ wq wk b h i j')) : ℝ) : EReal) := by
  rw [Read.val_main_v23_apply, Read.val_main_cst_2_apply]
  show Ideal.ofBits .f32 0x00000000#32 + _ = _
  rw [Ideal.ofBits_zero_f32, zero_add, LibEReal.coe_sum]
  refine Finset.sum_congr rfl fun k _ => ?_
  have hi : Read.idx_main_v23 (ix3 b h i) k = ix4 b h i k :=
    funext fun a => Fin.ext (by match a with | ⟨0, _⟩ => rfl | ⟨1, _⟩ => rfl | ⟨2, _⟩ => rfl | ⟨3, _⟩ => rfl)
  rw [hi, v22_real]

/-- That sum spread back along the keys. -/
private theorem v25_real (b : Fin 4) (h : Fin 8) (i j : Fin 2048) :
    Read.val_main_v25 (F := Ideal) (cE x) (cE θ) (cE wq) (cE wk) (ix4 b h i j)
      = ((∑ j' : Fin 2048, Real.exp (score x θ wq wk b h i j' - rowSup (fun j'' => score x θ wq wk b h i j'')) : ℝ) : EReal) := by
  rw [Read.val_main_v25_apply, Read.val_main_v24_apply]
  have hi : Read.idx_main_v24 (Read.idx_main_v25 (ix4 b h i j)) = ix3 b h i :=
    funext fun a => Fin.ext (by match a with | ⟨0, _⟩ => rfl | ⟨1, _⟩ => rfl | ⟨2, _⟩ => rfl)
  rw [hi, v23_real]

/-- The weights: each exponential over the row's sum, a sum of positive terms. -/
private theorem v26_real (b : Fin 4) (h : Fin 8) (i j : Fin 2048) :
    Read.val_main_v26 (F := Ideal) (cE x) (cE θ) (cE wq) (cE wk) (ix4 b h i j)
      = ((Real.exp (score x θ wq wk b h i j - rowSup (fun j' => score x θ wq wk b h i j'))
          / (∑ j' : Fin 2048, Real.exp (score x θ wq wk b h i j' - rowSup (fun j'' => score x θ wq wk b h i j''))) : ℝ) : EReal) := by
  rw [Read.val_main_v26_apply, v22_real, v25_real, Ideal.hostDivf_def]
  exact LibEReal.div_coe_coe _ _ (ne_of_gt (Finset.sum_pos (fun _ _ => Real.exp_pos _) Finset.univ_nonempty))

end Scores

section Result
variable (x : SX.Idx → ℝ) (θ : ST.Idx → ℝ) (wq wk wv : SW.Idx → ℝ) (wc : SC.Idx → ℝ)

/-- A head's context: the weights' combination of the value rows. -/
private theorem v27_real (b : Fin 4) (h : Fin 8) (i : Fin 2048) (d : Fin 64) :
    Read.val_main_v27 (F := Ideal) (cE x) (cE θ) (cE wq) (cE wk) (cE wv) (ix4 b h i d)
      = ((ctx x θ wq wk wv b i h d : ℝ) : EReal) := by
  rw [Read.val_main_v27_apply]
  unfold ctx softmaxDot
  rw [LibEReal.coe_sum]
  refine Finset.sum_congr rfl fun k _ => ?_
  have hl : Read.lidx_main_v27 (ix4 b h i d) k = ix4 b h i k :=
    funext fun a => Fin.ext (by match a with | ⟨0, _⟩ => rfl | ⟨1, _⟩ => rfl | ⟨2, _⟩ => rfl | ⟨3, _⟩ => rfl)
  have hr : Read.ridx_main_v27 (ix4 b h i d) k = ix4 b h k d :=
    funext fun a => Fin.ext (by match a with | ⟨0, _⟩ => rfl | ⟨1, _⟩ => rfl | ⟨2, _⟩ => rfl | ⟨3, _⟩ => rfl)
  rw [hl, hr, v26_real, v12_real, EReal.coe_mul]

/-- Where entry (b, i, e) of the merged array sits among the heads: head e / 64, row i, column e mod 64. -/
private theorem merge_idx (b : Fin 4) (i : Fin 2048) (e : Fin 512) :
    Read.idx_main_v28 (Read.idx_main_v29 (ix3 b i e)) = ix4 b (ehead e) i (elane e) := by
  have hb := b.isLt; have hi := i.isLt; have he := e.isLt
  exact funext fun a => Fin.ext (by
    match a with
    | ⟨0, _⟩ => show ((b.val * 2048 + i.val) * 512 + e.val) / 1048576 = b.val; omega
    | ⟨1, _⟩ => show ((b.val * 2048 + i.val) * 512 + e.val) / 64 % 8 = e.val / 64; omega
    | ⟨2, _⟩ => show ((b.val * 2048 + i.val) * 512 + e.val) / 512 % 2048 = i.val; omega
    | ⟨3, _⟩ => show ((b.val * 2048 + i.val) * 512 + e.val) % 64 = e.val % 64; omega)

/-- The heads' contexts side by side. -/
private theorem v29_real (b : Fin 4) (i : Fin 2048) (e : Fin 512) :
    Read.val_main_v29 (F := Ideal) (cE x) (cE θ) (cE wq) (cE wk) (cE wv) (ix3 b i e)
      = ((ctxE x θ wq wk wv b i e : ℝ) : EReal) := by
  rw [Read.val_main_v29_apply, Read.val_main_v28_apply, merge_idx, v27_real]
  rfl

end Result

/-- On real inputs the reference's result is the specification, entry by entry. -/
theorem ref_real (x : SX.Idx → ℝ) (θ : ST.Idx → ℝ) (wq wk wv : SW.Idx → ℝ) (wc : SC.Idx → ℝ) :
    Cert.ReferenceIdeal.Read.val_main_v30 (F := Ideal) (fun j => ((x j : ℝ) : EReal)) (fun j => ((θ j : ℝ) : EReal))
        (fun j => ((wq j : ℝ) : EReal)) (fun j => ((wk j : ℝ) : EReal)) (fun j => ((wv j : ℝ) : EReal))
        (fun j => ((wc j : ℝ) : EReal))
      = fun i => ((out x θ wq wk wv wc (i 0) (i 1) (i 2) : ℝ) : EReal) := by
  funext i
  obtain ⟨b, s, f, rfl⟩ : ∃ b s f, i = ix3 b s f := ⟨i 0, i 1, i 2, eq_ix3 i⟩
  show Read.val_main_v30 (F := Ideal) (cE x) (cE θ) (cE wq) (cE wk) (cE wv) (cE wc) (ix3 b s f)
    = ((out x θ wq wk wv wc b s f : ℝ) : EReal)
  rw [Read.val_main_v30_apply]
  unfold out
  rw [LibEReal.coe_sum]
  refine Finset.sum_congr rfl fun k _ => ?_
  have hl : Read.lidx_main_v30 (ix3 b s f) k = ix3 b s k :=
    funext fun a => Fin.ext (by match a with | ⟨0, _⟩ => rfl | ⟨1, _⟩ => rfl | ⟨2, _⟩ => rfl)
  have hr : Read.ridx_main_v30 (ix3 b s f) k = ix2 f k :=
    funext fun a => Fin.ext (by match a with | ⟨0, _⟩ => rfl | ⟨1, _⟩ => rfl)
  rw [hl, hr, v29_real, EReal.coe_mul]

end Cert.ReferenceIdeal.RefValue

end
-- ==== Proof.lean ====
/-
  Multi-head attention over a cosine encoding: the tiled kernel against the plain reference, over the extended reals.

  Both programs encode x as cos (x + θ), project to queries, keys and values, and for each of 8 heads of width 64 form
  softmax (q kᵀ / 8) v, then multiply the heads' contexts, side by side, by the output weight. The reference does so
  with whole-array operations. The kernel runs on a 4 × 4 grid (batch row × tile of 512 query rows); at each point it
  recomputes keys and values for the whole row and queries for its own rows — with 1/8 folded into the query weight
  beforehand — and evaluates each head's softmax online over four key tiles, carrying a running maximum, normaliser
  and weighted sum.

  The two agree on inputs whose entries are all real (the precondition): the online recurrence telescopes, because
  exp (m − m') · exp (s − m) = exp (s − m'), to Σ_j exp (s_j − max s) v_j over Σ_j exp (s_j − max s); dividing that
  quotient out, Σ_j (e_j / L) v_j = (Σ_j e_j v_j) / L; and the factor 1/8 moves across the finite sums. All of it is
  algebra of finite real sums, which is why finiteness is used: the extended reals do not distribute at ±∞.

  The three frame claims: the kernel's two are the generated frame certificates; the reference's is its generated
  run with the result dropped. The idealization rewrote nothing, so it is preserved trivially. The algebraic claim
  sets the kernel's run (every block the specification's block, the blocks tiling the result) beside the reference's
  run (the specification, operation by operation), both stated with the same function `Spec.G` of the arguments.
-/
import proofs.«416602_j65481071403103_3_alg».proof.Defs
import proofs.«416602_j65481071403103_3_alg».proof.Proof.Gen.Kernel
import proofs.«416602_j65481071403103_3_alg».proof.Proof.Gen.Kernel.Skeleton
import proofs.«416602_j65481071403103_3_alg».proof.Proof.Gen.Kernel.Launch
import proofs.«416602_j65481071403103_3_alg».proof.Proof.Gen.Kernel.Points
import proofs.«416602_j65481071403103_3_alg».proof.Proof.Gen.Kernel.Frame
import proofs.«416602_j65481071403103_3_alg».proof.Proof.Gen.KernelIdeal
import proofs.«416602_j65481071403103_3_alg».proof.Proof.Gen.KernelIdeal.Skeleton
import proofs.«416602_j65481071403103_3_alg».proof.Proof.Gen.KernelIdeal.Launch
import proofs.«416602_j65481071403103_3_alg».proof.Proof.Gen.KernelIdeal.Points
import proofs.«416602_j65481071403103_3_alg».proof.Proof.Gen.KernelIdeal.Frame
import proofs.«416602_j65481071403103_3_alg».proof.Proof.Gen.ReferenceIdeal
import proofs.«416602_j65481071403103_3_alg».proof.Proof.Gen.Pre_finite_inputs
import proofs.«416602_j65481071403103_3_alg».proof.Proof.Gen.KernelIdeal.Value
import proofs.«416602_j65481071403103_3_alg».proof.Proof.Gen.ReferenceIdeal.Run
import proofs.«416602_j65481071403103_3_alg».proof.Proof.Gen.ReferenceIdeal.Read
import proofs.«416602_j65481071403103_3_alg».proof.Proof.Blocks
import proofs.«416602_j65481071403103_3_alg».proof.Proof.RefValue
import Idealize.ShloMosaic.Adequacy
import Idealize.ShloMosaic.Init

noncomputable section

namespace Cert.Proof

open Idealize.ShloMosaic Idealize.ShloMosaic.TcCoe Idealize.SL.Sem
open Cert.Spec Cert.KernelIdeal.HostPrefix

/-- On arrays whose entries are all real the reference's result is `G` of them. -/
theorem ref_G (x : SX.Idx → EReal) (θ : ST.Idx → EReal) (wq wk wv : SW.Idx → EReal) (wc : SC.Idx → EReal)
    (hx : IsReal x) (hθ : IsReal θ) (hq : IsReal wq) (hk : IsReal wk) (hv : IsReal wv) (hc : IsReal wc) :
    Cert.ReferenceIdeal.Read.val_main_v30 (F := Ideal) x θ wq wk wv wc = G x θ wq wk wv wc := by
  conv_lhs => rw [hx.eq_coe, hθ.eq_coe, hq.eq_coe, hk.eq_coe, hv.eq_coe, hc.eq_coe]
  exact Cert.ReferenceIdeal.RefValue.ref_real _ _ _ _ _ _

theorem frame_k : Cert.frame_Kernel (hKernel := Cert.Kernel.Gen.facts) (hPre_finite_inputs := Cert.Pre_finite_inputs.Gen.facts) :=
  fun m ρ _ => Cert.Kernel.Gen.frame m ρ

theorem frame_ki : Cert.frame_KernelIdeal (hKernelIdeal := Cert.KernelIdeal.Gen.facts) (hPre_finite_inputs := Cert.Pre_finite_inputs.Gen.facts) :=
  fun m ρ _ => Cert.KernelIdeal.Gen.frame m ρ

theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2)
    (Cert.ReferenceIdeal.Value.run (F := Ideal) m ρ)

/-- Both runs end with the result array at `G` of the (agreeing) argument arrays. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => G (xArr m c) (θArr m c) (wqArr m c) (wkArr m c) (wvArr m c) (wcArr m c),
    Cert.KernelIdeal.Blocks.run m ρ hpre, ?_⟩
  refine (θ_run Cert.ReferenceIdeal.defs _ _).mono (fun _ h c => ⟨(h c).1.trans ?_, (h c).2⟩)
    (Cert.ReferenceIdeal.Value.run (F := Ideal) m' ρ')
  obtain ⟨r0, r1, r2, r3, r4, r5⟩ := isReal_of_pre m hpre c
  rw [Cert.ReferenceIdeal.Read.val_main_v30_eq, (hagree c).1, (hagree c).2.1, (hagree c).2.2.1, (hagree c).2.2.2.1,
    (hagree c).2.2.2.2.1, (hagree c).2.2.2.2.2]
  exact ref_G _ _ _ _ _ _ r0 r1 r2 r3 r4 r5

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
